-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x10 : Shape := ⟨2, ![2097152, 10]⟩
abbrev S2097152 : Shape := ⟨1, ![2097152]⟩
abbrev S1048576x8 : Shape := ⟨2, ![1048576, 8]⟩
abbrev S1048576 : Shape := ⟨1, ![1048576]⟩
abbrev S4194304 : Shape := ⟨1, ![4194304]⟩
abbrev S65536 : Shape := ⟨1, ![65536]⟩
abbrev S10x16 : Shape := ⟨2, ![10, 16]⟩
abbrev S16 : Shape := ⟨1, ![16]⟩
abbrev S8x16 : Shape := ⟨2, ![8, 16]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2097152x10 : S_.BroadcastsInDim S2097152x10 (![] : Fin 0 → Fin S2097152x10.rank)
  reducesTo_S2097152x10_S_d0_1 : S2097152x10.ReducesTo [0, 1] S_
  h_S_ : 0 < S_.numel
  bcast_S_S1048576x8 : S_.BroadcastsInDim S1048576x8 (![] : Fin 0 → Fin S1048576x8.rank)
  reducesTo_S1048576x8_S_d0_1 : S1048576x8.ReducesTo [0, 1] S_
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S4194304 : S_.BroadcastsInDim S4194304 (![] : Fin 0 → Fin S4194304.rank)
  reducesTo_S4194304_S_d0 : S4194304.ReducesTo [0] S_
  bcast_S_S65536 : S_.BroadcastsInDim S65536 (![] : Fin 0 → Fin S65536.rank)
  reducesTo_S65536_S_d0 : S65536.ReducesTo [0] S_

variable [Facts]

def fn_part5 {F : FTy → Type} [FloatOps F] (main_arg7 : IVec S65536 32) (main_v81 : IVec S_ 1) (main_v83 : IVec S65536 1) (main_c_33 : IVec S_ 1) : IVec S_ 1 :=
  let main_v84 : IVec S_ 1 := (fun x v => Host.reduce IntOp.andi x v reducesTo_S65536_S_d0 h_S_) main_v83 main_c_33
  let main_v85 : IVec S_ 1 := andi main_v81 main_v84
  let main_c_34 : IVec S_ 32 := constantI S_ 32 1048576#32
  let main_v86 : IVec S65536 32 := broadcastInDim S65536 ![] bcast_S_S65536 main_c_34
  let main_v87 : IVec S65536 1 := cmpi .slt main_arg7 main_v86
  let main_c_35 : IVec S_ 1 := constantI S_ 1 1#1
  let main_v88 : IVec S_ 1 := (fun x v => Host.reduce IntOp.andi x v reducesTo_S65536_S_d0 h_S_) main_v87 main_c_35
  let main_v89 : IVec S_ 1 := andi main_v85 main_v88
  main_v89

def fn_part4 {F : FTy → Type} [FloatOps F] (main_arg5 : IVec S4194304 32) (main_arg7 : IVec S65536 32) (main_arg19 : FVec F S1 .f32) (main_v63 : IVec S_ 1) (main_v67 : IVec S_ 1) : IVec S_ 1 :=
  let main_v68 : IVec S_ 1 := andi main_v63 main_v67
  let main_v69 : FVec F S1 .f32 := Host.absf main_arg19
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S4194304 32 := broadcastInDim S4194304 ![] bcast_S_S4194304 main_c_28
  let main_v75 : IVec S4194304 1 := cmpi .sge main_arg5 main_v74
  let main_c_29 : IVec S_ 1 := constantI S_ 1 1#1
  let main_v76 : IVec S_ 1 := (fun x v => Host.reduce IntOp.andi x v reducesTo_S4194304_S_d0 h_S_) main_v75 main_c_29
  let main_v77 : IVec S_ 1 := andi main_v73 main_v76
  let main_c_30 : IVec S_ 32 := constantI S_ 32 2097152#32
  let main_v78 : IVec S4194304 32 := broadcastInDim S4194304 ![] bcast_S_S4194304 main_c_30
  let main_v79 : IVec S4194304 1 := cmpi .slt main_arg5 main_v78
  let main_c_31 : IVec S_ 1 := constantI S_ 1 1#1
  let main_v80 : IVec S_ 1 := (fun x v => Host.reduce IntOp.andi x v reducesTo_S4194304_S_d0 h_S_) main_v79 main_c_31
  let main_v81 : IVec S_ 1 := andi main_v77 main_v80
  let main_c_32 : IVec S_ 32 := constantI S_ 32 0#32
  let main_v82 : IVec S65536 32 := broadcastInDim S65536 ![] bcast_S_S65536 main_c_32
  let main_v83 : IVec S65536 1 := cmpi .sge main_arg7 main_v82
  let main_c_33 : IVec S_ 1 := constantI S_ 1 1#1
  fn_part5 (F := F) main_arg7 main_v81 main_v83 main_c_33

def fn_part3 {F : FTy → Type} [FloatOps F] (main_arg5 : IVec S4194304 32) (main_arg7 : IVec S65536 32) (main_arg16 : FVec F S64x64 .f32) (main_arg17 : FVec F S64 .f32) (main_arg18 : FVec F S64x1 .f32) (main_arg19 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg16
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg17
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg18
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg5 main_arg7 main_arg19 main_v63 main_v67

def fn_part2 {F : FTy → Type} [FloatOps F] (main_arg5 : IVec S4194304 32) (main_arg7 : IVec S65536 32) (main_arg12 : FVec F S10x16 .f32) (main_arg13 : FVec F S16 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v33 : IVec S_ 1) : IVec S_ 1 :=
  let main_v34 : FVec F S10x16 .f32 := Host.absf main_arg12
  let main_cst_12 : FVec F S_ .f32 := constant S_ .f32 0x7F800000#32
  let main_v35 : FVec F S10x16 .f32 := broadcastInDim S10x16 ![] bcast_S_S10x16 main_cst_12
  let main_v36 : IVec S10x16 1 := cmpf .olt main_v34 main_v35
  let main_c_13 : IVec S_ 1 := constantI S_ 1 1#1
  let main_v37 : IVec S_ 1 := (fun x v => Host.reduce IntOp.andi x v reducesTo_S10x16_S_d0_1 h_S_) main_v36 main_c_13
  let main_v38 : IVec S_ 1 := andi main_v33 main_v37
  let main_v39 : FVec F S16 .f32 := Host.absf main_arg13
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S64x64 .f32 := Host.absf main_arg14
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg15
  let main_cst_18 : FVec F S_ .f32 := constant S_ .f32 0x7F800000#32
  let main_v50 : FVec F S64 .f32 := broadcastInDim S64 ![] bcast_S_S64 main_cst_18
  fn_part3 (F := F) main_arg5 main_arg7 main_arg16 main_arg17 main_arg18 main_arg19 main_v48 main_v49 main_v50

def fn_part1 {F : FTy → Type} [FloatOps F] (main_arg5 : IVec S4194304 32) (main_arg7 : IVec S65536 32) (main_arg9 : FVec F S16 .f32) (main_arg10 : FVec F S8x16 .f32) (main_arg11 : FVec F S16 .f32) (main_arg12 : FVec F S10x16 .f32) (main_arg13 : FVec F S16 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  let main_v19 : FVec F S16 .f32 := Host.absf main_arg9
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S8x16 .f32 := Host.absf main_arg10
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S16 .f32 := Host.absf main_arg11
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg5 main_arg7 main_arg12 main_arg13 main_arg14 main_arg15 main_arg16 main_arg17 main_arg18 main_arg19 main_v33

def fn {F : FTy → Type} [FloatOps F] (main_arg0 : FVec F S2097152x10 .f32) (main_arg1 : IVec S2097152 32) (main_arg2 : FVec F S1048576x8 .f32) (main_arg3 : IVec S1048576 32) (main_arg4 : FVec F S2097152x10 .f32) (main_arg5 : IVec S4194304 32) (main_arg6 : IVec S4194304 32) (main_arg7 : IVec S65536 32) (main_arg8 : FVec F S10x16 .f32) (main_arg9 : FVec F S16 .f32) (main_arg10 : FVec F S8x16 .f32) (main_arg11 : FVec F S16 .f32) (main_arg12 : FVec F S10x16 .f32) (main_arg13 : FVec F S16 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) : IVec S_ 1 :=
  let main_v0 : FVec F S2097152x10 .f32 := Host.absf main_arg0
  let main_cst : FVec F S_ .f32 := constant S_ .f32 0x7F800000#32
  let main_v1 : FVec F S2097152x10 .f32 := broadcastInDim S2097152x10 ![] bcast_S_S2097152x10 main_cst
  let main_v2 : IVec S2097152x10 1 := cmpf .olt main_v0 main_v1
  let main_c : IVec S_ 1 := constantI S_ 1 1#1
  let main_v3 : IVec S_ 1 := (fun x v => Host.reduce IntOp.andi x v reducesTo_S2097152x10_S_d0_1 h_S_) main_v2 main_c
  let main_v4 : FVec F S1048576x8 .f32 := Host.absf main_arg2
  let main_cst_0 : FVec F S_ .f32 := constant S_ .f32 0x7F800000#32
  let main_v5 : FVec F S1048576x8 .f32 := broadcastInDim S1048576x8 ![] bcast_S_S1048576x8 main_cst_0
  let main_v6 : IVec S1048576x8 1 := cmpf .olt main_v4 main_v5
  let main_c_1 : IVec S_ 1 := constantI S_ 1 1#1
  let main_v7 : IVec S_ 1 := (fun x v => Host.reduce IntOp.andi x v reducesTo_S1048576x8_S_d0_1 h_S_) main_v6 main_c_1
  let main_v8 : IVec S_ 1 := andi main_v3 main_v7
  let main_v9 : FVec F S2097152x10 .f32 := Host.absf main_arg4
  let main_cst_2 : FVec F S_ .f32 := constant S_ .f32 0x7F800000#32
  let main_v10 : FVec F S2097152x10 .f32 := broadcastInDim S2097152x10 ![] bcast_S_S2097152x10 main_cst_2
  let main_v11 : IVec S2097152x10 1 := cmpf .olt main_v9 main_v10
  let main_c_3 : IVec S_ 1 := constantI S_ 1 1#1
  let main_v12 : IVec S_ 1 := (fun x v => Host.reduce IntOp.andi x v reducesTo_S2097152x10_S_d0_1 h_S_) main_v11 main_c_3
  let main_v13 : IVec S_ 1 := andi main_v8 main_v12
  let main_v14 : FVec F S10x16 .f32 := Host.absf main_arg8
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_arg5 main_arg7 main_arg9 main_arg10 main_arg11 main_arg12 main_arg13 main_arg14 main_arg15 main_arg16 main_arg17 main_arg18 main_arg19 main_v13 main_v16
-- ==== Kernel.lean ====
abbrev S2097152x10 : Shape := ⟨2, ![2097152, 10]⟩
abbrev S2097152 : Shape := ⟨1, ![2097152]⟩
abbrev S1048576x8 : Shape := ⟨2, ![1048576, 8]⟩
abbrev S1048576 : Shape := ⟨1, ![1048576]⟩
abbrev S4194304 : Shape := ⟨1, ![4194304]⟩
abbrev S65536 : Shape := ⟨1, ![65536]⟩
abbrev S10x16 : Shape := ⟨2, ![10, 16]⟩
abbrev S16 : Shape := ⟨1, ![16]⟩
abbrev S8x16 : Shape := ⟨2, ![8, 16]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x16 : Shape := ⟨2, ![1, 16]⟩
abbrev S2097152x16 : Shape := ⟨2, ![2097152, 16]⟩
abbrev S8192x10 : Shape := ⟨2, ![8192, 10]⟩
abbrev S8192x16 : Shape := ⟨2, ![8192, 16]⟩
abbrev S1048576x16 : Shape := ⟨2, ![1048576, 16]⟩
abbrev S8192x8 : Shape := ⟨2, ![8192, 8]⟩
abbrev S_ : Shape := ⟨0, ![]⟩
abbrev S65536x16 : Shape := ⟨2, ![65536, 16]⟩
abbrev S2097152x1 : Shape := ⟨2, ![2097152, 1]⟩
abbrev S65536x1 : Shape := ⟨2, ![65536, 1]⟩
abbrev S4194304x1 : Shape := ⟨2, ![4194304, 1]⟩
abbrev S1x1 : Shape := ⟨2, ![1, 1]⟩
abbrev S4194304x16 : Shape := ⟨2, ![4194304, 16]⟩
abbrev S1048576x1 : Shape := ⟨2, ![1048576, 1]⟩
abbrev S1048576x32 : Shape := ⟨2, ![1048576, 32]⟩
abbrev S65536x32 : Shape := ⟨2, ![65536, 32]⟩
abbrev S65536x64 : Shape := ⟨2, ![65536, 64]⟩
abbrev S1x64 : Shape := ⟨2, ![1, 64]⟩
abbrev S4096x64 : Shape := ⟨2, ![4096, 64]⟩
abbrev S4096x1 : Shape := ⟨2, ![4096, 1]⟩

abbrev nBuf : Space → Nat
  | .hbm => 123
  | .vmem => 28
  | .smem => 0
  | _ => 0

abbrev bufTy : (tb : Table) → Fin (tcTables nBuf tb) → BufTy
  | .hbm, ⟨0, _⟩ => ⟨S2097152x10, .f32⟩
  | .hbm, ⟨1, _⟩ => ⟨S2097152, .i32⟩
  | .hbm, ⟨2, _⟩ => ⟨S1048576x8, .f32⟩
  | .hbm, ⟨3, _⟩ => ⟨S1048576, .i32⟩
  | .hbm, ⟨4, _⟩ => ⟨S2097152x10, .f32⟩
  | .hbm, ⟨5, _⟩ => ⟨S4194304, .i32⟩
  | .hbm, ⟨6, _⟩ => ⟨S4194304, .i32⟩
  | .hbm, ⟨7, _⟩ => ⟨S65536, .i32⟩
  | .hbm, ⟨8, _⟩ => ⟨S10x16, .f32⟩
  | .hbm, ⟨9, _⟩ => ⟨S16, .f32⟩
  | .hbm, ⟨10, _⟩ => ⟨S8x16, .f32⟩
  | .hbm, ⟨11, _⟩ => ⟨S16, .f32⟩
  | .hbm, ⟨12, _⟩ => ⟨S10x16, .f32⟩
  | .hbm, ⟨13, _⟩ => ⟨S16, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S1x16, .f32⟩
  | .hbm, ⟨21, _⟩ => ⟨S2097152x16, .f32⟩
  | .hbm, ⟨22, _⟩ => ⟨S1x16, .f32⟩
  | .hbm, ⟨23, _⟩ => ⟨S1048576x16, .f32⟩
  | .hbm, ⟨24, _⟩ => ⟨S1x16, .f32⟩
  | .hbm, ⟨25, _⟩ => ⟨S2097152x16, .f32⟩
  | .hbm, ⟨26, _⟩ => ⟨S_, .f32⟩
  | .hbm, ⟨27, _⟩ => ⟨S65536x16, .f32⟩
  | .hbm, ⟨28, _⟩ => ⟨S2097152x1, .i32⟩
  | .hbm, ⟨29, _⟩ => ⟨S65536x16, .f32⟩
  | .hbm, ⟨30, _⟩ => ⟨S_, .f32⟩
  | .hbm, ⟨31, _⟩ => ⟨S2097152x1, .f32⟩
  | .hbm, ⟨32, _⟩ => ⟨S_, .f32⟩
  | .hbm, ⟨33, _⟩ => ⟨S65536x1, .f32⟩
  | .hbm, ⟨34, _⟩ => ⟨S2097152x1, .i32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x16, .f32⟩
  | .hbm, ⟨40, _⟩ => ⟨S65536x16, .f32⟩
  | .hbm, ⟨41, _⟩ => ⟨S_, .i32⟩
  | .hbm, ⟨42, _⟩ => ⟨S4194304, .i32⟩
  | .hbm, ⟨43, _⟩ => ⟨S4194304, .i1⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S4194304, .i32⟩
  | .hbm, ⟨48, _⟩ => ⟨S4194304x1, .i32⟩
  | .hbm, ⟨49, _⟩ => ⟨S1, .i32⟩
  | .hbm, ⟨50, _⟩ => ⟨S_, .i32⟩
  | .hbm, ⟨51, _⟩ => ⟨S4194304x1, .i32⟩
  | .hbm, ⟨52, _⟩ => ⟨S4194304x1, .i1⟩
  | .hbm, ⟨53, _⟩ => ⟨S1x1, .i32⟩
  | .hbm, ⟨54, _⟩ => ⟨S4194304x1, .i32⟩
  | .hbm, ⟨55, _⟩ => ⟨S4194304x1, .i1⟩
  | .hbm, ⟨56, _⟩ => ⟨S4194304x1, .i1⟩
  | .hbm, ⟨57, _⟩ => ⟨S_, .i1⟩
  | .hbm, ⟨58, _⟩ => ⟨S4194304, .i1⟩
  | .hbm, ⟨59, _⟩ => ⟨S4194304x16, .f32⟩
  | .hbm, ⟨60, _⟩ => ⟨S4194304x16, .i1⟩
  | .hbm, ⟨61, _⟩ => ⟨S_, .f32⟩
  | .hbm, ⟨62, _⟩ => ⟨S4194304x16, .f32⟩
  | .hbm, ⟨63, _⟩ => ⟨S4194304x16, .f32⟩
  | .hbm, ⟨64, _⟩ => ⟨S_, .f32⟩
  | .hbm, ⟨65, _⟩ => ⟨S1048576x16, .f32⟩
  | .hbm, ⟨66, _⟩ => ⟨S4194304x1, .i32⟩
  | .hbm, ⟨67, _⟩ => ⟨S1048576x16, .f32⟩
  | .hbm, ⟨68, _⟩ => ⟨S_, .f32⟩
  | .hbm, ⟨69, _⟩ => ⟨S4194304x1, .f32⟩
  | .hbm, ⟨70, _⟩ => ⟨S_, .f32⟩
  | .hbm, ⟨71, _⟩ => ⟨S1048576x1, .f32⟩
  | .hbm, ⟨72, _⟩ => ⟨S4194304x1, .i32⟩
  | .hbm, ⟨73, _⟩ => ⟨S1048576x1, .f32⟩
  | .hbm, ⟨74, _⟩ => ⟨S_, .f32⟩
  | .hbm, ⟨75, _⟩ => ⟨S1048576x1, .f32⟩
  | .hbm, ⟨76, _⟩ => ⟨S1048576x1, .f32⟩
  | .hbm, ⟨77, _⟩ => ⟨S1048576x16, .f32⟩
  | .hbm, ⟨78, _⟩ => ⟨S1048576x16, .f32⟩
  | .hbm, ⟨79, _⟩ => ⟨S1048576x32, .f32⟩
  | .hbm, ⟨80, _⟩ => ⟨S_, .i32⟩
  | .hbm, ⟨81, _⟩ => ⟨S65536, .i32⟩
  | .hbm, ⟨82, _⟩ => ⟨S65536, .i1⟩
  | .hbm, ⟨83, _⟩ => ⟨S_, .i32⟩
  | .hbm, ⟨84, _⟩ => ⟨S65536, .i32⟩
  | .hbm, ⟨85, _⟩ => ⟨S65536, .i32⟩
  | .hbm, ⟨86, _⟩ => ⟨S65536, .i32⟩
  | .hbm, ⟨87, _⟩ => ⟨S65536x1, .i32⟩
  | .hbm, ⟨88, _⟩ => ⟨S1, .i32⟩
  | .hbm, ⟨89, _⟩ => ⟨S_, .i32⟩
  | .hbm, ⟨90, _⟩ => ⟨S65536x1, .i32⟩
  | .hbm, ⟨91, _⟩ => ⟨S65536x1, .i1⟩
  | .hbm, ⟨92, _⟩ => ⟨S1x1, .i32⟩
  | .hbm, ⟨93, _⟩ => ⟨S65536x1, .i32⟩
  | .hbm, ⟨94, _⟩ => ⟨S65536x1, .i1⟩
  | .hbm, ⟨95, _⟩ => ⟨S65536x1, .i1⟩
  | .hbm, ⟨96, _⟩ => ⟨S_, .i1⟩
  | .hbm, ⟨97, _⟩ => ⟨S65536, .i1⟩
  | .hbm, ⟨98, _⟩ => ⟨S65536x32, .f32⟩
  | .hbm, ⟨99, _⟩ => ⟨S65536x32, .i1⟩
  | .hbm, ⟨100, _⟩ => ⟨S_, .f32⟩
  | .hbm, ⟨101, _⟩ => ⟨S65536x32, .f32⟩
  | .hbm, ⟨102, _⟩ => ⟨S65536x32, .f32⟩
  | .hbm, ⟨103, _⟩ => ⟨S_, .f32⟩
  | .hbm, ⟨104, _⟩ => ⟨S65536x16, .f32⟩
  | .hbm, ⟨105, _⟩ => ⟨S1048576x1, .i32⟩
  | .hbm, ⟨106, _⟩ => ⟨S65536x16, .f32⟩
  | .hbm, ⟨107, _⟩ => ⟨S_, .f32⟩
  | .hbm, ⟨108, _⟩ => ⟨S1048576x1, .f32⟩
  | .hbm, ⟨109, _⟩ => ⟨S_, .f32⟩
  | .hbm, ⟨110, _⟩ => ⟨S65536x1, .f32⟩
  | .hbm, ⟨111, _⟩ => ⟨S1048576x1, .i32⟩
  | .hbm, ⟨112, _⟩ => ⟨S65536x1, .f32⟩
  | .hbm, ⟨113, _⟩ => ⟨S_, .f32⟩
  | .hbm, ⟨114, _⟩ => ⟨S65536x1, .f32⟩
  | .hbm, ⟨115, _⟩ => ⟨S65536x1, .f32⟩
  | .hbm, ⟨116, _⟩ => ⟨S65536x16, .f32⟩
  | .hbm, ⟨117, _⟩ => ⟨S65536x16, .f32⟩
  | .hbm, ⟨118, _⟩ => ⟨S65536x64, .f32⟩
  | .hbm, ⟨119, _⟩ => ⟨S1x64, .f32⟩
  | .hbm, ⟨120, _⟩ => ⟨S1x64, .f32⟩
  | .hbm, ⟨121, _⟩ => ⟨S1x1, .f32⟩
  | .hbm, ⟨122, _⟩ => ⟨S65536x1, .f32⟩
  | .local _ .vmem, ⟨0, _⟩ => ⟨S8192x10, .f32⟩
  | .local _ .vmem, ⟨1, _⟩ => ⟨S8192x10, .f32⟩
  | .local _ .vmem, ⟨2, _⟩ => ⟨S10x16, .f32⟩
  | .local _ .vmem, ⟨3, _⟩ => ⟨S1x16, .f32⟩
  | .local _ .vmem, ⟨4, _⟩ => ⟨S8192x16, .f32⟩
  | .local _ .vmem, ⟨5, _⟩ => ⟨S8192x16, .f32⟩
  | .local _ .vmem, ⟨6, _⟩ => ⟨S8192x8, .f32⟩
  | .local _ .vmem, ⟨7, _⟩ => ⟨S8192x8, .f32⟩
  | .local _ .vmem, ⟨8, _⟩ => ⟨S8x16, .f32⟩
  | .local _ .vmem, ⟨9, _⟩ => ⟨S1x16, .f32⟩
  | .local _ .vmem, ⟨10, _⟩ => ⟨S8192x16, .f32⟩
  | .local _ .vmem, ⟨11, _⟩ => ⟨S8192x16, .f32⟩
  | .local _ .vmem, ⟨12, _⟩ => ⟨S8192x10, .f32⟩
  | .local _ .vmem, ⟨13, _⟩ => ⟨S8192x10, .f32⟩
  | .local _ .vmem, ⟨14, _⟩ => ⟨S10x16, .f32⟩
  | .local _ .vmem, ⟨15, _⟩ => ⟨S1x16, .f32⟩
  | .local _ .vmem, ⟨16, _⟩ => ⟨S8192x16, .f32⟩
  | .local _ .vmem, ⟨17, _⟩ => ⟨S8192x16, .f32⟩
  | .local _ .vmem, ⟨18, _⟩ => ⟨S4096x64, .f32⟩
  | .local _ .vmem, ⟨19, _⟩ => ⟨S4096x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S4096x1, .f32⟩
  | .local _ .vmem, ⟨27, _⟩ => ⟨S4096x1, .f32⟩
  | _, _ => ⟨S2097152x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_call0_cst : Ref sig .tc := ⟨.hbm, 61, rfl⟩
abbrev main_call0_v15 : Ref sig .tc := ⟨.hbm, 62, rfl⟩
abbrev main_v17 : Ref sig .tc := ⟨.hbm, 63, rfl⟩
abbrev main_cst_3 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_4 : Ref sig .tc := ⟨.hbm, 68, rfl⟩
abbrev main_v21 : Ref sig .tc := ⟨.hbm, 69, rfl⟩
abbrev main_cst_5 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_6 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v30 : Ref sig .tc := ⟨.hbm, 102, rfl⟩
abbrev main_cst_7 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_cst_8 : Ref sig .tc := ⟨.hbm, 107, rfl⟩
abbrev main_v34 : Ref sig .tc := ⟨.hbm, 108, rfl⟩
abbrev main_cst_9 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_cst_10 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S16_S1x16 : S16.ShapeCasts S1x16
  inb_S8192x10_S8192x10_0_0 : ∀ a, (![0, 0] : Fin 2 → Nat) a + S8192x10.size a ≤ S8192x10.size a
  h_S8192x10 : 0 < S8192x10.numel
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  inb_S8192x8_S8192x8_0_0 : ∀ a, (![0, 0] : Fin 2 → Nat) a + S8192x8.size a ≤ S8192x8.size a
  h_S8192x8 : 0 < S8192x8.numel
  inb_S8x16_S8x16_0_0 : ∀ a, (![0, 0] : Fin 2 → Nat) a + S8x16.size a ≤ S8x16.size a
  h_S8x16 : 0 < S8x16.numel
  bcast_S_S65536x16 : S_.BroadcastsInDim S65536x16 (![] : Fin 0 → Fin S65536x16.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S_S65536x1 : S_.BroadcastsInDim S65536x1 (![] : Fin 0 → Fin S65536x1.rank)
  bcast_S65536x1_S65536x16_0_1 : S65536x1.BroadcastsInDim S65536x16 (![0, 1] : Fin 2 → Fin S65536x16.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S4194304x16_0 : S4194304.BroadcastsInDim S4194304x16 (![0] : Fin 1 → Fin S4194304x16.rank)
  bcast_S_S4194304x16 : S_.BroadcastsInDim S4194304x16 (![] : Fin 0 → Fin S4194304x16.rank)
  bcast_S_S1048576x16 : S_.BroadcastsInDim S1048576x16 (![] : Fin 0 → Fin S1048576x16.rank)
  bcast_S_S1048576x1 : S_.BroadcastsInDim S1048576x1 (![] : Fin 0 → Fin S1048576x1.rank)
  bcast_S1048576x1_S1048576x16_0_1 : S1048576x1.BroadcastsInDim S1048576x16 (![0, 1] : Fin 2 → Fin S1048576x16.rank)
  concatenates_S1048576x16_S1048576x16_S1048576x32_d1 : Shape.Concatenates [S1048576x16, S1048576x16] S1048576x32 1
  bcast_S_S65536 : S_.BroadcastsInDim S65536 (![] : Fin 0 → Fin S65536.rank)
  bcast_S65536_S65536x1_0 : S65536.BroadcastsInDim S65536x1 (![0] : Fin 1 → Fin S65536x1.rank)
  bcast_S1x1_S65536x1_0_1 : S1x1.BroadcastsInDim S65536x1 (![0, 1] : Fin 2 → Fin S65536x1.rank)
  reducesTo_S65536x1_S65536_d1 : S65536x1.ReducesTo [1] S65536
  bcast_S65536_S65536x32_0 : S65536.BroadcastsInDim S65536x32 (![0] : Fin 1 → Fin S65536x32.rank)
  bcast_S_S65536x32 : S_.BroadcastsInDim S65536x32 (![] : Fin 0 → Fin S65536x32.rank)
  bcast_S1048576_S1048576x1_0 : S1048576.BroadcastsInDim S1048576x1 (![0] : Fin 1 → Fin S1048576x1.rank)
  concatenates_S65536x16_S65536x32_S65536x16_S65536x64_d1 : Shape.Concatenates [S65536x16, S65536x32, S65536x16] S65536x64 1
  shapeCasts_S64_S1x64 : S64.ShapeCasts S1x64
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S8192x10_S10x16_S8192x16_1_0_0_1_n_n_wf : DotDims.WF S8192x10 S10x16 S8192x16 [1] [0] [0] [1] [] []
  dot_S8192x8_S8x16_S8192x16_1_0_0_1_n_n_wf : DotDims.WF S8192x8 S8x16 S8192x16 [1] [0] [0] [1] [] []
  scatter_S65536x16_S2097152x1_S2097152x16_1_0_0_1_wf : ScatterDims.WF S65536x16 S2097152x1 S2097152x16 [1] [0] [0] 1
  scatter_S65536x1_S2097152x1_S2097152x1_1_0_0_1_wf : ScatterDims.WF S65536x1 S2097152x1 S2097152x1 [1] [0] [0] 1
  gather_S2097152x16_S4194304x1_S4194304x16_1_0_n_n_0_1_116_wf : GatherDims.WF S2097152x16 S4194304x1 S4194304x16 [1] [0] [] [0] [] 1 ![1, 16]
  scatter_S1048576x16_S4194304x1_S4194304x16_1_0_0_1_wf : ScatterDims.WF S1048576x16 S4194304x1 S4194304x16 [1] [0] [0] 1
  scatter_S1048576x1_S4194304x1_S4194304x1_1_0_0_1_wf : ScatterDims.WF S1048576x1 S4194304x1 S4194304x1 [1] [0] [0] 1
  gather_S1048576x32_S65536x1_S65536x32_1_0_n_n_0_1_132_wf : GatherDims.WF S1048576x32 S65536x1 S65536x32 [1] [0] [] [0] [] 1 ![1, 32]
  scatter_S65536x16_S1048576x1_S1048576x16_1_0_0_1_wf : ScatterDims.WF S65536x16 S1048576x1 S1048576x16 [1] [0] [0] 1
  scatter_S65536x1_S1048576x1_S1048576x1_1_0_0_1_wf : ScatterDims.WF S65536x1 S1048576x1 S1048576x1 [1] [0] [0] 1
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S2097152x10.size a
  hwx0_0 : ∀ i : grid0.Coords, EltTy.bits .f32 = 32 ∨ (Rect.block (s := S2097152x10) S8192x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x16.size a ≤ S2097152x16.size a
  hwx0_3 : ∀ i : grid0.Coords, EltTy.bits .f32 = 32 ∨ (Rect.block (s := S2097152x16) S8192x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x8.size a ≤ S1048576x8.size a
  hwx1_0 : ∀ i : grid1.Coords, EltTy.bits .f32 = 32 ∨ (Rect.block (s := S1048576x8) S8192x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x16.size a ≤ S1048576x16.size a
  hwx1_3 : ∀ i : grid1.Coords, EltTy.bits .f32 = 32 ∨ (Rect.block (s := S1048576x16) S8192x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x10.size a ≤ S2097152x10.size a
  hwx2_0 : ∀ i : grid2.Coords, EltTy.bits .f32 = 32 ∨ (Rect.block (s := S2097152x10) S8192x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x16.size a ≤ S10x16.size a
  hwx2_1 : ∀ i : grid2.Coords, EltTy.bits .f32 = 32 ∨ (Rect.block (s := S10x16) S10x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x16.size a ≤ S2097152x16.size a
  hwx2_3 : ∀ i : grid2.Coords, EltTy.bits .f32 = 32 ∨ (Rect.block (s := S2097152x16) S8192x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S65536x64.size a
  hwx3_0 : ∀ i : grid3.Coords, EltTy.bits .f32 = 32 ∨ (Rect.block (s := S65536x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x1.size a ≤ S65536x1.size a
  hwx3_7 : ∀ i : grid3.Coords, EltTy.bits .f32 = 32 ∨ (Rect.block (s := S65536x1) S4096x1.size (cc3_transform_7 i) (hinb3_7 i)).WholeWords (EltTy.packing .f32)

variable [Facts₀]

def dot_S8192x10_S10x16_S8192x16_1_0_0_1_n_n : DotDims S8192x10 S10x16 S8192x16 where
  lhsContracting := [1]
  rhsContracting := [0]
  lhsNonContracting := [0]
  rhsNonContracting := [1]
  lhsBatch := []
  rhsBatch := []
  wf := dot_S8192x10_S10x16_S8192x16_1_0_0_1_n_n_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def scatter_S65536x16_S2097152x1_S2097152x16_1_0_0_1 : ScatterDims S65536x16 S2097152x1 S2097152x16 where
  updateWindowDims := [1]
  insertedWindowDims := [0]
  scatterDimsToOperandDims := [0]
  indexVectorDim := 1
  wf := scatter_S65536x16_S2097152x1_S2097152x16_1_0_0_1_wf
def scatter_S65536x1_S2097152x1_S2097152x1_1_0_0_1 : ScatterDims S65536x1 S2097152x1 S2097152x1 where
  updateWindowDims := [1]
  insertedWindowDims := [0]
  scatterDimsToOperandDims := [0]
  indexVectorDim := 1
  wf := scatter_S65536x1_S2097152x1_S2097152x1_1_0_0_1_wf
def gather_S2097152x16_S4194304x1_S4194304x16_1_0_n_n_0_1_116 : GatherDims S2097152x16 S4194304x1 S4194304x16 where
  offsetDims := [1]
  collapsedSliceDims := [0]
  operandBatchingDims := []
  startIndicesBatchingDims := []
  startIndexMap := [0]
  indexVectorDim := 1
  sliceSizes := ![1, 16]
  wf := gather_S2097152x16_S4194304x1_S4194304x16_1_0_n_n_0_1_116_wf
def scatter_S1048576x16_S4194304x1_S4194304x16_1_0_0_1 : ScatterDims S1048576x16 S4194304x1 S4194304x16 where
  updateWindowDims := [1]
  insertedWindowDims := [0]
  scatterDimsToOperandDims := [0]
  indexVectorDim := 1
  wf := scatter_S1048576x16_S4194304x1_S4194304x16_1_0_0_1_wf
def scatter_S1048576x1_S4194304x1_S4194304x1_1_0_0_1 : ScatterDims S1048576x1 S4194304x1 S4194304x1 where
  updateWindowDims := [1]
  insertedWindowDims := [0]
  scatterDimsToOperandDims := [0]
  indexVectorDim := 1
  wf := scatter_S1048576x1_S4194304x1_S4194304x1_1_0_0_1_wf
def gather_S1048576x32_S65536x1_S65536x32_1_0_n_n_0_1_132 : GatherDims S1048576x32 S65536x1 S65536x32 where
  offsetDims := [1]
  collapsedSliceDims := [0]
  operandBatchingDims := []
  startIndicesBatchingDims := []
  startIndexMap := [0]
  indexVectorDim := 1
  sliceSizes := ![1, 32]
  wf := gather_S1048576x32_S65536x1_S65536x32_1_0_n_n_0_1_132_wf
def scatter_S65536x16_S1048576x1_S1048576x16_1_0_0_1 : ScatterDims S65536x16 S1048576x1 S1048576x16 where
  updateWindowDims := [1]
  insertedWindowDims := [0]
  scatterDimsToOperandDims := [0]
  indexVectorDim := 1
  wf := scatter_S65536x16_S1048576x1_S1048576x16_1_0_0_1_wf
def scatter_S65536x1_S1048576x1_S1048576x1_1_0_0_1 : ScatterDims S65536x1 S1048576x1 S1048576x1 where
  updateWindowDims := [1]
  insertedWindowDims := [0]
  scatterDimsToOperandDims := [0]
  indexVectorDim := 1
  wf := scatter_S65536x1_S1048576x1_S1048576x1_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8192x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8192x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg4) S8192x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S10x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S8192x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v46) S4096x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S2097152x10 : Shape := ⟨2, ![2097152, 10]⟩
abbrev S2097152 : Shape := ⟨1, ![2097152]⟩
abbrev S1048576x8 : Shape := ⟨2, ![1048576, 8]⟩
abbrev S1048576 : Shape := ⟨1, ![1048576]⟩
abbrev S4194304 : Shape := ⟨1, ![4194304]⟩
abbrev S65536 : Shape := ⟨1, ![65536]⟩
abbrev S10x16 : Shape := ⟨2, ![10, 16]⟩
abbrev S16 : Shape := ⟨1, ![16]⟩
abbrev S8x16 : Shape := ⟨2, ![8, 16]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2097152x16 : Shape := ⟨2, ![2097152, 16]⟩
abbrev S1x16 : Shape := ⟨2, ![1, 16]⟩
abbrev S_ : Shape := ⟨0, ![]⟩
abbrev S65536x16 : Shape := ⟨2, ![65536, 16]⟩
abbrev S2097152x1 : Shape := ⟨2, ![2097152, 1]⟩
abbrev S65536x1 : Shape := ⟨2, ![65536, 1]⟩
abbrev S1048576x16 : Shape := ⟨2, ![1048576, 16]⟩
abbrev S4194304x1 : Shape := ⟨2, ![4194304, 1]⟩
abbrev S4194304x16 : Shape := ⟨2, ![4194304, 16]⟩
abbrev S1048576x1 : Shape := ⟨2, ![1048576, 1]⟩
abbrev S1048576x32 : Shape := ⟨2, ![1048576, 32]⟩
abbrev S65536x32 : Shape := ⟨2, ![65536, 32]⟩
abbrev S65536x64 : Shape := ⟨2, ![65536, 64]⟩
abbrev S1x64 : Shape := ⟨2, ![1, 64]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S2097152x10, .f32⟩
  | .hbm, ⟨1, _⟩ => ⟨S2097152, .i32⟩
  | .hbm, ⟨2, _⟩ => ⟨S1048576x8, .f32⟩
  | .hbm, ⟨3, _⟩ => ⟨S1048576, .i32⟩
  | .hbm, ⟨4, _⟩ => ⟨S2097152x10, .f32⟩
  | .hbm, ⟨5, _⟩ => ⟨S4194304, .i32⟩
  | .hbm, ⟨6, _⟩ => ⟨S4194304, .i32⟩
  | .hbm, ⟨7, _⟩ => ⟨S65536, .i32⟩
  | .hbm, ⟨8, _⟩ => ⟨S10x16, .f32⟩
  | .hbm, ⟨9, _⟩ => ⟨S16, .f32⟩
  | .hbm, ⟨10, _⟩ => ⟨S8x16, .f32⟩
  | .hbm, ⟨11, _⟩ => ⟨S16, .f32⟩
  | .hbm, ⟨12, _⟩ => ⟨S10x16, .f32⟩
  | .hbm, ⟨13, _⟩ => ⟨S16, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S2097152x16, .f32⟩
  | .hbm, ⟨21, _⟩ => ⟨S1x16, .f32⟩
  | .hbm, ⟨22, _⟩ => ⟨S2097152x16, .f32⟩
  | .hbm, ⟨23, _⟩ => ⟨S2097152x16, .f32⟩
  | .hbm, ⟨24, _⟩ => ⟨S2097152x16, .f32⟩
  | .hbm, ⟨25, _⟩ => ⟨S_, .f32⟩
  | .hbm, ⟨26, _⟩ => ⟨S65536x16, .f32⟩
  | .hbm, ⟨27, _⟩ => ⟨S2097152x1, .i32⟩
  | .hbm, ⟨28, _⟩ => ⟨S65536x16, .f32⟩
  | .hbm, ⟨29, _⟩ => ⟨S_, .f32⟩
  | .hbm, ⟨30, _⟩ => ⟨S2097152x1, .f32⟩
  | .hbm, ⟨31, _⟩ => ⟨S_, .f32⟩
  | .hbm, ⟨32, _⟩ => ⟨S65536x1, .f32⟩
  | .hbm, ⟨33, _⟩ => ⟨S2097152x1, .i32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x16, .f32⟩
  | .hbm, ⟨39, _⟩ => ⟨S65536x16, .f32⟩
  | .hbm, ⟨40, _⟩ => ⟨S1048576x16, .f32⟩
  | .hbm, ⟨41, _⟩ => ⟨S1x16, .f32⟩
  | .hbm, ⟨42, _⟩ => ⟨S1048576x16, .f32⟩
  | .hbm, ⟨43, _⟩ => ⟨S1048576x16, .f32⟩
  | .hbm, ⟨44, _⟩ => ⟨S1048576x16, .f32⟩
  | .hbm, ⟨45, _⟩ => ⟨S2097152x16, .f32⟩
  | .hbm, ⟨46, _⟩ => ⟨S1x16, .f32⟩
  | .hbm, ⟨47, _⟩ => ⟨S2097152x16, .f32⟩
  | .hbm, ⟨48, _⟩ => ⟨S2097152x16, .f32⟩
  | .hbm, ⟨49, _⟩ => ⟨S2097152x16, .f32⟩
  | .hbm, ⟨50, _⟩ => ⟨S_, .i32⟩
  | .hbm, ⟨51, _⟩ => ⟨S4194304, .i32⟩
  | .hbm, ⟨52, _⟩ => ⟨S4194304, .i1⟩
  | .hbm, ⟨53, _⟩ => ⟨S_, .i32⟩
  | .hbm, ⟨54, _⟩ => ⟨S4194304, .i32⟩
  | .hbm, ⟨55, _⟩ => ⟨S4194304, .i32⟩
  | .hbm, ⟨56, _⟩ => ⟨S4194304, .i32⟩
  | .hbm, ⟨57, _⟩ => ⟨S4194304x1, .i32⟩
  | .hbm, ⟨58, _⟩ => ⟨S4194304x16, .f32⟩
  | .hbm, ⟨59, _⟩ => ⟨S_, .f32⟩
  | .hbm, ⟨60, _⟩ => ⟨S1048576x16, .f32⟩
  | .hbm, ⟨61, _⟩ => ⟨S4194304x1, .i32⟩
  | .hbm, ⟨62, _⟩ => ⟨S1048576x16, .f32⟩
  | .hbm, ⟨63, _⟩ => ⟨S_, .f32⟩
  | .hbm, ⟨64, _⟩ => ⟨S4194304x1, .f32⟩
  | .hbm, ⟨65, _⟩ => ⟨S_, .f32⟩
  | .hbm, ⟨66, _⟩ => ⟨S1048576x1, .f32⟩
  | .hbm, ⟨67, _⟩ => ⟨S4194304x1, .i32⟩
  | .hbm, ⟨68, _⟩ => ⟨S1048576x1, .f32⟩
  | .hbm, ⟨69, _⟩ => ⟨S_, .f32⟩
  | .hbm, ⟨70, _⟩ => ⟨S1048576x1, .f32⟩
  | .hbm, ⟨71, _⟩ => ⟨S1048576x1, .f32⟩
  | .hbm, ⟨72, _⟩ => ⟨S1048576x16, .f32⟩
  | .hbm, ⟨73, _⟩ => ⟨S1048576x16, .f32⟩
  | .hbm, ⟨74, _⟩ => ⟨S1048576x32, .f32⟩
  | .hbm, ⟨75, _⟩ => ⟨S_, .i32⟩
  | .hbm, ⟨76, _⟩ => ⟨S65536, .i32⟩
  | .hbm, ⟨77, _⟩ => ⟨S65536, .i1⟩
  | .hbm, ⟨78, _⟩ => ⟨S_, .i32⟩
  | .hbm, ⟨79, _⟩ => ⟨S65536, .i32⟩
  | .hbm, ⟨80, _⟩ => ⟨S65536, .i32⟩
  | .hbm, ⟨81, _⟩ => ⟨S65536, .i32⟩
  | .hbm, ⟨82, _⟩ => ⟨S65536x1, .i32⟩
  | .hbm, ⟨83, _⟩ => ⟨S65536x32, .f32⟩
  | .hbm, ⟨84, _⟩ => ⟨S_, .f32⟩
  | .hbm, ⟨85, _⟩ => ⟨S65536x16, .f32⟩
  | .hbm, ⟨86, _⟩ => ⟨S1048576x1, .i32⟩
  | .hbm, ⟨87, _⟩ => ⟨S65536x16, .f32⟩
  | .hbm, ⟨88, _⟩ => ⟨S_, .f32⟩
  | .hbm, ⟨89, _⟩ => ⟨S1048576x1, .f32⟩
  | .hbm, ⟨90, _⟩ => ⟨S_, .f32⟩
  | .hbm, ⟨91, _⟩ => ⟨S65536x1, .f32⟩
  | .hbm, ⟨92, _⟩ => ⟨S1048576x1, .i32⟩
  | .hbm, ⟨93, _⟩ => ⟨S65536x1, .f32⟩
  | .hbm, ⟨94, _⟩ => ⟨S_, .f32⟩
  | .hbm, ⟨95, _⟩ => ⟨S65536x1, .f32⟩
  | .hbm, ⟨96, _⟩ => ⟨S65536x1, .f32⟩
  | .hbm, ⟨97, _⟩ => ⟨S65536x16, .f32⟩
  | .hbm, ⟨98, _⟩ => ⟨S65536x16, .f32⟩
  | .hbm, ⟨99, _⟩ => ⟨S65536x64, .f32⟩
  | .hbm, ⟨100, _⟩ => ⟨S65536x64, .f32⟩
  | .hbm, ⟨101, _⟩ => ⟨S1x64, .f32⟩
  | .hbm, ⟨102, _⟩ => ⟨S65536x64, .f32⟩
  | .hbm, ⟨103, _⟩ => ⟨S65536x64, .f32⟩
  | .hbm, ⟨104, _⟩ => ⟨S65536x64, .f32⟩
  | .hbm, ⟨105, _⟩ => ⟨S65536x64, .f32⟩
  | .hbm, ⟨106, _⟩ => ⟨S1x64, .f32⟩
  | .hbm, ⟨107, _⟩ => ⟨S65536x64, .f32⟩
  | .hbm, ⟨108, _⟩ => ⟨S65536x64, .f32⟩
  | .hbm, ⟨109, _⟩ => ⟨S65536x64, .f32⟩
  | .hbm, ⟨110, _⟩ => ⟨S65536x1, .f32⟩
  | .hbm, ⟨111, _⟩ => ⟨S1x1, .f32⟩
  | .hbm, ⟨112, _⟩ => ⟨S65536x1, .f32⟩
  | .hbm, ⟨113, _⟩ => ⟨S65536x1, .f32⟩
  | _, _ => ⟨S2097152x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S65536x16 : S_.BroadcastsInDim S65536x16 (![] : Fin 0 → Fin S65536x16.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S_S65536x1 : S_.BroadcastsInDim S65536x1 (![] : Fin 0 → Fin S65536x1.rank)
  bcast_S65536x1_S65536x16_0_1 : S65536x1.BroadcastsInDim S65536x16 (![0, 1] : Fin 2 → Fin S65536x16.rank)
  bcast_S1x16_S1048576x16_0_1 : S1x16.BroadcastsInDim S1048576x16 (![0, 1] : Fin 2 → Fin S1048576x16.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S1048576x16 : S_.BroadcastsInDim S1048576x16 (![] : Fin 0 → Fin S1048576x16.rank)
  bcast_S_S4194304x1 : S_.BroadcastsInDim S4194304x1 (![] : Fin 0 → Fin S4194304x1.rank)
  bcast_S_S1048576x1 : S_.BroadcastsInDim S1048576x1 (![] : Fin 0 → Fin S1048576x1.rank)
  bcast_S1048576x1_S1048576x16_0_1 : S1048576x1.BroadcastsInDim S1048576x16 (![0, 1] : Fin 2 → Fin S1048576x16.rank)
  concatenates_S1048576x16_S1048576x16_S1048576x32_d1 : Shape.Concatenates [S1048576x16, S1048576x16] S1048576x32 1
  bcast_S_S65536 : S_.BroadcastsInDim S65536 (![] : Fin 0 → Fin S65536.rank)
  bcast_S65536_S65536x1_0 : S65536.BroadcastsInDim S65536x1 (![0] : Fin 1 → Fin S65536x1.rank)
  bcast_S1048576_S1048576x1_0 : S1048576.BroadcastsInDim S1048576x1 (![0] : Fin 1 → Fin S1048576x1.rank)
  concatenates_S65536x16_S65536x32_S65536x16_S65536x64_d1 : Shape.Concatenates [S65536x16, S65536x32, S65536x16] S65536x64 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S2097152x10_S10x16_S2097152x16_1_0_0_1_n_n_wf : DotDims.WF S2097152x10 S10x16 S2097152x16 [1] [0] [0] [1] [] []
  scatter_S65536x16_S2097152x1_S2097152x16_1_0_0_1_wf : ScatterDims.WF S65536x16 S2097152x1 S2097152x16 [1] [0] [0] 1
  scatter_S65536x1_S2097152x1_S2097152x1_1_0_0_1_wf : ScatterDims.WF S65536x1 S2097152x1 S2097152x1 [1] [0] [0] 1
  dot_S1048576x8_S8x16_S1048576x16_1_0_0_1_n_n_wf : DotDims.WF S1048576x8 S8x16 S1048576x16 [1] [0] [0] [1] [] []
  gather_S2097152x16_S4194304x1_S4194304x16_1_0_n_n_0_1_116_wf : GatherDims.WF S2097152x16 S4194304x1 S4194304x16 [1] [0] [] [0] [] 1 ![1, 16]
  scatter_S1048576x16_S4194304x1_S4194304x16_1_0_0_1_wf : ScatterDims.WF S1048576x16 S4194304x1 S4194304x16 [1] [0] [0] 1
  scatter_S1048576x1_S4194304x1_S4194304x1_1_0_0_1_wf : ScatterDims.WF S1048576x1 S4194304x1 S4194304x1 [1] [0] [0] 1
  gather_S1048576x32_S65536x1_S65536x32_1_0_n_n_0_1_132_wf : GatherDims.WF S1048576x32 S65536x1 S65536x32 [1] [0] [] [0] [] 1 ![1, 32]
  scatter_S65536x16_S1048576x1_S1048576x16_1_0_0_1_wf : ScatterDims.WF S65536x16 S1048576x1 S1048576x16 [1] [0] [0] 1
  scatter_S65536x1_S1048576x1_S1048576x1_1_0_0_1_wf : ScatterDims.WF S65536x1 S1048576x1 S1048576x1 [1] [0] [0] 1
  dot_S65536x64_S64x64_S65536x64_1_0_0_1_n_n_wf : DotDims.WF S65536x64 S64x64 S65536x64 [1] [0] [0] [1] [] []
  dot_S65536x64_S64x1_S65536x1_1_0_0_1_n_n_wf : DotDims.WF S65536x64 S64x1 S65536x1 [1] [0] [0] [1] [] []

variable [Facts₀]

def dot_S2097152x10_S10x16_S2097152x16_1_0_0_1_n_n : DotDims S2097152x10 S10x16 S2097152x16 where
  lhsContracting := [1]
  rhsContracting := [0]
  lhsNonContracting := [0]
  rhsNonContracting := [1]
  lhsBatch := []
  rhsBatch := []
  wf := dot_S2097152x10_S10x16_S2097152x16_1_0_0_1_n_n_wf
def scatter_S65536x16_S2097152x1_S2097152x16_1_0_0_1 : ScatterDims S65536x16 S2097152x1 S2097152x16 where
  updateWindowDims := [1]
  insertedWindowDims := [0]
  scatterDimsToOperandDims := [0]
  indexVectorDim := 1
  wf := scatter_S65536x16_S2097152x1_S2097152x16_1_0_0_1_wf
def scatter_S65536x1_S2097152x1_S2097152x1_1_0_0_1 : ScatterDims S65536x1 S2097152x1 S2097152x1 where
  updateWindowDims := [1]
  insertedWindowDims := [0]
  scatterDimsToOperandDims := [0]
  indexVectorDim := 1
  wf := scatter_S65536x1_S2097152x1_S2097152x1_1_0_0_1_wf
def dot_S1048576x8_S8x16_S1048576x16_1_0_0_1_n_n : DotDims S1048576x8 S8x16 S1048576x16 where
  lhsContracting := [1]
  rhsContracting := [0]
  lhsNonContracting := [0]
  rhsNonContracting := [1]
  lhsBatch := []
  rhsBatch := []
  wf := dot_S1048576x8_S8x16_S1048576x16_1_0_0_1_n_n_wf
def gather_S2097152x16_S4194304x1_S4194304x16_1_0_n_n_0_1_116 : GatherDims S2097152x16 S4194304x1 S4194304x16 where
  offsetDims := [1]
  collapsedSliceDims := [0]
  operandBatchingDims := []
  startIndicesBatchingDims := []
  startIndexMap := [0]
  indexVectorDim := 1
  sliceSizes := ![1, 16]
  wf := gather_S2097152x16_S4194304x1_S4194304x16_1_0_n_n_0_1_116_wf
def scatter_S1048576x16_S4194304x1_S4194304x16_1_0_0_1 : ScatterDims S1048576x16 S4194304x1 S4194304x16 where
  updateWindowDims := [1]
  insertedWindowDims := [0]
  scatterDimsToOperandDims := [0]
  indexVectorDim := 1
  wf := scatter_S1048576x16_S4194304x1_S4194304x16_1_0_0_1_wf
def scatter_S1048576x1_S4194304x1_S4194304x1_1_0_0_1 : ScatterDims S1048576x1 S4194304x1 S4194304x1 where
  updateWindowDims := [1]
  insertedWindowDims := [0]
  scatterDimsToOperandDims := [0]
  indexVectorDim := 1
  wf := scatter_S1048576x1_S4194304x1_S4194304x1_1_0_0_1_wf
def gather_S1048576x32_S65536x1_S65536x32_1_0_n_n_0_1_132 : GatherDims S1048576x32 S65536x1 S65536x32 where
  offsetDims := [1]
  collapsedSliceDims := [0]
  operandBatchingDims := []
  startIndicesBatchingDims := []
  startIndexMap := [0]
  indexVectorDim := 1
  sliceSizes := ![1, 32]
  wf := gather_S1048576x32_S65536x1_S65536x32_1_0_n_n_0_1_132_wf
def scatter_S65536x16_S1048576x1_S1048576x16_1_0_0_1 : ScatterDims S65536x16 S1048576x1 S1048576x16 where
  updateWindowDims := [1]
  insertedWindowDims := [0]
  scatterDimsToOperandDims := [0]
  indexVectorDim := 1
  wf := scatter_S65536x16_S1048576x1_S1048576x16_1_0_0_1_wf
def scatter_S65536x1_S1048576x1_S1048576x1_1_0_0_1 : ScatterDims S65536x1 S1048576x1 S1048576x1 where
  updateWindowDims := [1]
  insertedWindowDims := [0]
  scatterDimsToOperandDims := [0]
  indexVectorDim := 1
  wf := scatter_S65536x1_S1048576x1_S1048576x1_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.FrameK.Region0.lean ====
/-
  Region 0 of @main: one encoder launch. At every grid point the body reads its row block of the input, the whole
  weight matrix and the bias row, and stores tanh (x · W + b) over the whole output block; nothing is carried from
  point to point. This module states what the body leaves in the output block as a function of the three input
  blocks, runs the body against that, and packages it as the pipeline's proof data and body obligation, at any
  contents `V` the region is entered from.
-/
import proofs.«417565_j46454366273713_1_alg».proof.Proof.Gen.Kernel.Launch
import proofs.«417565_j46454366273713_1_alg».proof.Proof.Gen.Kernel.Skeleton
import proofs.«417565_j46454366273713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or kept the
    previous point's (the block index then did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S8192x10 := Rect.unit (s := S8192x10) ![0, 0] S8192x10.size inb_S8192x10_S8192x10_0_0
abbrev rw0 : Rect S10x16 := Rect.unit (s := S10x16) ![0, 0] S10x16.size inb_S10x16_S10x16_0_0
abbrev rb0 : Rect S1x16 := Rect.unit (s := S1x16) ![0, 0] S1x16.size inb_S1x16_S1x16_0_0
abbrev ro0 : Rect S8192x16 := Rect.unit (s := S8192x16) ![0, 0] S8192x16.size inb_S8192x16_S8192x16_0_0

/-- The output block after the body: its one store, over the whole block, of tanh (x · W + b) of the three input blocks. -/
def out0_3 (x0 : Vec F S8192x10 .f32) (x1 : Vec F S10x16 .f32) (x2 : Vec F S1x16 .f32) : Vec F S8192x16 .f32 :=
  View.canon [⟨ro0, k0_pay1 (View.ld x0 rx0) (View.ld x1 rw0) (View.ld x2 rb0)⟩]

/-- The one store covers the block. -/
theorem cover0_3 (p0 : Vec F S8192x16 .f32) (y : S8192x16.Idx) :
    ∃ pc ∈ ([⟨ro0, p0⟩] : List (View.Piece (Elt F) S8192x16 .f32)), y ∈ pc.1.set :=
  View.cover_of_tiled [⟨ro0, p0⟩] S8192x16.size (by rfl) y

set_option maxHeartbeats 1000000 in
/-- The body on whole staging buffers, the inputs' holding `x0 x1 x2` and the output's anything, runs to its
    continuation with the inputs as they were and the output at `out0_3 x0 x1 x2`. -/
theorem sound_kernel0 (c : Dev nD) (E : Set ℕ) (i : grid0.Coords)
    (arg1 : Memref sig .tc .vmem S8192x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S8192x16 .f32) (harg4 : arg4.IsWhole)
    (x0 : Vec F S8192x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameK.Region1.lean ====
/-
  Region 1 of @main: one encoder launch. At every grid point the body reads its row block of the input, the whole
  weight matrix and the bias row, and stores tanh (x · W + b) over the whole output block; nothing is carried from
  point to point. This module states what the body leaves in the output block as a function of the three input
  blocks, runs the body against that, and packages it as the pipeline's proof data and body obligation, at any
  contents `V` the region is entered from.
-/
import proofs.«417565_j46454366273713_1_alg».proof.Proof.Gen.Kernel.Launch
import proofs.«417565_j46454366273713_1_alg».proof.Proof.Gen.Kernel.Skeleton
import proofs.«417565_j46454366273713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or kept the
    previous point's (the block index then did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rx1 : Rect S8192x8 := Rect.unit (s := S8192x8) ![0, 0] S8192x8.size inb_S8192x8_S8192x8_0_0
abbrev rw1 : Rect S8x16 := Rect.unit (s := S8x16) ![0, 0] S8x16.size inb_S8x16_S8x16_0_0
abbrev rb1 : Rect S1x16 := Rect.unit (s := S1x16) ![0, 0] S1x16.size inb_S1x16_S1x16_0_0
abbrev ro1 : Rect S8192x16 := Rect.unit (s := S8192x16) ![0, 0] S8192x16.size inb_S8192x16_S8192x16_0_0

/-- The output block after the body: its one store, over the whole block, of tanh (x · W + b) of the three input blocks. -/
def out1_3 (x0 : Vec F S8192x8 .f32) (x1 : Vec F S8x16 .f32) (x2 : Vec F S1x16 .f32) : Vec F S8192x16 .f32 :=
  View.canon [⟨ro1, k1_pay1 (View.ld x0 rx1) (View.ld x1 rw1) (View.ld x2 rb1)⟩]

/-- The one store covers the block. -/
theorem cover1_3 (p0 : Vec F S8192x16 .f32) (y : S8192x16.Idx) :
    ∃ pc ∈ ([⟨ro1, p0⟩] : List (View.Piece (Elt F) S8192x16 .f32)), y ∈ pc.1.set :=
  View.cover_of_tiled [⟨ro1, p0⟩] S8192x16.size (by rfl) y

set_option maxHeartbeats 1000000 in
/-- The body on whole staging buffers, the inputs' holding `x0 x1 x2` and the output's anything, runs to its
    continuation with the inputs as they were and the output at `out1_3 x0 x1 x2`. -/
theorem sound_kernel1 (c : Dev nD) (E : Set ℕ) (i : grid1.Coords)
    (arg1 : Memref sig .tc .vmem S8192x8 .f32) (harg1 : arg1.IsWhole) (arg2 : Memref sig .tc .vmem S8x16 .f32) (harg2 : arg2.IsWhole)
    (arg3 : Memref sig .tc .vmem S1x16 .f32) (harg3 : arg3.IsWhole) (arg4 : Memref sig .tc .vmem S8192x16 .f32) (harg4 : arg4.IsWhole)
    (x0 : Vec F S8192x8 .f32) (x1 : Vec F S8x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__encode_kernel i arg1 harg1 arg2 harg2 arg3 harg3 arg4 harg4) K := by
  simp only [cc1__encode_kernel_eq_skeleton]; unfold cc1__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameK.Region2.lean ====
/-
  Region 2 of @main: one encoder launch. At every grid point the body reads its row block of the input, the whole
  weight matrix and the bias row, and stores tanh (x · W + b) over the whole output block; nothing is carried from
  point to point. This module states what the body leaves in the output block as a function of the three input
  blocks, runs the body against that, and packages it as the pipeline's proof data and body obligation, at any
  contents `V` the region is entered from.
-/
import proofs.«417565_j46454366273713_1_alg».proof.Proof.Gen.Kernel.Launch
import proofs.«417565_j46454366273713_1_alg».proof.Proof.Gen.Kernel.Skeleton
import proofs.«417565_j46454366273713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or kept the
    previous point's (the block index then did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rx2 : Rect S8192x10 := Rect.unit (s := S8192x10) ![0, 0] S8192x10.size inb_S8192x10_S8192x10_0_0
abbrev rw2 : Rect S10x16 := Rect.unit (s := S10x16) ![0, 0] S10x16.size inb_S10x16_S10x16_0_0
abbrev rb2 : Rect S1x16 := Rect.unit (s := S1x16) ![0, 0] S1x16.size inb_S1x16_S1x16_0_0
abbrev ro2 : Rect S8192x16 := Rect.unit (s := S8192x16) ![0, 0] S8192x16.size inb_S8192x16_S8192x16_0_0

/-- The output block after the body: its one store, over the whole block, of tanh (x · W + b) of the three input blocks. -/
def out2_3 (x0 : Vec F S8192x10 .f32) (x1 : Vec F S10x16 .f32) (x2 : Vec F S1x16 .f32) : Vec F S8192x16 .f32 :=
  View.canon [⟨ro2, k2_pay1 (View.ld x0 rx2) (View.ld x1 rw2) (View.ld x2 rb2)⟩]

/-- The one store covers the block. -/
theorem cover2_3 (p0 : Vec F S8192x16 .f32) (y : S8192x16.Idx) :
    ∃ pc ∈ ([⟨ro2, p0⟩] : List (View.Piece (Elt F) S8192x16 .f32)), y ∈ pc.1.set :=
  View.cover_of_tiled [⟨ro2, p0⟩] S8192x16.size (by rfl) y

set_option maxHeartbeats 1000000 in
/-- The body on whole staging buffers, the inputs' holding `x0 x1 x2` and the output's anything, runs to its
    continuation with the inputs as they were and the output at `out2_3 x0 x1 x2`. -/
theorem sound_kernel2 (c : Dev nD) (E : Set ℕ) (i : grid2.Coords)
    (arg1 : Memref sig .tc .vmem S8192x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S8192x16 .f32) (harg4 : arg4.IsWhole)
    (x0 : Vec F S8192x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__encode_kernel i arg1 harg1 arg2 harg2 arg3 harg3 arg4 harg4) K := by
  simp only [cc2__encode_kernel_eq_skeleton]; unfold cc2__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer still at its block and the output's at `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameK.Region3.lean ====
/-
  Region 3 of @main: the three-layer head. At every grid point the body reads its block of 4096 feature rows and the
  three weight matrices and bias rows whole, and stores tanh (tanh (x · W1 + b1) · W2 + b2) · W3 + b3 over the whole
  output block; nothing is carried from point to point. This module states what the body leaves in the output block
  as a function of the seven input blocks, runs the body against that, and packages it as the pipeline's proof data
  and body obligation, at any contents `V` the region is entered from.
-/
import proofs.«417565_j46454366273713_1_alg».proof.Proof.Gen.Kernel.Launch
import proofs.«417565_j46454366273713_1_alg».proof.Proof.Gen.Kernel.Skeleton
import proofs.«417565_j46454366273713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or kept the
    previous point's (the block index then did not move). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rx3 : Rect S4096x64 := Rect.unit (s := S4096x64) ![0, 0] S4096x64.size inb_S4096x64_S4096x64_0_0
abbrev rw3a : Rect S64x64 := Rect.unit (s := S64x64) ![0, 0] S64x64.size inb_S64x64_S64x64_0_0
abbrev rb3a : Rect S1x64 := Rect.unit (s := S1x64) ![0, 0] S1x64.size inb_S1x64_S1x64_0_0
abbrev rw3b : Rect S64x64 := Rect.unit (s := S64x64) ![0, 0] S64x64.size inb_S64x64_S64x64_0_0
abbrev rb3b : Rect S1x64 := Rect.unit (s := S1x64) ![0, 0] S1x64.size inb_S1x64_S1x64_0_0
abbrev rw3c : Rect S64x1 := Rect.unit (s := S64x1) ![0, 0] S64x1.size inb_S64x1_S64x1_0_0
abbrev rb3c : Rect S1x1 := Rect.unit (s := S1x1) ![0, 0] S1x1.size inb_S1x1_S1x1_0_0
abbrev ro3 : Rect S4096x1 := Rect.unit (s := S4096x1) ![0, 0] S4096x1.size inb_S4096x1_S4096x1_0_0

/-- The output block after the body: its one store, over the whole block, of the head's value of the seven input blocks. -/
def out3_7 (x0 : Vec F S4096x64 .f32) (x1 : Vec F S64x64 .f32) (x2 : Vec F S1x64 .f32) (x3 : Vec F S64x64 .f32) (x4 : Vec F S1x64 .f32) (x5 : Vec F S64x1 .f32) (x6 : Vec F S1x1 .f32) : Vec F S4096x1 .f32 :=
  View.canon [⟨ro3, k3_pay1 (View.ld x0 rx3) (View.ld x1 rw3a) (View.ld x2 rb3a) (View.ld x3 rw3b) (View.ld x4 rb3b) (View.ld x5 rw3c) (View.ld x6 rb3c)⟩]

/-- The one store covers the block. -/
theorem cover3_7 (p0 : Vec F S4096x1 .f32) (y : S4096x1.Idx) :
    ∃ pc ∈ ([⟨ro3, p0⟩] : List (View.Piece (Elt F) S4096x1 .f32)), y ∈ pc.1.set :=
  View.cover_of_tiled [⟨ro3, p0⟩] S4096x1.size (by rfl) y

set_option maxHeartbeats 1000000 in
/-- The body on whole staging buffers, the inputs' holding `x0 … x6` and the output's anything, runs to its
    continuation with the inputs as they were and the output at `out3_7 x0 … x6`. -/
theorem sound_kernel3 (c : Dev nD) (E : Set ℕ) (i : grid3.Coords)
    (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S4096x1 .f32) (harg8 : arg8.IsWhole)
    (x0 : Vec F S4096x64 .f32) (x1 : Vec F S64x64 .f32) (x2 : Vec F S1x64 .f32) (x3 : Vec F S64x64 .f32) (x4 : Vec F S1x64 .f32) (x5 : Vec F S64x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__final_mlp_kernel i arg1 harg1 arg2 harg2 arg3 harg3 arg4 harg4 arg5 harg5 arg6 harg6 arg7 harg7 arg8 harg8) K := by
  simp only [cc3__final_mlp_kernel_eq_skeleton]; unfold cc3__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The pipeline's proof data on core `c`: the arrays as the region finds them; after the body at point `t` each
    input's buffer still at its block and the output's at `out3_7` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) :
    (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.FrameK.Run.lean ====
/-
  @main as a run of twelve items — host stretches and the four kernel regions — with the contents of every unscoped
  buffer named at each boundary. Each region is entered from the contents the items before it produced and leaves in
  its arrays the fold of its write-backs; a host stretch leaves what its operations compute. From the launch to the
  return every weakly fair execution terminates, and the final memory holds every unscoped buffer at the last
  boundary's contents: in particular each argument as launched, and the result array at what the head region left.
-/
import proofs.«417565_j46454366273713_1_alg».proof.Proof.FrameK.Region0
import proofs.«417565_j46454366273713_1_alg».proof.Proof.FrameK.Region1
import proofs.«417565_j46454366273713_1_alg».proof.Proof.FrameK.Region2
import proofs.«417565_j46454366273713_1_alg».proof.Proof.FrameK.Region3
import proofs.«417565_j46454366273713_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the four regions leave, region by region

  Each region is entered from the contents the items before it produced; what it leaves in its arrays is the fold of
  its write-backs. The contents after region K depend on what regions 0 … K−1 left, so they are built in that order. -/

/-- Region 0's entry contents, read at the core's references. -/
abbrev En0 : (c : Dev nD) → (b : Ref sig .tc) → Buf (Elt F) ((c : Thread nD τ).loc b) := fun c b => Gen.V1 m c b
/-- The unscoped buffers as region 0 leaves them. -/
def X2 (c : Dev nD) : Valuation τ sig (Elt F) :=
  Pipeline.withArrays spec0 c (Gen.V1 m c) fun w => (dat0 (En0 m) c).arrAt w cfg0.N
def outsA : Gen.Outs (F := F) := fun _ r c => X2 m c r

abbrev En1 : (c : Dev nD) → (b : Ref sig .tc) → Buf (Elt F) ((c : Thread nD τ).loc b) := fun c b => Gen.V3 m (outsA m) c b
def X4 (c : Dev nD) : Valuation τ sig (Elt F) :=
  Pipeline.withArrays spec1 c (Gen.V3 m (outsA m) c) fun w => (dat1 (En1 m) c).arrAt w cfg1.N
def outsB : Gen.Outs (F := F) := fun J r c => if J = 2 then X2 m c r else X4 m c r

abbrev En2 : (c : Dev nD) → (b : Ref sig .tc) → Buf (Elt F) ((c : Thread nD τ).loc b) := fun c b => Gen.V5 m (outsB m) c b
def X6 (c : Dev nD) : Valuation τ sig (Elt F) :=
  Pipeline.withArrays spec2 c (Gen.V5 m (outsB m) c) fun w => (dat2 (En2 m) c).arrAt w cfg2.N
def outsC : Gen.Outs (F := F) := fun J r c => if J = 2 then X2 m c r else if J = 4 then X4 m c r else X6 m c r

abbrev En3 : (c : Dev nD) → (b : Ref sig .tc) → Buf (Elt F) ((c : Thread nD τ).loc b) := fun c b => Gen.V11 m (outsC m) c b
def X12 (c : Dev nD) : Valuation τ sig (Elt F) :=
  Pipeline.withArrays spec3 c (Gen.V11 m (outsC m) c) fun w => (dat3 (En3 m) c).arrAt w cfg3.N
/-- What the regions leave: after item 1 region 0's arrays, after item 3 region 1's, after item 5 region 2's, after
    item 11 the head's. -/
def outs : Gen.Outs (F := F) := fun J r c =>
  if J = 2 then X2 m c r else if J = 4 then X4 m c r else if J = 6 then X6 m c r else X12 m c r

/-- A later table of region outputs agrees with an earlier one at every boundary the earlier one was built for. -/
theorem V3_outs (c : Dev nD) : Gen.V3 m (outs m) c = Gen.V3 m (outsA m) c := rfl
theorem V5_outs (c : Dev nD) : Gen.V5 m (outs m) c = Gen.V5 m (outsB m) c := rfl
theorem V11_outs (c : Dev nD) : Gen.V11 m (outs m) c = Gen.V11 m (outsC m) c := rfl

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

set_option maxHeartbeats 2000000 in
/-- At region 0's exit each of its arrays holds what the pipeline leaves: an input's array its entry contents, the
    output's the fold of the write-backs (which is what `outs` names). -/
theorem hF0 (c : Dev nD) : ∀ w : Fin cfg0.W, (dat0 (En0 m) c).arrAt w cfg0.N = Gen.V2 m (outs m) c (Pipeline.arrRef spec0 w)
  | ⟨0, _⟩ => ((dat0 (En0 m) c).arrAt_in 0 rfl cfg0.N).trans
      ((A_eq0 (En0 m) c 0).trans (Gen.V2_of m (outs m) c (Pipeline.arrRef spec0 0) (by decide)).symm)
  | ⟨1, _⟩ => ((dat0 (En0 m) c).arrAt_in 1 rfl cfg0.N).trans
      ((A_eq0 (En0 m) c 1).trans (Gen.V2_of m (outs m) c (Pipeline.arrRef spec0 1) (by decide)).symm)
  | ⟨2, _⟩ => ((dat0 (En0 m) c).arrAt_in 2 rfl cfg0.N).trans
      ((A_eq0 (En0 m) c 2).trans (Gen.V2_of m (outs m) c (Pipeline.arrRef spec0 2) (by decide)).symm)
  | ⟨3, _⟩ => by
      show _ = Function.update (Gen.V1 m c) (Proc.devRef .tc main_v1) (outs m 2 main_v1 c) (Proc.devRef .tc main_v1)
      rw [Function.update_self]
      show _ = X2 m c (Proc.devRef .tc main_v1)
      unfold X2
      exact (Pipeline.withArrays_arr spec0 launch0.win.arr_inj c (Gen.V1 m c) (fun w => (dat0 (En0 m) c).arrAt w cfg0.N) 3).symm
/-- and every other buffer what it held at entry. -/
theorem hrest0 (c : Dev nD) : ∀ b, b ∉ Finset.univ.image (Pipeline.arrRef spec0) → Gen.V2 m (outs m) c b = En0 m c b := fun b hb => by
  show Function.update (Gen.V1 m c) (Proc.devRef .tc main_v1) _ (Proc.devRef .tc b) = _
  rw [Function.update_of_ne (StableHlo.devRef_ne_of_ne (fun e : b = main_v1 => hb (Finset.mem_image.mpr ⟨3, Finset.mem_univ _, e.symm⟩)))]
  try rfl

set_option maxHeartbeats 2000000 in
/-- At region 1's exit each of its arrays holds what the pipeline leaves: an input's array its entry contents, the
    output's the fold of the write-backs (which is what `outs` names). -/
theorem hF1 (c : Dev nD) : ∀ w : Fin cfg1.W, (dat1 (En1 m) c).arrAt w cfg1.N = Gen.V4 m (outs m) c (Pipeline.arrRef spec1 w)
  | ⟨0, _⟩ => ((dat1 (En1 m) c).arrAt_in 0 rfl cfg1.N).trans
      ((A_eq1 (En1 m) c 0).trans (Gen.V4_of m (outs m) c (Pipeline.arrRef spec1 0) (by decide)).symm)
  | ⟨1, _⟩ => ((dat1 (En1 m) c).arrAt_in 1 rfl cfg1.N).trans
      ((A_eq1 (En1 m) c 1).trans (Gen.V4_of m (outs m) c (Pipeline.arrRef spec1 1) (by decide)).symm)
  | ⟨2, _⟩ => ((dat1 (En1 m) c).arrAt_in 2 rfl cfg1.N).trans
      ((A_eq1 (En1 m) c 2).trans (Gen.V4_of m (outs m) c (Pipeline.arrRef spec1 2) (by decide)).symm)
  | ⟨3, _⟩ => by
      show _ = Function.update (Gen.V3 m (outs m) c) (Proc.devRef .tc main_v3) (outs m 4 main_v3 c) (Proc.devRef .tc main_v3)
      rw [Function.update_self]
      show _ = X4 m c (Proc.devRef .tc main_v3)
      unfold X4
      exact (Pipeline.withArrays_arr spec1 launch1.win.arr_inj c (Gen.V3 m (outsA m) c) (fun w => (dat1 (En1 m) c).arrAt w cfg1.N) 3).symm
/-- and every other buffer what it held at entry. -/
theorem hrest1 (c : Dev nD) : ∀ b, b ∉ Finset.univ.image (Pipeline.arrRef spec1) → Gen.V4 m (outs m) c b = En1 m c b := fun b hb => by
  show Function.update (Gen.V3 m (outs m) c) (Proc.devRef .tc main_v3) _ (Proc.devRef .tc b) = _
  rw [Function.update_of_ne (StableHlo.devRef_ne_of_ne (fun e : b = main_v3 => hb (Finset.mem_image.mpr ⟨3, Finset.mem_univ _, e.symm⟩)))]
  try rfl

set_option maxHeartbeats 2000000 in
/-- At region 2's exit each of its arrays holds what the pipeline leaves: an input's array its entry contents, the
    output's the fold of the write-backs (which is what `outs` names). -/
theorem hF2 (c : Dev nD) : ∀ w : Fin cfg2.W, (dat2 (En2 m) c).arrAt w cfg2.N = Gen.V6 m (outs m) c (Pipeline.arrRef spec2 w)
  | ⟨0, _⟩ => ((dat2 (En2 m) c).arrAt_in 0 rfl cfg2.N).trans
      ((A_eq2 (En2 m) c 0).trans (Gen.V6_of m (outs m) c (Pipeline.arrRef spec2 0) (by decide)).symm)
  | ⟨1, _⟩ => ((dat2 (En2 m) c).arrAt_in 1 rfl cfg2.N).trans
      ((A_eq2 (En2 m) c 1).trans (Gen.V6_of m (outs m) c (Pipeline.arrRef spec2 1) (by decide)).symm)
  | ⟨2, _⟩ => ((dat2 (En2 m) c).arrAt_in 2 rfl cfg2.N).trans
      ((A_eq2 (En2 m) c 2).trans (Gen.V6_of m (outs m) c (Pipeline.arrRef spec2 2) (by decide)).symm)
  | ⟨3, _⟩ => by
      show _ = Function.update (Gen.V5 m (outs m) c) (Proc.devRef .tc main_v5) (outs m 6 main_v5 c) (Proc.devRef .tc main_v5)
      rw [Function.update_self]
      show _ = X6 m c (Proc.devRef .tc main_v5)
      unfold X6
      exact (Pipeline.withArrays_arr spec2 launch2.win.arr_inj c (Gen.V5 m (outsB m) c) (fun w => (dat2 (En2 m) c).arrAt w cfg2.N) 3).symm
/-- and every other buffer what it held at entry. -/
theorem hrest2 (c : Dev nD) : ∀ b, b ∉ Finset.univ.image (Pipeline.arrRef spec2) → Gen.V6 m (outs m) c b = En2 m c b := fun b hb => by
  show Function.update (Gen.V5 m (outs m) c) (Proc.devRef .tc main_v5) _ (Proc.devRef .tc b) = _
  rw [Function.update_of_ne (StableHlo.devRef_ne_of_ne (fun e : b = main_v5 => hb (Finset.mem_image.mpr ⟨3, Finset.mem_univ _, e.symm⟩)))]
  try rfl

set_option maxHeartbeats 2000000 in
/-- At region 3's exit each of its arrays holds what the pipeline leaves: an input's array its entry contents, the
    output's the fold of the write-backs (which is what `outs` names). -/
theorem hF3 (c : Dev nD) : ∀ w : Fin cfg3.W, (dat3 (En3 m) c).arrAt w cfg3.N = Gen.V12 m (outs m) c (Pipeline.arrRef spec3 w)
  | ⟨0, _⟩ => ((dat3 (En3 m) c).arrAt_in 0 rfl cfg3.N).trans
      ((A_eq3 (En3 m) c 0).trans (Gen.V12_of m (outs m) c (Pipeline.arrRef spec3 0) (by decide)).symm)
  | ⟨1, _⟩ => ((dat3 (En3 m) c).arrAt_in 1 rfl cfg3.N).trans
      ((A_eq3 (En3 m) c 1).trans (Gen.V12_of m (outs m) c (Pipeline.arrRef spec3 1) (by decide)).symm)
  | ⟨2, _⟩ => ((dat3 (En3 m) c).arrAt_in 2 rfl cfg3.N).trans
      ((A_eq3 (En3 m) c 2).trans (Gen.V12_of m (outs m) c (Pipeline.arrRef spec3 2) (by decide)).symm)
  | ⟨3, _⟩ => ((dat3 (En3 m) c).arrAt_in 3 rfl cfg3.N).trans
      ((A_eq3 (En3 m) c 3).trans (Gen.V12_of m (outs m) c (Pipeline.arrRef spec3 3) (by decide)).symm)
  | ⟨4, _⟩ => ((dat3 (En3 m) c).arrAt_in 4 rfl cfg3.N).trans
      ((A_eq3 (En3 m) c 4).trans (Gen.V12_of m (outs m) c (Pipeline.arrRef spec3 4) (by decide)).symm)
  | ⟨5, _⟩ => ((dat3 (En3 m) c).arrAt_in 5 rfl cfg3.N).trans
      ((A_eq3 (En3 m) c 5).trans (Gen.V12_of m (outs m) c (Pipeline.arrRef spec3 5) (by decide)).symm)
  | ⟨6, _⟩ => ((dat3 (En3 m) c).arrAt_in 6 rfl cfg3.N).trans
      ((A_eq3 (En3 m) c 6).trans (Gen.V12_of m (outs m) c (Pipeline.arrRef spec3 6) (by decide)).symm)
  | ⟨7, _⟩ => by
      show _ = Function.update (Gen.V11 m (outs m) c) (Proc.devRef .tc main_v46) (outs m 12 main_v46 c) (Proc.devRef .tc main_v46)
      rw [Function.update_self]
      show _ = X12 m c (Proc.devRef .tc main_v46)
      unfold X12
      exact (Pipeline.withArrays_arr spec3 launch3.win.arr_inj c (Gen.V11 m (outsC m) c) (fun w => (dat3 (En3 m) c).arrAt w cfg3.N) 7).symm
/-- and every other buffer what it held at entry. -/
theorem hrest3 (c : Dev nD) : ∀ b, b ∉ Finset.univ.image (Pipeline.arrRef spec3) → Gen.V12 m (outs m) c b = En3 m c b := fun b hb => by
  show Function.update (Gen.V11 m (outs m) c) (Proc.devRef .tc main_v46) _ (Proc.devRef .tc b) = _
  rw [Function.update_of_ne (StableHlo.devRef_ne_of_ne (fun e : b = main_v46 => hb (Finset.mem_image.mpr ⟨7, Finset.mem_univ _, e.symm⟩)))]
  try rfl

/-! ## The regions as segments -/

-- a library lemma stated over the pinned configuration unifies with the printed one only when unification may unfold
-- plain definitions in a metavariable's type
set_option backward.isDefEq.respectTransparency.types false in
/-- Region 0 as a segment of @main: entered with every unscoped buffer at `Gen.V1 m`, left with them at `Gen.V2 m (outs m)`. Its
    windows' arrays are split out of the unscoped buffers at entry and put back at the exit contents; the generator
    register goes into the region's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (En0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of @main: entered with every unscoped buffer at `Gen.V3 m (outs m)`, left with them at `Gen.V4 m (outs m)`. Its
    windows' arrays are split out of the unscoped buffers at entry and put back at the exit contents; the generator
    register goes into the region's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (En1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment of @main: entered with every unscoped buffer at `Gen.V5 m (outs m)`, left with them at `Gen.V6 m (outs m)`. Its
    windows' arrays are split out of the unscoped buffers at entry and put back at the exit contents; the generator
    register goes into the region's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (Gen.V5 m (outsB m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (En2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 as a segment of @main: entered with every unscoped buffer at `Gen.V11 m (outs m)`, left with them at `Gen.V12 m (outs m)`. Its
    windows' arrays are split out of the unscoped buffers at entry and put back at the exit contents; the generator
    register goes into the region's invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (Gen.V11 m (outsC m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (En3 m c) (fun b => Gen.V12 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What each encoder region left in its output array is the fold of its write-backs. -/
theorem outs_v1 (c : Dev nD) : outs m 2 main_v1 c = (dat0 (En0 m) c).arrAt 3 cfg0.N := by
  show X2 m c (Proc.devRef .tc main_v1) = _
  unfold X2
  exact Pipeline.withArrays_arr spec0 launch0.win.arr_inj c (Gen.V1 m c) (fun w => (dat0 (En0 m) c).arrAt w cfg0.N) 3
theorem outs_v3 (c : Dev nD) : outs m 4 main_v3 c = (dat1 (En1 m) c).arrAt 3 cfg1.N := by
  show X4 m c (Proc.devRef .tc main_v3) = _
  unfold X4
  exact Pipeline.withArrays_arr spec1 launch1.win.arr_inj c (Gen.V3 m (outsA m) c) (fun w => (dat1 (En1 m) c).arrAt w cfg1.N) 3
theorem outs_v5 (c : Dev nD) : outs m 6 main_v5 c = (dat2 (En2 m) c).arrAt 3 cfg2.N := by
  show X6 m c (Proc.devRef .tc main_v5) = _
  unfold X6
  exact Pipeline.withArrays_arr spec2 launch2.win.arr_inj c (Gen.V5 m (outsB m) c) (fun w => (dat2 (En2 m) c).arrAt w cfg2.N) 3

/-! ## The launch -/

/-- The rest states between items: the register and the dues ride along unchanged. -/
abbrev Es : Fin 5 → Dev nD → sProp 𝕄 := fun _ c => R c

/-- Two families held on every core are the pairs held on every core. -/
theorem bigSep_join (A B : Dev nD → sProp 𝕄) :
    (iprop(bigSep Finset.univ A ∗ bigSep Finset.univ B) : sProp 𝕄) ⊢ bigSep Finset.univ fun c => iprop(A c ∗ B c) := by
  rw [bigSep_sep']

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 4000000 in
/-- From any memory with zero counters every weakly fair execution of @main terminates, nothing faulting, and the final
    memory holds every unscoped buffer of every core at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V12 m (outs m) c b) := by
  refine Pipeline.θ_run_regions_kit_dev (pcfgs (F := F)) Gen.adm (pdats m) () cellOf_inj emb₁ defs₀ 𝒱₀ L lv m ρ main
    (Gen.segs m (outs m) 𝒱₀ L lv (Es (F := F)) () (pdats m) (reg0 m) (reg1 m) (reg2 m) (reg3 m))
    (fun c Q => by
      rewrite [main_chain c, Seg.run_eq_chain,
        show (Gen.segs m (outs m) 𝒱₀ L lv (Es (F := F)) () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Es (F := F) 0 c))
    (Tₙ := fun c => StableHlo.held (c : Thread nD τ) (Pipeline.ucRefs τ sig) (Gen.V12 m (outs m) c))
    (hch := fun c => ⟨.rfl, .rfl, .rfl, .rfl, .rfl, .rfl, .rfl, .rfl, .rfl, .rfl, .rfl, .rfl,
      sep_mono .rfl (by iintro ⟨-, HO⟩; iexact HO)⟩)
    (hinit := ?_)
    (QY := fun c s => ∀ b ∈ Pipeline.ucRefs τ sig, s.mem (((c : Thread nD τ)).1, b) = Gen.V12 m (outs m) c b)
    (hfin := fun c s' => ?_) (hQ := fun _ h => h)
  · -- the launch: the unscoped buffers are held at the launch contents; the register and the dues make the rest state
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hcore : ∀ c : Dev nD,
        (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
          ⊢ (iprop((∃ r, prngReg c r) ∗ ∃ W, owes (c : Thread nD τ) (0 : CellTallies nD τ sig Unit) W) : sProp 𝕄) := fun c => by
      iintro ⟨-, HO, -, Hp, -⟩
      isplitl [Hp]; · iexists _; iexact Hp
      iexists ∅; iexact HO
    have hrest : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (bigSep Finset.univ (Es (F := F) 0) : sProp 𝕄) :=
      bigSep_mono fun c _ => hcore c
    iintro ⟨H, Hla⟩
    ihave H' := hsplit $$ H
    icases H' with ⟨Hh, Hr⟩
    ihave HE := hrest $$ Hr
    imodintro
    iapply (bigSep_join (fun c : Dev nD => StableHlo.held (c : Thread nD τ) (Pipeline.ucRefs τ sig) (Gen.V0 m c)) (Es (F := F) 0))
    isplitl [Hh]; · iexact Hh
    iexact HE
  · -- the end: every unscoped buffer read off the last thread state
    unfold StableHlo.held
    iintro ⟨Hh, HSI⟩
    ihave Hr := (pointsTo_read_all (Pipeline.ucRefs τ sig) (fun b => ((c : Thread nD τ).1, b)) (Gen.V12 m (outs m) c) s') $$ [Hh HSI]
    · isplitl [Hh] <;> iassumption
    icases Hr with ⟨%h, HSI⟩
    imodintro
    isplitr
    · ipureintro; exact h
    · iexact HSI

/-- The result array ends at what the head region's write-backs leave. -/
theorem V12_result (c : Dev nD) : Gen.V12 m (outs m) c main_v46 = (dat3 (En3 m) c).arrAt 7 cfg3.N := (hF3 m c 7).symm

/-- Every weakly fair execution terminates, nothing faulting, with the result array at what the head region leaves and
    every argument array as launched. -/
theorem run_result (ρ : Dev nD → PrngReg) :
    θ_run defs (onTc (τ := τ) (main (F := F))) ⟨m, fun _ => 0, ρ⟩ (fun r => ∀ c : Dev nD,
      r.2.mem ((c.tc : Thread nD τ).loc main_v46) = (dat3 (En3 m) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v46 (by decide))).trans (V12_result m c),
      (h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c),
      (h c _ (mem_uc main_arg14 (by decide))).trans (Gen.V12_main_arg14 m (outs m) c),
      (h c _ (mem_uc main_arg15 (by decide))).trans (Gen.V12_main_arg15 m (outs m) c),
      (h c _ (mem_uc main_arg16 (by decide))).trans (Gen.V12_main_arg16 m (outs m) c),
      (h c _ (mem_uc main_arg17 (by decide))).trans (Gen.V12_main_arg17 m (outs m) c),
      (h c _ (mem_uc main_arg18 (by decide))).trans (Gen.V12_main_arg18 m (outs m) c),
      (h c _ (mem_uc main_arg19 (by decide))).trans (Gen.V12_main_arg19 m (outs m) c)⟩)
    (run_all m ρ)

/-- The frame: every weakly fair execution terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_result m ρ)

end Cert.Kernel.Hand

end
-- ==== Proof.FrameKI.Region0.lean ====
/-
  Region 0 of @main: one encoder launch. At every grid point the body reads its row block of the input, the whole
  weight matrix and the bias row, and stores tanh (x · W + b) over the whole output block; nothing is carried from
  point to point. This module states what the body leaves in the output block as a function of the three input
  blocks, runs the body against that, and packages it as the pipeline's proof data and body obligation, at any
  contents `V` the region is entered from.
-/
import proofs.«417565_j46454366273713_1_alg».proof.Proof.Gen.KernelIdeal.Launch
import proofs.«417565_j46454366273713_1_alg».proof.Proof.Gen.KernelIdeal.Skeleton
import proofs.«417565_j46454366273713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or kept the
    previous point's (the block index then did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S8192x10 := Rect.unit (s := S8192x10) ![0, 0] S8192x10.size inb_S8192x10_S8192x10_0_0
abbrev rw0 : Rect S10x16 := Rect.unit (s := S10x16) ![0, 0] S10x16.size inb_S10x16_S10x16_0_0
abbrev rb0 : Rect S1x16 := Rect.unit (s := S1x16) ![0, 0] S1x16.size inb_S1x16_S1x16_0_0
abbrev ro0 : Rect S8192x16 := Rect.unit (s := S8192x16) ![0, 0] S8192x16.size inb_S8192x16_S8192x16_0_0

/-- The output block after the body: its one store, over the whole block, of tanh (x · W + b) of the three input blocks. -/
def out0_3 (x0 : Vec F S8192x10 .f32) (x1 : Vec F S10x16 .f32) (x2 : Vec F S1x16 .f32) : Vec F S8192x16 .f32 :=
  View.canon [⟨ro0, k0_pay1 (View.ld x0 rx0) (View.ld x1 rw0) (View.ld x2 rb0)⟩]

/-- The one store covers the block. -/
theorem cover0_3 (p0 : Vec F S8192x16 .f32) (y : S8192x16.Idx) :
    ∃ pc ∈ ([⟨ro0, p0⟩] : List (View.Piece (Elt F) S8192x16 .f32)), y ∈ pc.1.set :=
  View.cover_of_tiled [⟨ro0, p0⟩] S8192x16.size (by rfl) y

set_option maxHeartbeats 1000000 in
/-- The body on whole staging buffers, the inputs' holding `x0 x1 x2` and the output's anything, runs to its
    continuation with the inputs as they were and the output at `out0_3 x0 x1 x2`. -/
theorem sound_kernel0 (c : Dev nD) (E : Set ℕ) (i : grid0.Coords)
    (arg1 : Memref sig .tc .vmem S8192x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S8192x16 .f32) (harg4 : arg4.IsWhole)
    (x0 : Vec F S8192x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameKI.Region1.lean ====
/-
  Region 1 of @main: one encoder launch. At every grid point the body reads its row block of the input, the whole
  weight matrix and the bias row, and stores tanh (x · W + b) over the whole output block; nothing is carried from
  point to point. This module states what the body leaves in the output block as a function of the three input
  blocks, runs the body against that, and packages it as the pipeline's proof data and body obligation, at any
  contents `V` the region is entered from.
-/
import proofs.«417565_j46454366273713_1_alg».proof.Proof.Gen.KernelIdeal.Launch
import proofs.«417565_j46454366273713_1_alg».proof.Proof.Gen.KernelIdeal.Skeleton
import proofs.«417565_j46454366273713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or kept the
    previous point's (the block index then did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rx1 : Rect S8192x8 := Rect.unit (s := S8192x8) ![0, 0] S8192x8.size inb_S8192x8_S8192x8_0_0
abbrev rw1 : Rect S8x16 := Rect.unit (s := S8x16) ![0, 0] S8x16.size inb_S8x16_S8x16_0_0
abbrev rb1 : Rect S1x16 := Rect.unit (s := S1x16) ![0, 0] S1x16.size inb_S1x16_S1x16_0_0
abbrev ro1 : Rect S8192x16 := Rect.unit (s := S8192x16) ![0, 0] S8192x16.size inb_S8192x16_S8192x16_0_0

/-- The output block after the body: its one store, over the whole block, of tanh (x · W + b) of the three input blocks. -/
def out1_3 (x0 : Vec F S8192x8 .f32) (x1 : Vec F S8x16 .f32) (x2 : Vec F S1x16 .f32) : Vec F S8192x16 .f32 :=
  View.canon [⟨ro1, k1_pay1 (View.ld x0 rx1) (View.ld x1 rw1) (View.ld x2 rb1)⟩]

/-- The one store covers the block. -/
theorem cover1_3 (p0 : Vec F S8192x16 .f32) (y : S8192x16.Idx) :
    ∃ pc ∈ ([⟨ro1, p0⟩] : List (View.Piece (Elt F) S8192x16 .f32)), y ∈ pc.1.set :=
  View.cover_of_tiled [⟨ro1, p0⟩] S8192x16.size (by rfl) y

set_option maxHeartbeats 1000000 in
/-- The body on whole staging buffers, the inputs' holding `x0 x1 x2` and the output's anything, runs to its
    continuation with the inputs as they were and the output at `out1_3 x0 x1 x2`. -/
theorem sound_kernel1 (c : Dev nD) (E : Set ℕ) (i : grid1.Coords)
    (arg1 : Memref sig .tc .vmem S8192x8 .f32) (harg1 : arg1.IsWhole) (arg2 : Memref sig .tc .vmem S8x16 .f32) (harg2 : arg2.IsWhole)
    (arg3 : Memref sig .tc .vmem S1x16 .f32) (harg3 : arg3.IsWhole) (arg4 : Memref sig .tc .vmem S8192x16 .f32) (harg4 : arg4.IsWhole)
    (x0 : Vec F S8192x8 .f32) (x1 : Vec F S8x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__encode_kernel i arg1 harg1 arg2 harg2 arg3 harg3 arg4 harg4) K := by
  simp only [cc1__encode_kernel_eq_skeleton]; unfold cc1__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer still at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKI.Region2.lean ====
/-
  Region 2 of @main: one encoder launch. At every grid point the body reads its row block of the input, the whole
  weight matrix and the bias row, and stores tanh (x · W + b) over the whole output block; nothing is carried from
  point to point. This module states what the body leaves in the output block as a function of the three input
  blocks, runs the body against that, and packages it as the pipeline's proof data and body obligation, at any
  contents `V` the region is entered from.
-/
import proofs.«417565_j46454366273713_1_alg».proof.Proof.Gen.KernelIdeal.Launch
import proofs.«417565_j46454366273713_1_alg».proof.Proof.Gen.KernelIdeal.Skeleton
import proofs.«417565_j46454366273713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or kept the
    previous point's (the block index then did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rx2 : Rect S8192x10 := Rect.unit (s := S8192x10) ![0, 0] S8192x10.size inb_S8192x10_S8192x10_0_0
abbrev rw2 : Rect S10x16 := Rect.unit (s := S10x16) ![0, 0] S10x16.size inb_S10x16_S10x16_0_0
abbrev rb2 : Rect S1x16 := Rect.unit (s := S1x16) ![0, 0] S1x16.size inb_S1x16_S1x16_0_0
abbrev ro2 : Rect S8192x16 := Rect.unit (s := S8192x16) ![0, 0] S8192x16.size inb_S8192x16_S8192x16_0_0

/-- The output block after the body: its one store, over the whole block, of tanh (x · W + b) of the three input blocks. -/
def out2_3 (x0 : Vec F S8192x10 .f32) (x1 : Vec F S10x16 .f32) (x2 : Vec F S1x16 .f32) : Vec F S8192x16 .f32 :=
  View.canon [⟨ro2, k2_pay1 (View.ld x0 rx2) (View.ld x1 rw2) (View.ld x2 rb2)⟩]

/-- The one store covers the block. -/
theorem cover2_3 (p0 : Vec F S8192x16 .f32) (y : S8192x16.Idx) :
    ∃ pc ∈ ([⟨ro2, p0⟩] : List (View.Piece (Elt F) S8192x16 .f32)), y ∈ pc.1.set :=
  View.cover_of_tiled [⟨ro2, p0⟩] S8192x16.size (by rfl) y

set_option maxHeartbeats 1000000 in
/-- The body on whole staging buffers, the inputs' holding `x0 x1 x2` and the output's anything, runs to its
    continuation with the inputs as they were and the output at `out2_3 x0 x1 x2`. -/
theorem sound_kernel2 (c : Dev nD) (E : Set ℕ) (i : grid2.Coords)
    (arg1 : Memref sig .tc .vmem S8192x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S8192x16 .f32) (harg4 : arg4.IsWhole)
    (x0 : Vec F S8192x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__encode_kernel i arg1 harg1 arg2 harg2 arg3 harg3 arg4 harg4) K := by
  simp only [cc2__encode_kernel_eq_skeleton]; unfold cc2__encode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer still at its block and the output's at `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameKI.Region3.lean ====
/-
  Region 3 of @main: the three-layer head. At every grid point the body reads its block of 4096 feature rows and the
  three weight matrices and bias rows whole, and stores tanh (tanh (x · W1 + b1) · W2 + b2) · W3 + b3 over the whole
  output block; nothing is carried from point to point. This module states what the body leaves in the output block
  as a function of the seven input blocks, runs the body against that, and packages it as the pipeline's proof data
  and body obligation, at any contents `V` the region is entered from.
-/
import proofs.«417565_j46454366273713_1_alg».proof.Proof.Gen.KernelIdeal.Launch
import proofs.«417565_j46454366273713_1_alg».proof.Proof.Gen.KernelIdeal.Skeleton
import proofs.«417565_j46454366273713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or kept the
    previous point's (the block index then did not move). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev rx3 : Rect S4096x64 := Rect.unit (s := S4096x64) ![0, 0] S4096x64.size inb_S4096x64_S4096x64_0_0
abbrev rw3a : Rect S64x64 := Rect.unit (s := S64x64) ![0, 0] S64x64.size inb_S64x64_S64x64_0_0
abbrev rb3a : Rect S1x64 := Rect.unit (s := S1x64) ![0, 0] S1x64.size inb_S1x64_S1x64_0_0
abbrev rw3b : Rect S64x64 := Rect.unit (s := S64x64) ![0, 0] S64x64.size inb_S64x64_S64x64_0_0
abbrev rb3b : Rect S1x64 := Rect.unit (s := S1x64) ![0, 0] S1x64.size inb_S1x64_S1x64_0_0
abbrev rw3c : Rect S64x1 := Rect.unit (s := S64x1) ![0, 0] S64x1.size inb_S64x1_S64x1_0_0
abbrev rb3c : Rect S1x1 := Rect.unit (s := S1x1) ![0, 0] S1x1.size inb_S1x1_S1x1_0_0
abbrev ro3 : Rect S4096x1 := Rect.unit (s := S4096x1) ![0, 0] S4096x1.size inb_S4096x1_S4096x1_0_0

/-- The output block after the body: its one store, over the whole block, of the head's value of the seven input blocks. -/
def out3_7 (x0 : Vec F S4096x64 .f32) (x1 : Vec F S64x64 .f32) (x2 : Vec F S1x64 .f32) (x3 : Vec F S64x64 .f32) (x4 : Vec F S1x64 .f32) (x5 : Vec F S64x1 .f32) (x6 : Vec F S1x1 .f32) : Vec F S4096x1 .f32 :=
  View.canon [⟨ro3, k3_pay1 (View.ld x0 rx3) (View.ld x1 rw3a) (View.ld x2 rb3a) (View.ld x3 rw3b) (View.ld x4 rb3b) (View.ld x5 rw3c) (View.ld x6 rb3c)⟩]

/-- The one store covers the block. -/
theorem cover3_7 (p0 : Vec F S4096x1 .f32) (y : S4096x1.Idx) :
    ∃ pc ∈ ([⟨ro3, p0⟩] : List (View.Piece (Elt F) S4096x1 .f32)), y ∈ pc.1.set :=
  View.cover_of_tiled [⟨ro3, p0⟩] S4096x1.size (by rfl) y

set_option maxHeartbeats 1000000 in
/-- The body on whole staging buffers, the inputs' holding `x0 … x6` and the output's anything, runs to its
    continuation with the inputs as they were and the output at `out3_7 x0 … x6`. -/
theorem sound_kernel3 (c : Dev nD) (E : Set ℕ) (i : grid3.Coords)
    (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S4096x1 .f32) (harg8 : arg8.IsWhole)
    (x0 : Vec F S4096x64 .f32) (x1 : Vec F S64x64 .f32) (x2 : Vec F S1x64 .f32) (x3 : Vec F S64x64 .f32) (x4 : Vec F S1x64 .f32) (x5 : Vec F S64x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E (cc3__final_mlp_kernel i arg1 harg1 arg2 harg2 arg3 harg3 arg4 harg4 arg5 harg5 arg6 harg6 arg7 harg7 arg8 harg8) K := by
  simp only [cc3__final_mlp_kernel_eq_skeleton]; unfold cc3__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-- The pipeline's proof data on core `c`: the arrays as the region finds them; after the body at point `t` each
    input's buffer still at its block and the output's at `out3_7` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) :
    (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameKI.Run.lean ====
/-
  @main as a run of twelve items — host stretches and the four kernel regions — with the contents of every unscoped
  buffer named at each boundary. Each region is entered from the contents the items before it produced and leaves in
  its arrays the fold of its write-backs; a host stretch leaves what its operations compute. From the launch to the
  return every weakly fair execution terminates, and the final memory holds every unscoped buffer at the last
  boundary's contents: in particular each argument as launched, and the result array at what the head region left.
-/
import proofs.«417565_j46454366273713_1_alg».proof.Proof.FrameKI.Region0
import proofs.«417565_j46454366273713_1_alg».proof.Proof.FrameKI.Region1
import proofs.«417565_j46454366273713_1_alg».proof.Proof.FrameKI.Region2
import proofs.«417565_j46454366273713_1_alg».proof.Proof.FrameKI.Region3
import proofs.«417565_j46454366273713_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the four regions leave, region by region

  Each region is entered from the contents the items before it produced; what it leaves in its arrays is the fold of
  its write-backs. The contents after region K depend on what regions 0 … K−1 left, so they are built in that order. -/

/-- Region 0's entry contents, read at the core's references. -/
abbrev En0 : (c : Dev nD) → (b : Ref sig .tc) → Buf (Elt F) ((c : Thread nD τ).loc b) := fun c b => Gen.V1 m c b
/-- The unscoped buffers as region 0 leaves them. -/
def X2 (c : Dev nD) : Valuation τ sig (Elt F) :=
  Pipeline.withArrays spec0 c (Gen.V1 m c) fun w => (dat0 (En0 m) c).arrAt w cfg0.N
def outsA : Gen.Outs (F := F) := fun _ r c => X2 m c r

abbrev En1 : (c : Dev nD) → (b : Ref sig .tc) → Buf (Elt F) ((c : Thread nD τ).loc b) := fun c b => Gen.V3 m (outsA m) c b
def X4 (c : Dev nD) : Valuation τ sig (Elt F) :=
  Pipeline.withArrays spec1 c (Gen.V3 m (outsA m) c) fun w => (dat1 (En1 m) c).arrAt w cfg1.N
def outsB : Gen.Outs (F := F) := fun J r c => if J = 2 then X2 m c r else X4 m c r

abbrev En2 : (c : Dev nD) → (b : Ref sig .tc) → Buf (Elt F) ((c : Thread nD τ).loc b) := fun c b => Gen.V5 m (outsB m) c b
def X6 (c : Dev nD) : Valuation τ sig (Elt F) :=
  Pipeline.withArrays spec2 c (Gen.V5 m (outsB m) c) fun w => (dat2 (En2 m) c).arrAt w cfg2.N
def outsC : Gen.Outs (F := F) := fun J r c => if J = 2 then X2 m c r else if J = 4 then X4 m c r else X6 m c r

abbrev En3 : (c : Dev nD) → (b : Ref sig .tc) → Buf (Elt F) ((c : Thread nD τ).loc b) := fun c b => Gen.V11 m (outsC m) c b
def X12 (c : Dev nD) : Valuation τ sig (Elt F) :=
  Pipeline.withArrays spec3 c (Gen.V11 m (outsC m) c) fun w => (dat3 (En3 m) c).arrAt w cfg3.N
/-- What the regions leave: after item 1 region 0's arrays, after item 3 region 1's, after item 5 region 2's, after
    item 11 the head's. -/
def outs : Gen.Outs (F := F) := fun J r c =>
  if J = 2 then X2 m c r else if J = 4 then X4 m c r else if J = 6 then X6 m c r else X12 m c r

/-- A later table of region outputs agrees with an earlier one at every boundary the earlier one was built for. -/
theorem V3_outs (c : Dev nD) : Gen.V3 m (outs m) c = Gen.V3 m (outsA m) c := rfl
theorem V5_outs (c : Dev nD) : Gen.V5 m (outs m) c = Gen.V5 m (outsB m) c := rfl
theorem V11_outs (c : Dev nD) : Gen.V11 m (outs m) c = Gen.V11 m (outsC m) c := rfl

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

set_option maxHeartbeats 2000000 in
/-- At region 0's exit each of its arrays holds what the pipeline leaves: an input's array its entry contents, the
    output's the fold of the write-backs (which is what `outs` names). -/
theorem hF0 (c : Dev nD) : ∀ w : Fin cfg0.W, (dat0 (En0 m) c).arrAt w cfg0.N = Gen.V2 m (outs m) c (Pipeline.arrRef spec0 w)
  | ⟨0, _⟩ => ((dat0 (En0 m) c).arrAt_in 0 rfl cfg0.N).trans
      ((A_eq0 (En0 m) c 0).trans (Gen.V2_of m (outs m) c (Pipeline.arrRef spec0 0) (by decide)).symm)
  | ⟨1, _⟩ => ((dat0 (En0 m) c).arrAt_in 1 rfl cfg0.N).trans
      ((A_eq0 (En0 m) c 1).trans (Gen.V2_of m (outs m) c (Pipeline.arrRef spec0 1) (by decide)).symm)
  | ⟨2, _⟩ => ((dat0 (En0 m) c).arrAt_in 2 rfl cfg0.N).trans
      ((A_eq0 (En0 m) c 2).trans (Gen.V2_of m (outs m) c (Pipeline.arrRef spec0 2) (by decide)).symm)
  | ⟨3, _⟩ => by
      show _ = Function.update (Gen.V1 m c) (Proc.devRef .tc main_v1) (outs m 2 main_v1 c) (Proc.devRef .tc main_v1)
      rw [Function.update_self]
      show _ = X2 m c (Proc.devRef .tc main_v1)
      unfold X2
      exact (Pipeline.withArrays_arr spec0 launch0.win.arr_inj c (Gen.V1 m c) (fun w => (dat0 (En0 m) c).arrAt w cfg0.N) 3).symm
/-- and every other buffer what it held at entry. -/
theorem hrest0 (c : Dev nD) : ∀ b, b ∉ Finset.univ.image (Pipeline.arrRef spec0) → Gen.V2 m (outs m) c b = En0 m c b := fun b hb => by
  show Function.update (Gen.V1 m c) (Proc.devRef .tc main_v1) _ (Proc.devRef .tc b) = _
  rw [Function.update_of_ne (StableHlo.devRef_ne_of_ne (fun e : b = main_v1 => hb (Finset.mem_image.mpr ⟨3, Finset.mem_univ _, e.symm⟩)))]
  try rfl

set_option maxHeartbeats 2000000 in
/-- At region 1's exit each of its arrays holds what the pipeline leaves: an input's array its entry contents, the
    output's the fold of the write-backs (which is what `outs` names). -/
theorem hF1 (c : Dev nD) : ∀ w : Fin cfg1.W, (dat1 (En1 m) c).arrAt w cfg1.N = Gen.V4 m (outs m) c (Pipeline.arrRef spec1 w)
  | ⟨0, _⟩ => ((dat1 (En1 m) c).arrAt_in 0 rfl cfg1.N).trans
      ((A_eq1 (En1 m) c 0).trans (Gen.V4_of m (outs m) c (Pipeline.arrRef spec1 0) (by decide)).symm)
  | ⟨1, _⟩ => ((dat1 (En1 m) c).arrAt_in 1 rfl cfg1.N).trans
      ((A_eq1 (En1 m) c 1).trans (Gen.V4_of m (outs m) c (Pipeline.arrRef spec1 1) (by decide)).symm)
  | ⟨2, _⟩ => ((dat1 (En1 m) c).arrAt_in 2 rfl cfg1.N).trans
      ((A_eq1 (En1 m) c 2).trans (Gen.V4_of m (outs m) c (Pipeline.arrRef spec1 2) (by decide)).symm)
  | ⟨3, _⟩ => by
      show _ = Function.update (Gen.V3 m (outs m) c) (Proc.devRef .tc main_v3) (outs m 4 main_v3 c) (Proc.devRef .tc main_v3)
      rw [Function.update_self]
      show _ = X4 m c (Proc.devRef .tc main_v3)
      unfold X4
      exact (Pipeline.withArrays_arr spec1 launch1.win.arr_inj c (Gen.V3 m (outsA m) c) (fun w => (dat1 (En1 m) c).arrAt w cfg1.N) 3).symm
/-- and every other buffer what it held at entry. -/
theorem hrest1 (c : Dev nD) : ∀ b, b ∉ Finset.univ.image (Pipeline.arrRef spec1) → Gen.V4 m (outs m) c b = En1 m c b := fun b hb => by
  show Function.update (Gen.V3 m (outs m) c) (Proc.devRef .tc main_v3) _ (Proc.devRef .tc b) = _
  rw [Function.update_of_ne (StableHlo.devRef_ne_of_ne (fun e : b = main_v3 => hb (Finset.mem_image.mpr ⟨3, Finset.mem_univ _, e.symm⟩)))]
  try rfl

set_option maxHeartbeats 2000000 in
/-- At region 2's exit each of its arrays holds what the pipeline leaves: an input's array its entry contents, the
    output's the fold of the write-backs (which is what `outs` names). -/
theorem hF2 (c : Dev nD) : ∀ w : Fin cfg2.W, (dat2 (En2 m) c).arrAt w cfg2.N = Gen.V6 m (outs m) c (Pipeline.arrRef spec2 w)
  | ⟨0, _⟩ => ((dat2 (En2 m) c).arrAt_in 0 rfl cfg2.N).trans
      ((A_eq2 (En2 m) c 0).trans (Gen.V6_of m (outs m) c (Pipeline.arrRef spec2 0) (by decide)).symm)
  | ⟨1, _⟩ => ((dat2 (En2 m) c).arrAt_in 1 rfl cfg2.N).trans
      ((A_eq2 (En2 m) c 1).trans (Gen.V6_of m (outs m) c (Pipeline.arrRef spec2 1) (by decide)).symm)
  | ⟨2, _⟩ => ((dat2 (En2 m) c).arrAt_in 2 rfl cfg2.N).trans
      ((A_eq2 (En2 m) c 2).trans (Gen.V6_of m (outs m) c (Pipeline.arrRef spec2 2) (by decide)).symm)
  | ⟨3, _⟩ => by
      show _ = Function.update (Gen.V5 m (outs m) c) (Proc.devRef .tc main_v5) (outs m 6 main_v5 c) (Proc.devRef .tc main_v5)
      rw [Function.update_self]
      show _ = X6 m c (Proc.devRef .tc main_v5)
      unfold X6
      exact (Pipeline.withArrays_arr spec2 launch2.win.arr_inj c (Gen.V5 m (outsB m) c) (fun w => (dat2 (En2 m) c).arrAt w cfg2.N) 3).symm
/-- and every other buffer what it held at entry. -/
theorem hrest2 (c : Dev nD) : ∀ b, b ∉ Finset.univ.image (Pipeline.arrRef spec2) → Gen.V6 m (outs m) c b = En2 m c b := fun b hb => by
  show Function.update (Gen.V5 m (outs m) c) (Proc.devRef .tc main_v5) _ (Proc.devRef .tc b) = _
  rw [Function.update_of_ne (StableHlo.devRef_ne_of_ne (fun e : b = main_v5 => hb (Finset.mem_image.mpr ⟨3, Finset.mem_univ _, e.symm⟩)))]
  try rfl

set_option maxHeartbeats 2000000 in
/-- At region 3's exit each of its arrays holds what the pipeline leaves: an input's array its entry contents, the
    output's the fold of the write-backs (which is what `outs` names). -/
theorem hF3 (c : Dev nD) : ∀ w : Fin cfg3.W, (dat3 (En3 m) c).arrAt w cfg3.N = Gen.V12 m (outs m) c (Pipeline.arrRef spec3 w)
  | ⟨0, _⟩ => ((dat3 (En3 m) c).arrAt_in 0 rfl cfg3.N).trans
      ((A_eq3 (En3 m) c 0).trans (Gen.V12_of m (outs m) c (Pipeline.arrRef spec3 0) (by decide)).symm)
  | ⟨1, _⟩ => ((dat3 (En3 m) c).arrAt_in 1 rfl cfg3.N).trans
      ((A_eq3 (En3 m) c 1).trans (Gen.V12_of m (outs m) c (Pipeline.arrRef spec3 1) (by decide)).symm)
  | ⟨2, _⟩ => ((dat3 (En3 m) c).arrAt_in 2 rfl cfg3.N).trans
      ((A_eq3 (En3 m) c 2).trans (Gen.V12_of m (outs m) c (Pipeline.arrRef spec3 2) (by decide)).symm)
  | ⟨3, _⟩ => ((dat3 (En3 m) c).arrAt_in 3 rfl cfg3.N).trans
      ((A_eq3 (En3 m) c 3).trans (Gen.V12_of m (outs m) c (Pipeline.arrRef spec3 3) (by decide)).symm)
  | ⟨4, _⟩ => ((dat3 (En3 m) c).arrAt_in 4 rfl cfg3.N).trans
      ((A_eq3 (En3 m) c 4).trans (Gen.V12_of m (outs m) c (Pipeline.arrRef spec3 4) (by decide)).symm)
  | ⟨5, _⟩ => ((dat3 (En3 m) c).arrAt_in 5 rfl cfg3.N).trans
      ((A_eq3 (En3 m) c 5).trans (Gen.V12_of m (outs m) c (Pipeline.arrRef spec3 5) (by decide)).symm)
  | ⟨6, _⟩ => ((dat3 (En3 m) c).arrAt_in 6 rfl cfg3.N).trans
      ((A_eq3 (En3 m) c 6).trans (Gen.V12_of m (outs m) c (Pipeline.arrRef spec3 6) (by decide)).symm)
  | ⟨7, _⟩ => by
      show _ = Function.update (Gen.V11 m (outs m) c) (Proc.devRef .tc main_v46) (outs m 12 main_v46 c) (Proc.devRef .tc main_v46)
      rw [Function.update_self]
      show _ = X12 m c (Proc.devRef .tc main_v46)
      unfold X12
      exact (Pipeline.withArrays_arr spec3 launch3.win.arr_inj c (Gen.V11 m (outsC m) c) (fun w => (dat3 (En3 m) c).arrAt w cfg3.N) 7).symm
/-- and every other buffer what it held at entry. -/
theorem hrest3 (c : Dev nD) : ∀ b, b ∉ Finset.univ.image (Pipeline.arrRef spec3) → Gen.V12 m (outs m) c b = En3 m c b := fun b hb => by
  show Function.update (Gen.V11 m (outs m) c) (Proc.devRef .tc main_v46) _ (Proc.devRef .tc b) = _
  rw [Function.update_of_ne (StableHlo.devRef_ne_of_ne (fun e : b = main_v46 => hb (Finset.mem_image.mpr ⟨7, Finset.mem_univ _, e.symm⟩)))]
  try rfl

/-! ## The regions as segments -/

-- a library lemma stated over the pinned configuration unifies with the printed one only when unification may unfold
-- plain definitions in a metavariable's type
set_option backward.isDefEq.respectTransparency.types false in
/-- Region 0 as a segment of @main: entered with every unscoped buffer at `Gen.V1 m`, left with them at `Gen.V2 m (outs m)`. Its
    windows' arrays are split out of the unscoped buffers at entry and put back at the exit contents; the generator
    register goes into the region's invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (En0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of @main: entered with every unscoped buffer at `Gen.V3 m (outs m)`, left with them at `Gen.V4 m (outs m)`. Its
    windows' arrays are split out of the unscoped buffers at entry and put back at the exit contents; the generator
    register goes into the region's invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (Gen.V3 m (outsA m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (En1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment of @main: entered with every unscoped buffer at `Gen.V5 m (outs m)`, left with them at `Gen.V6 m (outs m)`. Its
    windows' arrays are split out of the unscoped buffers at entry and put back at the exit contents; the generator
    register goes into the region's invariant and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (Gen.V5 m (outsB m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (En2 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 as a segment of @main: entered with every unscoped buffer at `Gen.V11 m (outs m)`, left with them at `Gen.V12 m (outs m)`. Its
    windows' arrays are split out of the unscoped buffers at entry and put back at the exit contents; the generator
    register goes into the region's invariant and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (Gen.V11 m (outsC m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (En3 m c) (fun b => Gen.V12 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What each encoder region left in its output array is the fold of its write-backs. -/
theorem outs_v1 (c : Dev nD) : outs m 2 main_v1 c = (dat0 (En0 m) c).arrAt 3 cfg0.N := by
  show X2 m c (Proc.devRef .tc main_v1) = _
  unfold X2
  exact Pipeline.withArrays_arr spec0 launch0.win.arr_inj c (Gen.V1 m c) (fun w => (dat0 (En0 m) c).arrAt w cfg0.N) 3
theorem outs_v3 (c : Dev nD) : outs m 4 main_v3 c = (dat1 (En1 m) c).arrAt 3 cfg1.N := by
  show X4 m c (Proc.devRef .tc main_v3) = _
  unfold X4
  exact Pipeline.withArrays_arr spec1 launch1.win.arr_inj c (Gen.V3 m (outsA m) c) (fun w => (dat1 (En1 m) c).arrAt w cfg1.N) 3
theorem outs_v5 (c : Dev nD) : outs m 6 main_v5 c = (dat2 (En2 m) c).arrAt 3 cfg2.N := by
  show X6 m c (Proc.devRef .tc main_v5) = _
  unfold X6
  exact Pipeline.withArrays_arr spec2 launch2.win.arr_inj c (Gen.V5 m (outsB m) c) (fun w => (dat2 (En2 m) c).arrAt w cfg2.N) 3

/-! ## The launch -/

/-- The rest states between items: the register and the dues ride along unchanged. -/
abbrev Es : Fin 5 → Dev nD → sProp 𝕄 := fun _ c => R c

/-- Two families held on every core are the pairs held on every core. -/
theorem bigSep_join (A B : Dev nD → sProp 𝕄) :
    (iprop(bigSep Finset.univ A ∗ bigSep Finset.univ B) : sProp 𝕄) ⊢ bigSep Finset.univ fun c => iprop(A c ∗ B c) := by
  rw [bigSep_sep']

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 4000000 in
/-- From any memory with zero counters every weakly fair execution of @main terminates, nothing faulting, and the final
    memory holds every unscoped buffer of every core at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V12 m (outs m) c b) := by
  refine Pipeline.θ_run_regions_kit_dev (pcfgs (F := F)) Gen.adm (pdats m) () cellOf_inj emb₁ defs₀ 𝒱₀ L lv m ρ main
    (Gen.segs m (outs m) 𝒱₀ L lv (Es (F := F)) () (pdats m) (reg0 m) (reg1 m) (reg2 m) (reg3 m))
    (fun c Q => by
      rewrite [main_chain c, Seg.run_eq_chain,
        show (Gen.segs m (outs m) 𝒱₀ L lv (Es (F := F)) () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Es (F := F) 0 c))
    (Tₙ := fun c => StableHlo.held (c : Thread nD τ) (Pipeline.ucRefs τ sig) (Gen.V12 m (outs m) c))
    (hch := fun c => ⟨.rfl, .rfl, .rfl, .rfl, .rfl, .rfl, .rfl, .rfl, .rfl, .rfl, .rfl, .rfl,
      sep_mono .rfl (by iintro ⟨-, HO⟩; iexact HO)⟩)
    (hinit := ?_)
    (QY := fun c s => ∀ b ∈ Pipeline.ucRefs τ sig, s.mem (((c : Thread nD τ)).1, b) = Gen.V12 m (outs m) c b)
    (hfin := fun c s' => ?_) (hQ := fun _ h => h)
  · -- the launch: the unscoped buffers are held at the launch contents; the register and the dues make the rest state
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have hcore : ∀ c : Dev nD,
        (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
          ⊢ (iprop((∃ r, prngReg c r) ∗ ∃ W, owes (c : Thread nD τ) (0 : CellTallies nD τ sig Unit) W) : sProp 𝕄) := fun c => by
      iintro ⟨-, HO, -, Hp, -⟩
      isplitl [Hp]; · iexists _; iexact Hp
      iexists ∅; iexact HO
    have hrest : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (bigSep Finset.univ (Es (F := F) 0) : sProp 𝕄) :=
      bigSep_mono fun c _ => hcore c
    iintro ⟨H, Hla⟩
    ihave H' := hsplit $$ H
    icases H' with ⟨Hh, Hr⟩
    ihave HE := hrest $$ Hr
    imodintro
    iapply (bigSep_join (fun c : Dev nD => StableHlo.held (c : Thread nD τ) (Pipeline.ucRefs τ sig) (Gen.V0 m c)) (Es (F := F) 0))
    isplitl [Hh]; · iexact Hh
    iexact HE
  · -- the end: every unscoped buffer read off the last thread state
    unfold StableHlo.held
    iintro ⟨Hh, HSI⟩
    ihave Hr := (pointsTo_read_all (Pipeline.ucRefs τ sig) (fun b => ((c : Thread nD τ).1, b)) (Gen.V12 m (outs m) c) s') $$ [Hh HSI]
    · isplitl [Hh] <;> iassumption
    icases Hr with ⟨%h, HSI⟩
    imodintro
    isplitr
    · ipureintro; exact h
    · iexact HSI

/-- The result array ends at what the head region's write-backs leave. -/
theorem V12_result (c : Dev nD) : Gen.V12 m (outs m) c main_v46 = (dat3 (En3 m) c).arrAt 7 cfg3.N := (hF3 m c 7).symm

/-- Every weakly fair execution terminates, nothing faulting, with the result array at what the head region leaves and
    every argument array as launched. -/
theorem run_result (ρ : Dev nD → PrngReg) :
    θ_run defs (onTc (τ := τ) (main (F := F))) ⟨m, fun _ => 0, ρ⟩ (fun r => ∀ c : Dev nD,
      r.2.mem ((c.tc : Thread nD τ).loc main_v46) = (dat3 (En3 m) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v46 (by decide))).trans (V12_result m c),
      (h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c),
      (h c _ (mem_uc main_arg8 (by decide))).trans (Gen.V12_main_arg8 m (outs m) c),
      (h c _ (mem_uc main_arg9 (by decide))).trans (Gen.V12_main_arg9 m (outs m) c),
      (h c _ (mem_uc main_arg10 (by decide))).trans (Gen.V12_main_arg10 m (outs m) c),
      (h c _ (mem_uc main_arg11 (by decide))).trans (Gen.V12_main_arg11 m (outs m) c),
      (h c _ (mem_uc main_arg12 (by decide))).trans (Gen.V12_main_arg12 m (outs m) c),
      (h c _ (mem_uc main_arg13 (by decide))).trans (Gen.V12_main_arg13 m (outs m) c),
      (h c _ (mem_uc main_arg14 (by decide))).trans (Gen.V12_main_arg14 m (outs m) c),
      (h c _ (mem_uc main_arg15 (by decide))).trans (Gen.V12_main_arg15 m (outs m) c),
      (h c _ (mem_uc main_arg16 (by decide))).trans (Gen.V12_main_arg16 m (outs m) c),
      (h c _ (mem_uc main_arg17 (by decide))).trans (Gen.V12_main_arg17 m (outs m) c),
      (h c _ (mem_uc main_arg18 (by decide))).trans (Gen.V12_main_arg18 m (outs m) c),
      (h c _ (mem_uc main_arg19 (by decide))).trans (Gen.V12_main_arg19 m (outs m) c)⟩)
    (run_all m ρ)

/-- The frame: every weakly fair execution terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_result m ρ)

end Cert.KernelIdeal.Hand

end
-- ==== Proof.Bridge.Spec.lean ====
/-
  The value both programs compute, written once as functions of arrays, in the shape the reference states it:
  an encoder stage tanh (x · W + b) (the bias row broadcast down the rows), the pooling chain that turns the three
  encoded feature arrays and the five index arrays into the 64 action features of each of the 65536 rows
  (three segment means, a gather along edges, a gather of start rows, two concatenations), and the three-layer
  head tanh (tanh (a · W1 + b1) · W2 + b2) · W3 + b3. The reference's result is `head (glue (enc …) …) …` of its
  arguments; the kernel's regions are shown to leave the same functions of the arrays they find.
-/
import proofs.«417565_j46454366273713_1_alg».proof.Proof.Gen.ReferenceIdeal

set_option maxRecDepth 8192

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- A bias vector as a one-row matrix. -/
def row16 (b : FVec F S16 .f32) : FVec F S1x16 .f32 := broadcastInDim S1x16 ![1] bcast_S16_S1x16_1 b
def row64 (b : FVec F S64 .f32) : FVec F S1x64 .f32 := broadcastInDim S1x64 ![1] bcast_S64_S1x64_1 b
def row1 (b : FVec F S1 .f32) : FVec F S1x1 .f32 := broadcastInDim S1x1 ![1] bcast_S1_S1x1_1 b

/-- One encoder over 2097152 rows of 10 features: tanh (x · W + b), the bias row `rb` repeated down the rows. -/
def enc10 (x : FVec F S2097152x10 .f32) (W : FVec F S10x16 .f32) (rb : FVec F S1x16 .f32) : FVec F S2097152x16 .f32 :=
  Host.tanh (addf (Host.dotGeneral dot_S2097152x10_S10x16_S2097152x16_1_0_0_1_n_n none x W) (broadcastInDim S2097152x16 ![0, 1] bcast_S1x16_S2097152x16_0_1 rb))

/-- The encoder over 1048576 rows of 8 features. -/
def enc8 (x : FVec F S1048576x8 .f32) (W : FVec F S8x16 .f32) (rb : FVec F S1x16 .f32) : FVec F S1048576x16 .f32 :=
  Host.tanh (addf (Host.dotGeneral dot_S1048576x8_S8x16_S1048576x16_1_0_0_1_n_n none x W) (broadcastInDim S1048576x16 ![0, 1] bcast_S1x16_S1048576x16_0_1 rb))

/-- The pooling chain: from the three encoded arrays and the five index arrays to the 64 action features per row —
    the mean of `req` over the segments `a1`; the row `a7` (negative indices counted from the end) of `veh` beside
    the mean over the segments `a6` of the rows `a5` of `pas`; the mean of `veh` over the segments `a3`. -/
def glue (req : FVec F S2097152x16 .f32) (veh : FVec F S1048576x16 .f32) (pas : FVec F S2097152x16 .f32)
    (a1 : IVec S2097152 32) (a3 : IVec S1048576 32) (a5 : IVec S4194304 32) (a6 : IVec S4194304 32) (a7 : IVec S65536 32) :
    FVec F S65536x64 .f32 :=
  concatenate S65536x64 1 [⟨S65536x16, (Host.divf (Host.scatterAdd scatter_S65536x16_S2097152x1_S2097152x16_1_0_0_1 (broadcastInDim S65536x16 ![] bcast_S_S65536x16 (constant S_ .f32 0x00000000#32)) (broadcastInDim S2097152x1 ![0] bcast_S2097152_S2097152x1_0 a1) req) (broadcastInDim S65536x16 ![0, 1] bcast_S65536x1_S65536x16_0_1 (maximumf (Host.scatterAdd scatter_S65536x1_S2097152x1_S2097152x1_1_0_0_1 (broadcastInDim S65536x1 ![] bcast_S_S65536x1 (constant S_ .f32 0x00000000#32)) (broadcastInDim S2097152x1 ![0] bcast_S2097152_S2097152x1_0 a1) (broadcastInDim S2097152x1 ![] bcast_S_S2097152x1 (constant S_ .f32 0x3F800000#32))) (broadcastInDim S65536x1 ![] bcast_S_S65536x1 (constant S_ .f32 0x3F800000#32)))))⟩, ⟨S65536x32, (Host.gather gather_S1048576x32_S65536x1_S65536x32_1_0_n_n_0_1_132 (concatenate S1048576x32 1 [⟨S1048576x16, veh⟩, ⟨S1048576x16, (Host.divf (Host.scatterAdd scatter_S1048576x16_S4194304x1_S4194304x16_1_0_0_1 (broadcastInDim S1048576x16 ![] bcast_S_S1048576x16 (constant S_ .f32 0x00000000#32)) (broadcastInDim S4194304x1 ![0] bcast_S4194304_S4194304x1_0 a6) (Host.gather gather_S2097152x16_S4194304x1_S4194304x16_1_0_n_n_0_1_116 pas (broadcastInDim S4194304x1 ![0] bcast_S4194304_S4194304x1_0 (select (cmpi .slt a5 (broadcastInDim S4194304 ![] bcast_S_S4194304 (constantI S_ 32 0#32))) (addi a5 (broadcastInDim S4194304 ![] bcast_S_S4194304 (constantI S_ 32 2097152#32))) a5)))) (broadcastInDim S1048576x16 ![0, 1] bcast_S1048576x1_S1048576x16_0_1 (maximumf (Host.scatterAdd scatter_S1048576x1_S4194304x1_S4194304x1_1_0_0_1 (broadcastInDim S1048576x1 ![] bcast_S_S1048576x1 (constant S_ .f32 0x00000000#32)) (broadcastInDim S4194304x1 ![0] bcast_S4194304_S4194304x1_0 a6) (broadcastInDim S4194304x1 ![] bcast_S_S4194304x1 (constant S_ .f32 0x3F800000#32))) (broadcastInDim S1048576x1 ![] bcast_S_S1048576x1 (constant S_ .f32 0x3F800000#32)))))⟩] concatenates_S1048576x16_S1048576x16_S1048576x32_d1) (broadcastInDim S65536x1 ![0] bcast_S65536_S65536x1_0 (select (cmpi .slt a7 (broadcastInDim S65536 ![] bcast_S_S65536 (constantI S_ 32 0#32))) (addi a7 (broadcastInDim S65536 ![] bcast_S_S65536 (constantI S_ 32 1048576#32))) a7)))⟩, ⟨S65536x16, (Host.divf (Host.scatterAdd scatter_S65536x16_S1048576x1_S1048576x16_1_0_0_1 (broadcastInDim S65536x16 ![] bcast_S_S65536x16 (constant S_ .f32 0x00000000#32)) (broadcastInDim S1048576x1 ![0] bcast_S1048576_S1048576x1_0 a3) veh) (broadcastInDim S65536x16 ![0, 1] bcast_S65536x1_S65536x16_0_1 (maximumf (Host.scatterAdd scatter_S65536x1_S1048576x1_S1048576x1_1_0_0_1 (broadcastInDim S65536x1 ![] bcast_S_S65536x1 (constant S_ .f32 0x00000000#32)) (broadcastInDim S1048576x1 ![0] bcast_S1048576_S1048576x1_0 a3) (broadcastInDim S1048576x1 ![] bcast_S_S1048576x1 (constant S_ .f32 0x3F800000#32))) (broadcastInDim S65536x1 ![] bcast_S_S65536x1 (constant S_ .f32 0x3F800000#32)))))⟩] concatenates_S65536x16_S65536x32_S65536x16_S65536x64_d1

/-- The head: tanh (tanh (a · W1 + b1) · W2 + b2) · W3 + b3, the bias rows repeated down the rows. -/
def head (a : FVec F S65536x64 .f32) (W1 : FVec F S64x64 .f32) (rb1 : FVec F S1x64 .f32) (W2 : FVec F S64x64 .f32) (rb2 : FVec F S1x64 .f32)
    (W3 : FVec F S64x1 .f32) (rb3 : FVec F S1x1 .f32) : FVec F S65536x1 .f32 :=
  addf (Host.dotGeneral dot_S65536x64_S64x1_S65536x1_1_0_0_1_n_n none (Host.tanh (addf (Host.dotGeneral dot_S65536x64_S64x64_S65536x64_1_0_0_1_n_n none (Host.tanh (addf (Host.dotGeneral dot_S65536x64_S64x64_S65536x64_1_0_0_1_n_n none a W1) (broadcastInDim S65536x64 ![0, 1] bcast_S1x64_S65536x64_0_1 rb1))) W2) (broadcastInDim S65536x64 ![0, 1] bcast_S1x64_S65536x64_0_1 rb2))) W3) (broadcastInDim S65536x1 ![0, 1] bcast_S1x1_S65536x1_0_1 rb3)

/-- The whole function of the twenty arguments. -/
def whole (x0 : FVec F S2097152x10 .f32) (a1 : IVec S2097152 32) (x2 : FVec F S1048576x8 .f32) (a3 : IVec S1048576 32)
    (x4 : FVec F S2097152x10 .f32) (a5 : IVec S4194304 32) (a6 : IVec S4194304 32) (a7 : IVec S65536 32)
    (w8 : FVec F S10x16 .f32) (b9 : FVec F S16 .f32) (w10 : FVec F S8x16 .f32) (b11 : FVec F S16 .f32) (w12 : FVec F S10x16 .f32) (b13 : FVec F S16 .f32)
    (w14 : FVec F S64x64 .f32) (b15 : FVec F S64 .f32) (w16 : FVec F S64x64 .f32) (b17 : FVec F S64 .f32) (w18 : FVec F S64x1 .f32) (b19 : FVec F S1 .f32) :
    FVec F S65536x1 .f32 :=
  head (glue (enc10 x0 w8 (row16 b9)) (enc8 x2 w10 (row16 b11)) (enc10 x4 w12 (row16 b13)) a1 a3 a5 a6 a7)
    w14 (row64 b15) w16 (row64 b17) w18 (row1 b19)

end Cert.ReferenceIdeal.Spec

end
-- ==== Proof.ValueKI.Enc0.lean ====
/-
  What region 0 leaves in its output array, as one function of the arrays it finds: every block of 8192 rows is
  tanh (x · W + b) of the same rows of the input, so the whole array is the encoder stage of the whole input.

  Both sides are read at an index (row r, column q). The reference's stage there is tanh of the sum over the inner
  positions k of x (r, k) · W (k, q), plus the bias b (0, q); the body's arithmetic on a block, at (p, q) of the block,
  is the same expression of the block's row p (a product into a zero accumulator is the bare sum, the changes of
  float format are the identity on extended reals, the bias row is repeated down the rows). The rows block of grid
  point t is rows 8192 t … 8192 t + 8191 of the input, the output block the same rows of the output, and the weights
  and the bias row are read whole at every point; so what point t writes back is its block of the stage of the whole
  input, and since every row lies in the block of point r / 8192 the blocks fill the output array.
-/
import proofs.«417565_j46454366273713_1_alg».proof.Proof.FrameKI.Region0
import proofs.«417565_j46454366273713_1_alg».proof.Proof.Bridge.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

open Idealize.ShloMosaic.ValueIdx
open scoped BigOperators

/-! ## A rows-by-columns product at an index

For dimension numbers that contract the left operand's columns against the right operand's rows, with no batch
axis, the operands are read at (row, k) and (k, column). -/

section Plain
variable {M K N : Nat} (d : DotDims ⟨2, ![M, K]⟩ ⟨2, ![K, N]⟩ ⟨2, ![M, N]⟩)

/-- The left operand is read at the result's row, -/
private theorem lhsIdx_row (hb : d.lhsBatch = []) (hn : d.lhsNonContracting = [0]) (j : (⟨2, ![M, N]⟩ : Shape).Idx) (k : d.contr.Idx) :
    (d.lhsIdx j k 0).val = (j 0).val := by
  have hnb : (0 : Fin 2) ∉ d.lhsBatch := by rw [hb]; exact List.not_mem_nil
  have hmem : (0 : Fin 2) ∈ d.lhsNonContracting := by rw [hn]; exact List.mem_singleton.mpr rfl
  unfold DotDims.lhsIdx
  rw [dif_neg hnb, dif_pos hmem]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

/-- and at the contraction position on its columns; -/
private theorem lhsIdx_col (hc : d.lhsContracting = [1]) (j : (⟨2, ![M, N]⟩ : Shape).Idx) (k : d.contr.Idx) :
    (d.lhsIdx j k 1).val = (k ⟨0, by rw [d.rank_contr, hc]; exact Nat.one_pos⟩).val :=
  d.lhsIdx_val_of_single hc j k

/-- the right operand at the contraction position on its rows, -/
private theorem rhsIdx_row (hc : d.rhsContracting = [0]) (j : (⟨2, ![M, N]⟩ : Shape).Idx) (k : d.contr.Idx) :
    (d.rhsIdx j k 0).val = (k ⟨0, by rw [d.rank_contr, ← d.length_contracting, hc]; exact Nat.one_pos⟩).val :=
  d.rhsIdx_val_of_single hc j k

/-- and at the result's column. -/
private theorem rhsIdx_col (hb : d.rhsBatch = []) (hlb : d.lhsBatch = []) (hln : d.lhsNonContracting = [0]) (hn : d.rhsNonContracting = [1])
    (j : (⟨2, ![M, N]⟩ : Shape).Idx) (k : d.contr.Idx) :
    (d.rhsIdx j k 1).val = (j 1).val := by
  have hnb : (1 : Fin 2) ∉ d.rhsBatch := by rw [hb]; exact List.not_mem_nil
  have hmem : (1 : Fin 2) ∈ d.rhsNonContracting := by rw [hn]; exact List.mem_singleton.mpr rfl
  unfold DotDims.rhsIdx
  rw [dif_neg hnb, dif_pos hmem]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hn])

/-- So the sum over the contraction index of the operands' products is the sum over the K inner positions. -/
private theorem sum_contr_eq (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = K)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  congr 2
  · funext a; apply Fin.ext
    match a with
    | ⟨0, _⟩ => exact lhsIdx_row d hlb hln _ _
    | ⟨1, _⟩ => exact (lhsIdx_col d hlc _ _).trans hk
  · funext a; apply Fin.ext
    match a with
    | ⟨0, _⟩ => exact (rhsIdx_row d hrc _ _).trans hk
    | ⟨1, _⟩ => exact rhsIdx_col d hrb hlb hln hrn _ _

end Plain

/-! ## The encoder stage at an index -/

/-- The encoder stage at row `r`, column `q`: tanh of the row of `x` against the column of `W`, plus the bias. -/
private def encAt {R K : Nat} (x : (⟨2, ![R, K]⟩ : Shape).Idx → EReal) (W : (⟨2, ![K, 16]⟩ : Shape).Idx → EReal)
    (rb : (⟨2, ![1, 16]⟩ : Shape).Idx → EReal) (r : Fin R) (q : Fin 16) : EReal :=
  Ideal.tanh (∑ k : Fin K, x (ix2 r k) * W (ix2 k q) + rb (ix2 0 q))

/-- The reference's encoder stage over the whole array, read at an index. -/
private theorem enc10_apply (x : FVec Ideal Cert.ReferenceIdeal.S2097152x10 .f32) (W : FVec Ideal Cert.ReferenceIdeal.S10x16 .f32)
    (rb : FVec Ideal Cert.ReferenceIdeal.S1x16 .f32) (r : Fin 2097152) (q : Fin 16) :
    Cert.ReferenceIdeal.Spec.enc10 (F := Ideal) x W rb (ix2 r q) = encAt x W rb r q := by
  unfold Cert.ReferenceIdeal.Spec.enc10 encAt
  show Ideal.tanh (FloatOps.dotGeneral Cert.ReferenceIdeal.dot_S2097152x10_S10x16_S2097152x16_1_0_0_1_n_n none .single x W (ix2 r q)
      + broadcastInDim Cert.ReferenceIdeal.S2097152x16 ![0, 1] Cert.ReferenceIdeal.Gen.bcast_S1x16_S2097152x16_0_1 rb (ix2 r q)) = _
  rw [Ideal.dotGeneral_apply,
    sum_contr_eq Cert.ReferenceIdeal.dot_S2097152x10_S10x16_S2097152x16_1_0_0_1_n_n rfl rfl rfl rfl rfl rfl rfl rfl,
    broadcastInDim_apply _ _ rb (ix2 r q) (ix2 0 q) (fun a => by
      match a with
      | ⟨0, _⟩ => rfl
      | ⟨1, _⟩ => rfl)]

/-- The body's arithmetic on a block, read at an index of the block. -/
theorem k0_pay1_apply (x0 : Vec Ideal S8192x10 .f32) (x1 : Vec Ideal S10x16 .f32) (x2 : Vec Ideal S1x16 .f32)
    (p : Fin 8192) (q : Fin 16) :
    k0_pay1 (F := Ideal) x0 x1 x2 (ix2 p q) = encAt x0 x1 x2 p q := by
  unfold k0_pay1 encAt
  show Ideal.tanh (FloatOps.matmul (F := Ideal) dot_S8192x10_S10x16_S8192x16_1_0_0_1_n_n none (truncf .bf16 x0 bitsLt_bf16_f32) (truncf .bf16 x1 bitsLt_bf16_f32)
        (constant (F := Ideal) S8192x16 .f32 0x00000000#32) (ix2 p q)
      + broadcastTo S8192x16 (shapeCast S1x16 x2 shapeCasts_S1x16_S1x16) broadcasts_S1x16_S8192x16 (ix2 p q)) = _
  rw [Ideal.matmul_constant_zero_apply,
    sum_contr_eq dot_S8192x10_S10x16_S8192x16_1_0_0_1_n_n rfl rfl rfl rfl rfl rfl rfl rfl,
    shapeCast_self,
    broadcastTo_apply x2 _ (ix2 p q) (ix2 0 q) (fun a => by
      match a with
      | ⟨0, _⟩ => rfl
      | ⟨1, _⟩ => rfl)]
  rfl

/-- The stage at a row depends on that row of the input only. -/
private theorem encAt_congr {R R' K : Nat} (x : (⟨2, ![R, K]⟩ : Shape).Idx → EReal) (x' : (⟨2, ![R', K]⟩ : Shape).Idx → EReal)
    (W : (⟨2, ![K, 16]⟩ : Shape).Idx → EReal) (rb : (⟨2, ![1, 16]⟩ : Shape).Idx → EReal) (r : Fin R) (r' : Fin R') (q : Fin 16)
    (h : ∀ k : Fin K, x (ix2 r k) = x' (ix2 r' k)) : encAt x W rb r q = encAt x' W rb r' q := by
  unfold encAt
  rw [Finset.sum_congr rfl fun k _ => by rw [h k]]

/-! ## Region 0's blocks, read off its arrays -/

private theorem zero_offsets : (![0, 0] : Fin 2 → Nat) = fun _ => 0 := funext fun a => by fin_cases a <;> rfl

/-- The printed index maps, decided over the grid: the rows block and the output block of point `t` are block
    `(t, 0)` of their arrays, the weights and the bias row are block `(0, 0)`, the whole array, at every point. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- The rows block at point `t` is rows `8192 t … 8192 t + 8191` of the input array. -/
theorem iblk0_rows (c : Dev nD) (t : Fin cfg0.N) (p : Fin 8192) (k : Fin 10) (r : Fin 2097152) (hr : r.val = t.val * 8192 + p.val) :
    (iblk0 V c 0 t : Vec Ideal S8192x10 .f32) (ix2 p k) = (V c main_arg0 : S2097152x10.Idx → EReal) (ix2 r k) := by
  obtain ⟨e0, e1, -⟩ := index_facts0 t
  unfold iblk0
  rw [View.read_apply]
  show V c main_arg0 _ = V c main_arg0 _
  congr 1
  funext a; apply Fin.ext
  match a with
  | ⟨0, _⟩ => show win0_0.index t (0 : Fin 2) * 8192 + 1 * p.val = r.val; rw [e0, hr]; omega
  | ⟨1, _⟩ => show win0_0.index t (1 : Fin 2) * 10 + 1 * k.val = k.val; rw [e1]; omega

/-- The weights block is the whole weight matrix at every point. -/
theorem iblk0_weights (c : Dev nD) (t : Fin cfg0.N) : (iblk0 V c 1 t : Vec Ideal S10x16 .f32) = V c main_arg8 := by
  obtain ⟨-, -, e0, e1, -⟩ := index_facts0 t
  funext j
  unfold iblk0
  rw [View.read_apply]
  show V c main_arg8 _ = V c main_arg8 j
  congr 1
  funext a; apply Fin.ext
  match a with
  | ⟨0, _⟩ => show win0_1.index t (0 : Fin 2) * 10 + 1 * (j 0).val = (j 0).val; rw [e0]; omega
  | ⟨1, _⟩ => show win0_1.index t (1 : Fin 2) * 16 + 1 * (j 1).val = (j 1).val; rw [e1]; omega

/-- The bias block is the whole bias row at every point. -/
theorem iblk0_bias (c : Dev nD) (t : Fin cfg0.N) : (iblk0 V c 2 t : Vec Ideal S1x16 .f32) = V c main_v0 := by
  obtain ⟨-, -, -, -, e0, e1, -⟩ := index_facts0 t
  funext j
  unfold iblk0
  rw [View.read_apply]
  show V c main_v0 _ = V c main_v0 j
  congr 1
  funext a; apply Fin.ext
  match a with
  | ⟨0, _⟩ => show win0_2.index t (0 : Fin 2) * 1 + 1 * (j 0).val = (j 0).val; rw [e0]; omega
  | ⟨1, _⟩ => show win0_2.index t (1 : Fin 2) * 16 + 1 * (j 1).val = (j 1).val; rw [e1]; omega

/-- What point `t` writes back is its block of the encoder stage of the whole input: row `p` of the block is
    row `8192 t + p` of the array, on both sides. -/
theorem flushed0_eq (c : Dev nD) (t : Fin cfg0.N) :
    (dat0 (F := Ideal) V c).flushed 3 t
      = ((cfg0.win 3).blk t).view.read (Elt Ideal)
          (Cert.ReferenceIdeal.Spec.enc10 (F := Ideal) (V c main_arg0) (V c main_arg8) (V c main_v0)) := by
  show (cfg0.win 3).cut (grid0.coords t) ((dat0 V c).after 3 t) = _
  rw [after0_3]
  unfold out0_3
  rw [View.canon_unit_zero zero_offsets]
  simp only [View.ld_unit_zero (S := S8192x10) zero_offsets, View.ld_unit_zero (S := S10x16) zero_offsets,
    View.ld_unit_zero (S := S1x16) zero_offsets]
  rw [iblk0_weights, iblk0_bias]
  obtain ⟨-, -, -, -, -, -, e0, e1⟩ := index_facts0 t
  have hN : t.val < 256 := lt_of_lt_of_eq t.isLt N_0
  funext j
  obtain ⟨p, q, rfl⟩ : ∃ (p : Fin 8192) (q : Fin 16), j = ix2 p q := ⟨j 0, j 1, eq_ix2 j⟩
  have hlt : t.val * 8192 + p.val < 2097152 := by have := p.isLt; omega
  have hemb : ((cfg0.win 3).blk t).view.emb (ix2 p q) = ix2 (⟨t.val * 8192 + p.val, hlt⟩ : Fin 2097152) q := by
    funext a; apply Fin.ext
    match a with
    | ⟨0, _⟩ => show win0_3.index t (0 : Fin 2) * 8192 + 1 * p.val = t.val * 8192 + p.val; rw [e0]; omega
    | ⟨1, _⟩ => show win0_3.index t (1 : Fin 2) * 16 + 1 * q.val = q.val; rw [e1]; omega
  show k0_pay1 (F := Ideal) (iblk0 V c 0 t) (V c main_arg8) (V c main_v0) (ix2 p q)
    = Cert.ReferenceIdeal.Spec.enc10 (F := Ideal) (V c main_arg0) (V c main_arg8) (V c main_v0) (((cfg0.win 3).blk t).view.emb (ix2 p q))
  rw [hemb, k0_pay1_apply, enc10_apply]
  exact encAt_congr _ _ _ _ _ _ _ fun k => iblk0_rows V c t p k _ rfl

/-- Every row of the output array is in the block of the point its block of 8192 rows belongs to. -/
theorem cover0 (i : S2097152x16.Idx) : ∃ t : Fin cfg0.N, (cfg0.win 3).flush t = true ∧ i ∈ ((cfg0.win 3).blk t).view.set := by
  have h0 : (i 0).val < 2097152 := (i 0).isLt
  have h1 : (i 1).val < 16 := (i 1).isLt
  have hN : cfg0.N = 256 := N_0
  let t : Fin cfg0.N := ⟨(i 0).val / 8192, by rw [hN]; omega⟩
  obtain ⟨-, -, -, -, -, -, e0, e1⟩ := index_facts0 t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 2) * 8192 ≤ (i 0).val ∧ (i 0).val < win0_3.index t (0 : Fin 2) * 8192 + 8192
    rw [e0]; show (i 0).val / 8192 * 8192 ≤ (i 0).val ∧ (i 0).val < (i 0).val / 8192 * 8192 + 8192; omega
  | ⟨1, _⟩ =>
    show win0_3.index t (1 : Fin 2) * 16 ≤ (i 1).val ∧ (i 1).val < win0_3.index t (1 : Fin 2) * 16 + 16
    rw [e1]; omega

end Blocks

/-- Region 0's output array after its last grid point is the encoder stage of its three input arrays. -/
theorem final0 (V : (c : Dev nD) → (b : Ref sig .tc) → Buf (Elt Ideal) ((c : Thread nD τ).loc b)) (c : Dev nD) :
    (dat0 (F := Ideal) V c).arrAt 3 cfg0.N
      = Cert.ReferenceIdeal.Spec.enc10 (F := Ideal) (V c main_arg0) (V c main_arg8) (V c main_v0) := by
  exact (dat0 (F := Ideal) V c).arrAt_eq_of_cover 3 _ (fun t _ => flushed0_eq V c t) cover0

end Cert.KernelIdeal.Val

end
-- ==== Proof.ValueKI.Enc1.lean ====
/-
  What region 1 leaves in its output array, as one function of the arrays it finds: every block of 8192 rows is
  tanh (x · W + b) of the same rows of the input, so the whole array is the encoder stage of the whole input.

  Both sides are read at an index (row r, column q). The reference's stage there is tanh of the sum over the inner
  positions k of x (r, k) · W (k, q), plus the bias b (0, q); the body's arithmetic on a block, at (p, q) of the block,
  is the same expression of the block's row p (a product into a zero accumulator is the bare sum, the changes of
  float format are the identity on extended reals, the bias row is repeated down the rows). The rows block of grid
  point t is rows 8192 t … 8192 t + 8191 of the input, the output block the same rows of the output, and the weights
  and the bias row are read whole at every point; so what point t writes back is its block of the stage of the whole
  input, and since every row lies in the block of point r / 8192 the blocks fill the output array.
-/
import proofs.«417565_j46454366273713_1_alg».proof.Proof.FrameKI.Region1
import proofs.«417565_j46454366273713_1_alg».proof.Proof.Bridge.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

open Idealize.ShloMosaic.ValueIdx
open scoped BigOperators

/-! ## A rows-by-columns product at an index

For dimension numbers that contract the left operand's columns against the right operand's rows, with no batch
axis, the operands are read at (row, k) and (k, column). -/

section Plain
variable {M K N : Nat} (d : DotDims ⟨2, ![M, K]⟩ ⟨2, ![K, N]⟩ ⟨2, ![M, N]⟩)

/-- The left operand is read at the result's row, -/
private theorem lhsIdx_row (hb : d.lhsBatch = []) (hn : d.lhsNonContracting = [0]) (j : (⟨2, ![M, N]⟩ : Shape).Idx) (k : d.contr.Idx) :
    (d.lhsIdx j k 0).val = (j 0).val := by
  have hnb : (0 : Fin 2) ∉ d.lhsBatch := by rw [hb]; exact List.not_mem_nil
  have hmem : (0 : Fin 2) ∈ d.lhsNonContracting := by rw [hn]; exact List.mem_singleton.mpr rfl
  unfold DotDims.lhsIdx
  rw [dif_neg hnb, dif_pos hmem]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

/-- and at the contraction position on its columns; -/
private theorem lhsIdx_col (hc : d.lhsContracting = [1]) (j : (⟨2, ![M, N]⟩ : Shape).Idx) (k : d.contr.Idx) :
    (d.lhsIdx j k 1).val = (k ⟨0, by rw [d.rank_contr, hc]; exact Nat.one_pos⟩).val :=
  d.lhsIdx_val_of_single hc j k

/-- the right operand at the contraction position on its rows, -/
private theorem rhsIdx_row (hc : d.rhsContracting = [0]) (j : (⟨2, ![M, N]⟩ : Shape).Idx) (k : d.contr.Idx) :
    (d.rhsIdx j k 0).val = (k ⟨0, by rw [d.rank_contr, ← d.length_contracting, hc]; exact Nat.one_pos⟩).val :=
  d.rhsIdx_val_of_single hc j k

/-- and at the result's column. -/
private theorem rhsIdx_col (hb : d.rhsBatch = []) (hlb : d.lhsBatch = []) (hln : d.lhsNonContracting = [0]) (hn : d.rhsNonContracting = [1])
    (j : (⟨2, ![M, N]⟩ : Shape).Idx) (k : d.contr.Idx) :
    (d.rhsIdx j k 1).val = (j 1).val := by
  have hnb : (1 : Fin 2) ∉ d.rhsBatch := by rw [hb]; exact List.not_mem_nil
  have hmem : (1 : Fin 2) ∈ d.rhsNonContracting := by rw [hn]; exact List.mem_singleton.mpr rfl
  unfold DotDims.rhsIdx
  rw [dif_neg hnb, dif_pos hmem]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hn])

/-- So the sum over the contraction index of the operands' products is the sum over the K inner positions. -/
private theorem sum_contr_eq (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = K)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  congr 2
  · funext a; apply Fin.ext
    match a with
    | ⟨0, _⟩ => exact lhsIdx_row d hlb hln _ _
    | ⟨1, _⟩ => exact (lhsIdx_col d hlc _ _).trans hk
  · funext a; apply Fin.ext
    match a with
    | ⟨0, _⟩ => exact (rhsIdx_row d hrc _ _).trans hk
    | ⟨1, _⟩ => exact rhsIdx_col d hrb hlb hln hrn _ _

end Plain

/-! ## The encoder stage at an index -/

/-- The encoder stage at row `r`, column `q`: tanh of the row of `x` against the column of `W`, plus the bias. -/
private def encAt {R K : Nat} (x : (⟨2, ![R, K]⟩ : Shape).Idx → EReal) (W : (⟨2, ![K, 16]⟩ : Shape).Idx → EReal)
    (rb : (⟨2, ![1, 16]⟩ : Shape).Idx → EReal) (r : Fin R) (q : Fin 16) : EReal :=
  Ideal.tanh (∑ k : Fin K, x (ix2 r k) * W (ix2 k q) + rb (ix2 0 q))

/-- The reference's encoder stage over the whole array, read at an index. -/
private theorem enc8_apply (x : FVec Ideal Cert.ReferenceIdeal.S1048576x8 .f32) (W : FVec Ideal Cert.ReferenceIdeal.S8x16 .f32)
    (rb : FVec Ideal Cert.ReferenceIdeal.S1x16 .f32) (r : Fin 1048576) (q : Fin 16) :
    Cert.ReferenceIdeal.Spec.enc8 (F := Ideal) x W rb (ix2 r q) = encAt x W rb r q := by
  unfold Cert.ReferenceIdeal.Spec.enc8 encAt
  show Ideal.tanh (FloatOps.dotGeneral Cert.ReferenceIdeal.dot_S1048576x8_S8x16_S1048576x16_1_0_0_1_n_n none .single x W (ix2 r q)
      + broadcastInDim Cert.ReferenceIdeal.S1048576x16 ![0, 1] Cert.ReferenceIdeal.Gen.bcast_S1x16_S1048576x16_0_1 rb (ix2 r q)) = _
  rw [Ideal.dotGeneral_apply,
    sum_contr_eq Cert.ReferenceIdeal.dot_S1048576x8_S8x16_S1048576x16_1_0_0_1_n_n rfl rfl rfl rfl rfl rfl rfl rfl,
    broadcastInDim_apply _ _ rb (ix2 r q) (ix2 0 q) (fun a => by
      match a with
      | ⟨0, _⟩ => rfl
      | ⟨1, _⟩ => rfl)]

/-- The body's arithmetic on a block, read at an index of the block. -/
theorem k1_pay1_apply (x0 : Vec Ideal S8192x8 .f32) (x1 : Vec Ideal S8x16 .f32) (x2 : Vec Ideal S1x16 .f32)
    (p : Fin 8192) (q : Fin 16) :
    k1_pay1 (F := Ideal) x0 x1 x2 (ix2 p q) = encAt x0 x1 x2 p q := by
  unfold k1_pay1 encAt
  show Ideal.tanh (FloatOps.matmul (F := Ideal) dot_S8192x8_S8x16_S8192x16_1_0_0_1_n_n none (truncf .bf16 x0 bitsLt_bf16_f32) (truncf .bf16 x1 bitsLt_bf16_f32)
        (constant (F := Ideal) S8192x16 .f32 0x00000000#32) (ix2 p q)
      + broadcastTo S8192x16 (shapeCast S1x16 x2 shapeCasts_S1x16_S1x16) broadcasts_S1x16_S8192x16 (ix2 p q)) = _
  rw [Ideal.matmul_constant_zero_apply,
    sum_contr_eq dot_S8192x8_S8x16_S8192x16_1_0_0_1_n_n rfl rfl rfl rfl rfl rfl rfl rfl,
    shapeCast_self,
    broadcastTo_apply x2 _ (ix2 p q) (ix2 0 q) (fun a => by
      match a with
      | ⟨0, _⟩ => rfl
      | ⟨1, _⟩ => rfl)]
  rfl

/-- The stage at a row depends on that row of the input only. -/
private theorem encAt_congr {R R' K : Nat} (x : (⟨2, ![R, K]⟩ : Shape).Idx → EReal) (x' : (⟨2, ![R', K]⟩ : Shape).Idx → EReal)
    (W : (⟨2, ![K, 16]⟩ : Shape).Idx → EReal) (rb : (⟨2, ![1, 16]⟩ : Shape).Idx → EReal) (r : Fin R) (r' : Fin R') (q : Fin 16)
    (h : ∀ k : Fin K, x (ix2 r k) = x' (ix2 r' k)) : encAt x W rb r q = encAt x' W rb r' q := by
  unfold encAt
  rw [Finset.sum_congr rfl fun k _ => by rw [h k]]

/-! ## Region 1's blocks, read off its arrays -/

private theorem zero_offsets : (![0, 0] : Fin 2 → Nat) = fun _ => 0 := funext fun a => by fin_cases a <;> rfl

/-- The printed index maps, decided over the grid: the rows block and the output block of point `t` are block
    `(t, 0)` of their arrays, the weights and the bias row are block `(0, 0)`, the whole array, at every point. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b))

/-- The rows block at point `t` is rows `8192 t … 8192 t + 8191` of the input array. -/
theorem iblk1_rows (c : Dev nD) (t : Fin cfg1.N) (p : Fin 8192) (k : Fin 8) (r : Fin 1048576) (hr : r.val = t.val * 8192 + p.val) :
    (iblk1 V c 0 t : Vec Ideal S8192x8 .f32) (ix2 p k) = (V c main_arg2 : S1048576x8.Idx → EReal) (ix2 r k) := by
  obtain ⟨e0, e1, -⟩ := index_facts1 t
  unfold iblk1
  rw [View.read_apply]
  show V c main_arg2 _ = V c main_arg2 _
  congr 1
  funext a; apply Fin.ext
  match a with
  | ⟨0, _⟩ => show win1_0.index t (0 : Fin 2) * 8192 + 1 * p.val = r.val; rw [e0, hr]; omega
  | ⟨1, _⟩ => show win1_0.index t (1 : Fin 2) * 8 + 1 * k.val = k.val; rw [e1]; omega

/-- The weights block is the whole weight matrix at every point. -/
theorem iblk1_weights (c : Dev nD) (t : Fin cfg1.N) : (iblk1 V c 1 t : Vec Ideal S8x16 .f32) = V c main_arg10 := by
  obtain ⟨-, -, e0, e1, -⟩ := index_facts1 t
  funext j
  unfold iblk1
  rw [View.read_apply]
  show V c main_arg10 _ = V c main_arg10 j
  congr 1
  funext a; apply Fin.ext
  match a with
  | ⟨0, _⟩ => show win1_1.index t (0 : Fin 2) * 8 + 1 * (j 0).val = (j 0).val; rw [e0]; omega
  | ⟨1, _⟩ => show win1_1.index t (1 : Fin 2) * 16 + 1 * (j 1).val = (j 1).val; rw [e1]; omega

/-- The bias block is the whole bias row at every point. -/
theorem iblk1_bias (c : Dev nD) (t : Fin cfg1.N) : (iblk1 V c 2 t : Vec Ideal S1x16 .f32) = V c main_v2 := by
  obtain ⟨-, -, -, -, e0, e1, -⟩ := index_facts1 t
  funext j
  unfold iblk1
  rw [View.read_apply]
  show V c main_v2 _ = V c main_v2 j
  congr 1
  funext a; apply Fin.ext
  match a with
  | ⟨0, _⟩ => show win1_2.index t (0 : Fin 2) * 1 + 1 * (j 0).val = (j 0).val; rw [e0]; omega
  | ⟨1, _⟩ => show win1_2.index t (1 : Fin 2) * 16 + 1 * (j 1).val = (j 1).val; rw [e1]; omega

/-- What point `t` writes back is its block of the encoder stage of the whole input: row `p` of the block is
    row `8192 t + p` of the array, on both sides. -/
theorem flushed1_eq (c : Dev nD) (t : Fin cfg1.N) :
    (dat1 (F := Ideal) V c).flushed 3 t
      = ((cfg1.win 3).blk t).view.read (Elt Ideal)
          (Cert.ReferenceIdeal.Spec.enc8 (F := Ideal) (V c main_arg2) (V c main_arg10) (V c main_v2)) := by
  show (cfg1.win 3).cut (grid1.coords t) ((dat1 V c).after 3 t) = _
  rw [after1_3]
  unfold out1_3
  rw [View.canon_unit_zero zero_offsets]
  simp only [View.ld_unit_zero (S := S8192x8) zero_offsets, View.ld_unit_zero (S := S8x16) zero_offsets,
    View.ld_unit_zero (S := S1x16) zero_offsets]
  rw [iblk1_weights, iblk1_bias]
  obtain ⟨-, -, -, -, -, -, e0, e1⟩ := index_facts1 t
  have hN : t.val < 128 := lt_of_lt_of_eq t.isLt N_1
  funext j
  obtain ⟨p, q, rfl⟩ : ∃ (p : Fin 8192) (q : Fin 16), j = ix2 p q := ⟨j 0, j 1, eq_ix2 j⟩
  have hlt : t.val * 8192 + p.val < 1048576 := by have := p.isLt; omega
  have hemb : ((cfg1.win 3).blk t).view.emb (ix2 p q) = ix2 (⟨t.val * 8192 + p.val, hlt⟩ : Fin 1048576) q := by
    funext a; apply Fin.ext
    match a with
    | ⟨0, _⟩ => show win1_3.index t (0 : Fin 2) * 8192 + 1 * p.val = t.val * 8192 + p.val; rw [e0]; omega
    | ⟨1, _⟩ => show win1_3.index t (1 : Fin 2) * 16 + 1 * q.val = q.val; rw [e1]; omega
  show k1_pay1 (F := Ideal) (iblk1 V c 0 t) (V c main_arg10) (V c main_v2) (ix2 p q)
    = Cert.ReferenceIdeal.Spec.enc8 (F := Ideal) (V c main_arg2) (V c main_arg10) (V c main_v2) (((cfg1.win 3).blk t).view.emb (ix2 p q))
  rw [hemb, k1_pay1_apply, enc8_apply]
  exact encAt_congr _ _ _ _ _ _ _ fun k => iblk1_rows V c t p k _ rfl

/-- Every row of the output array is in the block of the point its block of 8192 rows belongs to. -/
theorem cover1 (i : S1048576x16.Idx) : ∃ t : Fin cfg1.N, (cfg1.win 3).flush t = true ∧ i ∈ ((cfg1.win 3).blk t).view.set := by
  have h0 : (i 0).val < 1048576 := (i 0).isLt
  have h1 : (i 1).val < 16 := (i 1).isLt
  have hN : cfg1.N = 128 := N_1
  let t : Fin cfg1.N := ⟨(i 0).val / 8192, by rw [hN]; omega⟩
  obtain ⟨-, -, -, -, -, -, e0, e1⟩ := index_facts1 t
  refine ⟨t, flush1_3 t, ?_⟩
  show i ∈ ((View.whole main_v3).slice (win1_3.rect t)).set
  rw [View.set_slice_whole, Rect.mem_set_unit]
  intro a
  match a with
  | ⟨0, _⟩ =>
    show win1_3.index t (0 : Fin 2) * 8192 ≤ (i 0).val ∧ (i 0).val < win1_3.index t (0 : Fin 2) * 8192 + 8192
    rw [e0]; show (i 0).val / 8192 * 8192 ≤ (i 0).val ∧ (i 0).val < (i 0).val / 8192 * 8192 + 8192; omega
  | ⟨1, _⟩ =>
    show win1_3.index t (1 : Fin 2) * 16 ≤ (i 1).val ∧ (i 1).val < win1_3.index t (1 : Fin 2) * 16 + 16
    rw [e1]; omega

end Blocks

/-- Region 1's output array after its last grid point is the encoder stage of its three input arrays. -/
theorem final1 (V : (c : Dev nD) → (b : Ref sig .tc) → Buf (Elt Ideal) ((c : Thread nD τ).loc b)) (c : Dev nD) :
    (dat1 (F := Ideal) V c).arrAt 3 cfg1.N
      = Cert.ReferenceIdeal.Spec.enc8 (F := Ideal) (V c main_arg2) (V c main_arg10) (V c main_v2) := by
  exact (dat1 (F := Ideal) V c).arrAt_eq_of_cover 3 _ (fun t _ => flushed1_eq V c t) cover1

end Cert.KernelIdeal.Val

end
-- ==== Proof.ValueKI.Enc2.lean ====
/-
  What region 2 leaves in its output array, as one function of the arrays it finds: every block of 8192 rows is
  tanh (x · W + b) of the same rows of the input, so the whole array is the encoder stage of the whole input.

  Both sides are read at an index (row r, column q). The reference's stage there is tanh of the sum over the inner
  positions k of x (r, k) · W (k, q), plus the bias b (0, q); the body's arithmetic on a block, at (p, q) of the block,
  is the same expression of the block's row p (a product into a zero accumulator is the bare sum, the changes of
  float format are the identity on extended reals, the bias row is repeated down the rows). The rows block of grid
  point t is rows 8192 t … 8192 t + 8191 of the input, the output block the same rows of the output, and the weights
  and the bias row are read whole at every point; so what point t writes back is its block of the stage of the whole
  input, and since every row lies in the block of point r / 8192 the blocks fill the output array.
-/
import proofs.«417565_j46454366273713_1_alg».proof.Proof.FrameKI.Region2
import proofs.«417565_j46454366273713_1_alg».proof.Proof.Bridge.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

open Idealize.ShloMosaic.ValueIdx
open scoped BigOperators

/-! ## A rows-by-columns product at an index

For dimension numbers that contract the left operand's columns against the right operand's rows, with no batch
axis, the operands are read at (row, k) and (k, column). -/

section Plain
variable {M K N : Nat} (d : DotDims ⟨2, ![M, K]⟩ ⟨2, ![K, N]⟩ ⟨2, ![M, N]⟩)

/-- The left operand is read at the result's row, -/
private theorem lhsIdx_row (hb : d.lhsBatch = []) (hn : d.lhsNonContracting = [0]) (j : (⟨2, ![M, N]⟩ : Shape).Idx) (k : d.contr.Idx) :
    (d.lhsIdx j k 0).val = (j 0).val := by
  have hnb : (0 : Fin 2) ∉ d.lhsBatch := by rw [hb]; exact List.not_mem_nil
  have hmem : (0 : Fin 2) ∈ d.lhsNonContracting := by rw [hn]; exact List.mem_singleton.mpr rfl
  unfold DotDims.lhsIdx
  rw [dif_neg hnb, dif_pos hmem]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

/-- and at the contraction position on its columns; -/
private theorem lhsIdx_col (hc : d.lhsContracting = [1]) (j : (⟨2, ![M, N]⟩ : Shape).Idx) (k : d.contr.Idx) :
    (d.lhsIdx j k 1).val = (k ⟨0, by rw [d.rank_contr, hc]; exact Nat.one_pos⟩).val :=
  d.lhsIdx_val_of_single hc j k

/-- the right operand at the contraction position on its rows, -/
private theorem rhsIdx_row (hc : d.rhsContracting = [0]) (j : (⟨2, ![M, N]⟩ : Shape).Idx) (k : d.contr.Idx) :
    (d.rhsIdx j k 0).val = (k ⟨0, by rw [d.rank_contr, ← d.length_contracting, hc]; exact Nat.one_pos⟩).val :=
  d.rhsIdx_val_of_single hc j k

/-- and at the result's column. -/
private theorem rhsIdx_col (hb : d.rhsBatch = []) (hlb : d.lhsBatch = []) (hln : d.lhsNonContracting = [0]) (hn : d.rhsNonContracting = [1])
    (j : (⟨2, ![M, N]⟩ : Shape).Idx) (k : d.contr.Idx) :
    (d.rhsIdx j k 1).val = (j 1).val := by
  have hnb : (1 : Fin 2) ∉ d.rhsBatch := by rw [hb]; exact List.not_mem_nil
  have hmem : (1 : Fin 2) ∈ d.rhsNonContracting := by rw [hn]; exact List.mem_singleton.mpr rfl
  unfold DotDims.rhsIdx
  rw [dif_neg hnb, dif_pos hmem]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hn])

/-- So the sum over the contraction index of the operands' products is the sum over the K inner positions. -/
private theorem sum_contr_eq (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = K)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  congr 2
  · funext a; apply Fin.ext
    match a with
    | ⟨0, _⟩ => exact lhsIdx_row d hlb hln _ _
    | ⟨1, _⟩ => exact (lhsIdx_col d hlc _ _).trans hk
  · funext a; apply Fin.ext
    match a with
    | ⟨0, _⟩ => exact (rhsIdx_row d hrc _ _).trans hk
    | ⟨1, _⟩ => exact rhsIdx_col d hrb hlb hln hrn _ _

end Plain

/-! ## The encoder stage at an index -/

/-- The encoder stage at row `r`, column `q`: tanh of the row of `x` against the column of `W`, plus the bias. -/
private def encAt {R K : Nat} (x : (⟨2, ![R, K]⟩ : Shape).Idx → EReal) (W : (⟨2, ![K, 16]⟩ : Shape).Idx → EReal)
    (rb : (⟨2, ![1, 16]⟩ : Shape).Idx → EReal) (r : Fin R) (q : Fin 16) : EReal :=
  Ideal.tanh (∑ k : Fin K, x (ix2 r k) * W (ix2 k q) + rb (ix2 0 q))

/-- The reference's encoder stage over the whole array, read at an index. -/
private theorem enc10_apply (x : FVec Ideal Cert.ReferenceIdeal.S2097152x10 .f32) (W : FVec Ideal Cert.ReferenceIdeal.S10x16 .f32)
    (rb : FVec Ideal Cert.ReferenceIdeal.S1x16 .f32) (r : Fin 2097152) (q : Fin 16) :
    Cert.ReferenceIdeal.Spec.enc10 (F := Ideal) x W rb (ix2 r q) = encAt x W rb r q := by
  unfold Cert.ReferenceIdeal.Spec.enc10 encAt
  show Ideal.tanh (FloatOps.dotGeneral Cert.ReferenceIdeal.dot_S2097152x10_S10x16_S2097152x16_1_0_0_1_n_n none .single x W (ix2 r q)
      + broadcastInDim Cert.ReferenceIdeal.S2097152x16 ![0, 1] Cert.ReferenceIdeal.Gen.bcast_S1x16_S2097152x16_0_1 rb (ix2 r q)) = _
  rw [Ideal.dotGeneral_apply,
    sum_contr_eq Cert.ReferenceIdeal.dot_S2097152x10_S10x16_S2097152x16_1_0_0_1_n_n rfl rfl rfl rfl rfl rfl rfl rfl,
    broadcastInDim_apply _ _ rb (ix2 r q) (ix2 0 q) (fun a => by
      match a with
      | ⟨0, _⟩ => rfl
      | ⟨1, _⟩ => rfl)]

/-- The body's arithmetic on a block, read at an index of the block. -/
theorem k2_pay1_apply (x0 : Vec Ideal S8192x10 .f32) (x1 : Vec Ideal S10x16 .f32) (x2 : Vec Ideal S1x16 .f32)
    (p : Fin 8192) (q : Fin 16) :
    k2_pay1 (F := Ideal) x0 x1 x2 (ix2 p q) = encAt x0 x1 x2 p q := by
  unfold k2_pay1 encAt
  show Ideal.tanh (FloatOps.matmul (F := Ideal) dot_S8192x10_S10x16_S8192x16_1_0_0_1_n_n none (truncf .bf16 x0 bitsLt_bf16_f32) (truncf .bf16 x1 bitsLt_bf16_f32)
        (constant (F := Ideal) S8192x16 .f32 0x00000000#32) (ix2 p q)
      + broadcastTo S8192x16 (shapeCast S1x16 x2 shapeCasts_S1x16_S1x16) broadcasts_S1x16_S8192x16 (ix2 p q)) = _
  rw [Ideal.matmul_constant_zero_apply,
    sum_contr_eq dot_S8192x10_S10x16_S8192x16_1_0_0_1_n_n rfl rfl rfl rfl rfl rfl rfl rfl,
    shapeCast_self,
    broadcastTo_apply x2 _ (ix2 p q) (ix2 0 q) (fun a => by
      match a with
      | ⟨0, _⟩ => rfl
      | ⟨1, _⟩ => rfl)]
  rfl

/-- The stage at a row depends on that row of the input only. -/
private theorem encAt_congr {R R' K : Nat} (x : (⟨2, ![R, K]⟩ : Shape).Idx → EReal) (x' : (⟨2, ![R', K]⟩ : Shape).Idx → EReal)
    (W : (⟨2, ![K, 16]⟩ : Shape).Idx → EReal) (rb : (⟨2, ![1, 16]⟩ : Shape).Idx → EReal) (r : Fin R) (r' : Fin R') (q : Fin 16)
    (h : ∀ k : Fin K, x (ix2 r k) = x' (ix2 r' k)) : encAt x W rb r q = encAt x' W rb r' q := by
  unfold encAt
  rw [Finset.sum_congr rfl fun k _ => by rw [h k]]

/-! ## Region 2's blocks, read off its arrays -/

private theorem zero_offsets : (![0, 0] : Fin 2 → Nat) = fun _ => 0 := funext fun a => by fin_cases a <;> rfl

/-- The printed index maps, decided over the grid: the rows block and the output block of point `t` are block
    `(t, 0)` of their arrays, the weights and the bias row are block `(0, 0)`, the whole array, at every point. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks

variable (V : (c : Dev nD) → (b : Ref sig .tc) → Buf (Elt Ideal) ((c : Thread nD τ).loc b))

/-- The rows block at point `t` is rows `8192 t … 8192 t + 8191` of the input array. -/
theorem iblk2_rows (c : Dev nD) (t : Fin cfg2.N) (p : Fin 8192) (k : Fin 10) (r : Fin 2097152) (hr : r.val = t.val * 8192 + p.val) :
    (iblk2 V c 0 t : Vec Ideal S8192x10 .f32) (ix2 p k) = (V c main_arg4 : S2097152x10.Idx → EReal) (ix2 r k) := by
  obtain ⟨e0, e1, -⟩ := index_facts2 t
  unfold iblk2
  rw [View.read_apply]
  show V c main_arg4 _ = V c main_arg4 _
  congr 1
  funext a; apply Fin.ext
  match a with
  | ⟨0, _⟩ => show win2_0.index t (0 : Fin 2) * 8192 + 1 * p.val = r.val; rw [e0, hr]; omega
  | ⟨1, _⟩ => show win2_0.index t (1 : Fin 2) * 10 + 1 * k.val = k.val; rw [e1]; omega

/-- The weights block is the whole weight matrix at every point. -/
theorem iblk2_weights (c : Dev nD) (t : Fin cfg2.N) : (iblk2 V c 1 t : Vec Ideal S10x16 .f32) = V c main_arg12 := by
  obtain ⟨-, -, e0, e1, -⟩ := index_facts2 t
  funext j
  unfold iblk2
  rw [View.read_apply]
  show V c main_arg12 _ = V c main_arg12 j
  congr 1
  funext a; apply Fin.ext
  match a with
  | ⟨0, _⟩ => show win2_1.index t (0 : Fin 2) * 10 + 1 * (j 0).val = (j 0).val; rw [e0]; omega
  | ⟨1, _⟩ => show win2_1.index t (1 : Fin 2) * 16 + 1 * (j 1).val = (j 1).val; rw [e1]; omega

/-- The bias block is the whole bias row at every point. -/
theorem iblk2_bias (c : Dev nD) (t : Fin cfg2.N) : (iblk2 V c 2 t : Vec Ideal S1x16 .f32) = V c main_v4 := by
  obtain ⟨-, -, -, -, e0, e1, -⟩ := index_facts2 t
  funext j
  unfold iblk2
  rw [View.read_apply]
  show V c main_v4 _ = V c main_v4 j
  congr 1
  funext a; apply Fin.ext
  match a with
  | ⟨0, _⟩ => show win2_2.index t (0 : Fin 2) * 1 + 1 * (j 0).val = (j 0).val; rw [e0]; omega
  | ⟨1, _⟩ => show win2_2.index t (1 : Fin 2) * 16 + 1 * (j 1).val = (j 1).val; rw [e1]; omega

/-- What point `t` writes back is its block of the encoder stage of the whole input: row `p` of the block is
    row `8192 t + p` of the array, on both sides. -/
theorem flushed2_eq (c : Dev nD) (t : Fin cfg2.N) :
    (dat2 (F := Ideal) V c).flushed 3 t
      = ((cfg2.win 3).blk t).view.read (Elt Ideal)
          (Cert.ReferenceIdeal.Spec.enc10 (F := Ideal) (V c main_arg4) (V c main_arg12) (V c main_v4)) := by
  show (cfg2.win 3).cut (grid2.coords t) ((dat2 V c).after 3 t) = _
  rw [after2_3]
  unfold out2_3
  rw [View.canon_unit_zero zero_offsets]
  simp only [View.ld_unit_zero (S := S8192x10) zero_offsets, View.ld_unit_zero (S := S10x16) zero_offsets,
    View.ld_unit_zero (S := S1x16) zero_offsets]
  rw [iblk2_weights, iblk2_bias]
  obtain ⟨-, -, -, -, -, -, e0, e1⟩ := index_facts2 t
  have hN : t.val < 256 := lt_of_lt_of_eq t.isLt N_2
  funext j
  obtain ⟨p, q, rfl⟩ : ∃ (p : Fin 8192) (q : Fin 16), j = ix2 p q := ⟨j 0, j 1, eq_ix2 j⟩
  have hlt : t.val * 8192 + p.val < 2097152 := by have := p.isLt; omega
  have hemb : ((cfg2.win 3).blk t).view.emb (ix2 p q) = ix2 (⟨t.val * 8192 + p.val, hlt⟩ : Fin 2097152) q := by
    funext a; apply Fin.ext
    match a with
    | ⟨0, _⟩ => show win2_3.index t (0 : Fin 2) * 8192 + 1 * p.val = t.val * 8192 + p.val; rw [e0]; omega
    | ⟨1, _⟩ => show win2_3.index t (1 : Fin 2) * 16 + 1 * q.val = q.val; rw [e1]; omega
  show k2_pay1 (F := Ideal) (iblk2 V c 0 t) (V c main_arg12) (V c main_v4) (ix2 p q)
    = Cert.ReferenceIdeal.Spec.enc10 (F := Ideal) (V c main_arg4) (V c main_arg12) (V c main_v4) (((cfg2.win 3).blk t).view.emb (ix2 p q))
  rw [hemb, k2_pay1_apply, enc10_apply]
  exact encAt_congr _ _ _ _ _ _ _ fun k => iblk2_rows V c t p k _ rfl

/-- Every row of the output array is in the block of the point its block of 8192 rows belongs to. -/
theorem cover2 (i : S2097152x16.Idx) : ∃ t : Fin cfg2.N, (cfg2.win 3).flush t = true ∧ i ∈ ((cfg2.win 3).blk t).view.set := by
  have h0 : (i 0).val < 2097152 := (i 0).isLt
  have h1 : (i 1).val < 16 := (i 1).isLt
  have hN : cfg2.N = 256 := N_2
  let t : Fin cfg2.N := ⟨(i 0).val / 8192, by rw [hN]; omega⟩
  obtain ⟨-, -, -, -, -, -, e0, e1⟩ := index_facts2 t
  refine ⟨t, flush2_3 t, ?_⟩
  show i ∈ ((View.whole main_v5).slice (win2_3.rect t)).set
  rw [View.set_slice_whole, Rect.mem_set_unit]
  intro a
  match a with
  | ⟨0, _⟩ =>
    show win2_3.index t (0 : Fin 2) * 8192 ≤ (i 0).val ∧ (i 0).val < win2_3.index t (0 : Fin 2) * 8192 + 8192
    rw [e0]; show (i 0).val / 8192 * 8192 ≤ (i 0).val ∧ (i 0).val < (i 0).val / 8192 * 8192 + 8192; omega
  | ⟨1, _⟩ =>
    show win2_3.index t (1 : Fin 2) * 16 ≤ (i 1).val ∧ (i 1).val < win2_3.index t (1 : Fin 2) * 16 + 16
    rw [e1]; omega

end Blocks

/-- Region 2's output array after its last grid point is the encoder stage of its three input arrays. -/
theorem final2 (V : (c : Dev nD) → (b : Ref sig .tc) → Buf (Elt Ideal) ((c : Thread nD τ).loc b)) (c : Dev nD) :
    (dat2 (F := Ideal) V c).arrAt 3 cfg2.N
      = Cert.ReferenceIdeal.Spec.enc10 (F := Ideal) (V c main_arg4) (V c main_arg12) (V c main_v4) := by
  exact (dat2 (F := Ideal) V c).arrAt_eq_of_cover 3 _ (fun t _ => flushed2_eq V c t) cover2

end Cert.KernelIdeal.Val

end
-- ==== Proof.ValueKI.Head3.lean ====
/-
  What the head region leaves in its output array, as one function of the arrays it finds: every block of 4096 rows is
  the three-layer head of the same rows of the action features, so the whole array is the head of the whole input.
-/
import proofs.«417565_j46454366273713_1_alg».proof.Proof.FrameKI.Region3
import proofs.«417565_j46454366273713_1_alg».proof.Proof.Bridge.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

namespace Head3

open Idealize.ShloMosaic.ValueIdx

/-! ## One row through the head -/

/-- A dense layer at one row: the row's 64 features against column `q` of the weights, plus entry `q` of the bias row. -/
def dense {n : Nat} (row : Fin 64 → EReal) (W : (⟨2, ![64, n]⟩ : Shape).Idx → EReal) (b : (⟨2, ![1, n]⟩ : Shape).Idx → EReal)
    (q : Fin n) : EReal :=
  ∑ k : Fin 64, row k * W (ix2 k q) + b (ix2 (0 : Fin 1) q)

/-- The head at one row: two dense layers of 64 units each under tanh, then a dense layer of one unit. -/
def headRow (row : Fin 64 → EReal) (W1 : (⟨2, ![64, 64]⟩ : Shape).Idx → EReal) (b1 : (⟨2, ![1, 64]⟩ : Shape).Idx → EReal)
    (W2 : (⟨2, ![64, 64]⟩ : Shape).Idx → EReal) (b2 : (⟨2, ![1, 64]⟩ : Shape).Idx → EReal)
    (W3 : (⟨2, ![64, 1]⟩ : Shape).Idx → EReal) (b3 : (⟨2, ![1, 1]⟩ : Shape).Idx → EReal) (q : Fin 1) : EReal :=
  dense (fun k => Ideal.tanh (dense (fun j => Ideal.tanh (dense row W1 b1 j)) W2 b2 k)) W3 b3 q

/-- A dense layer depends on the row through its entries only. -/
theorem dense_congr {n : Nat} {row row' : Fin 64 → EReal} (h : ∀ k, row k = row' k) (W : (⟨2, ![64, n]⟩ : Shape).Idx → EReal)
    (b : (⟨2, ![1, n]⟩ : Shape).Idx → EReal) (q : Fin n) : dense row W b q = dense row' W b q := by
  rw [show row = row' from funext h]

/-- The two spellings of tanh on a vector read at an index. -/
theorem tanh_at {s : Shape} {φ : FTy} (v : FVec Ideal s φ) (i : s.Idx) : tanh v i = Ideal.tanh (v i) := rfl
theorem hostTanh_at {s : Shape} {φ : FTy} (v : FVec Ideal s φ) (i : s.Idx) : Host.tanh v i = Ideal.tanh (v i) := rfl

/-! ## The products are plain matrix products -/

theorem blockDot64_eq_plain : dot_S4096x64_S64x64_S4096x64_1_0_0_1_n_n = DotDims.plain 4096 64 64 := rfl
theorem blockDot1_eq_plain : dot_S4096x64_S64x1_S4096x1_1_0_0_1_n_n = DotDims.plain 4096 64 1 := rfl
theorem wholeDot64_eq_plain : Cert.ReferenceIdeal.dot_S65536x64_S64x64_S65536x64_1_0_0_1_n_n = DotDims.plain 65536 64 64 := rfl
theorem wholeDot1_eq_plain : Cert.ReferenceIdeal.dot_S65536x64_S64x1_S65536x1_1_0_0_1_n_n = DotDims.plain 65536 64 1 := rfl

/-! ## A layer read at an index -/

/-- A 64-unit layer of the body on a block, at row `p` and unit `q`: the product into a zero accumulator is the plain
    product, rounding to bf16 is the identity at the ideal values, and the bias row is repeated down the rows. -/
theorem blockLayer64_apply (X : Vec Ideal S4096x64 .f32) (W : Vec Ideal S64x64 .f32) (b : Vec Ideal S1x64 .f32) (p : Fin 4096) (q : Fin 64) :
    addf (matmul dot_S4096x64_S64x64_S4096x64_1_0_0_1_n_n none (truncf .bf16 X bitsLt_bf16_f32) (truncf .bf16 W bitsLt_bf16_f32)
        (constant (F := Ideal) S4096x64 .f32 0x00000000#32))
      (broadcastTo S4096x64 (shapeCast S1x64 b shapeCasts_S1x64_S1x64) broadcasts_S1x64_S4096x64) (ix2 p q)
      = dense (fun k => X (ix2 p k)) W b q := by
  rw [addf_apply, matmul_zero_eq_dotGeneral, blockDot64_eq_plain, StackMember.dotGeneral_plain_apply, shapeCast_self,
    broadcastTo_1b_ab_apply]
  rfl

/-- The one-unit layer of the body on a block. -/
theorem blockLayer1_apply (X : Vec Ideal S4096x64 .f32) (W : Vec Ideal S64x1 .f32) (b : Vec Ideal S1x1 .f32) (p : Fin 4096) (q : Fin 1) :
    addf (matmul dot_S4096x64_S64x1_S4096x1_1_0_0_1_n_n none (truncf .bf16 X bitsLt_bf16_f32) (truncf .bf16 W bitsLt_bf16_f32)
        (constant (F := Ideal) S4096x1 .f32 0x00000000#32))
      (broadcastTo S4096x1 (shapeCast S1x1 b shapeCasts_S1x1_S1x1) broadcasts_S1x1_S4096x1) (ix2 p q)
      = dense (fun k => X (ix2 p k)) W b q := by
  rw [addf_apply, matmul_zero_eq_dotGeneral, blockDot1_eq_plain, StackMember.dotGeneral_plain_apply, shapeCast_self,
    broadcastTo_1b_ab_apply]
  rfl

/-- A 64-unit layer of the reference on the whole array, at row `r` and unit `q`. -/
theorem wholeLayer64_apply (A : FVec Ideal Cert.ReferenceIdeal.S65536x64 .f32) (W : FVec Ideal Cert.ReferenceIdeal.S64x64 .f32)
    (b : FVec Ideal Cert.ReferenceIdeal.S1x64 .f32) (r : Fin 65536) (q : Fin 64) :
    addf (Host.dotGeneral Cert.ReferenceIdeal.dot_S65536x64_S64x64_S65536x64_1_0_0_1_n_n none A W)
      (broadcastInDim Cert.ReferenceIdeal.S65536x64 ![0, 1] Cert.ReferenceIdeal.Gen.bcast_S1x64_S65536x64_0_1 b) (ix2 r q)
      = dense (fun k => A (ix2 r k)) W b q := by
  rw [addf_apply, wholeDot64_eq_plain, StackMember.dotGeneral_plain_apply, broadcastInDim_oneRow_apply]
  rfl

/-- The one-unit layer of the reference on the whole array. -/
theorem wholeLayer1_apply (A : FVec Ideal Cert.ReferenceIdeal.S65536x64 .f32) (W : FVec Ideal Cert.ReferenceIdeal.S64x1 .f32)
    (b : FVec Ideal Cert.ReferenceIdeal.S1x1 .f32) (r : Fin 65536) (q : Fin 1) :
    addf (Host.dotGeneral Cert.ReferenceIdeal.dot_S65536x64_S64x1_S65536x1_1_0_0_1_n_n none A W)
      (broadcastInDim Cert.ReferenceIdeal.S65536x1 ![0, 1] Cert.ReferenceIdeal.Gen.bcast_S1x1_S65536x1_0_1 b) (ix2 r q)
      = dense (fun k => A (ix2 r k)) W b q := by
  rw [addf_apply, wholeDot1_eq_plain, StackMember.dotGeneral_plain_apply, broadcastInDim_oneRow_apply]
  rfl

/-! ## The body's value and the reference's, at a row -/

/-- What the body stores at row `p` of its block is the head of row `p` of its feature block. -/
theorem body_apply (x0 : Vec Ideal S4096x64 .f32) (x1 : Vec Ideal S64x64 .f32) (x2 : Vec Ideal S1x64 .f32) (x3 : Vec Ideal S64x64 .f32)
    (x4 : Vec Ideal S1x64 .f32) (x5 : Vec Ideal S64x1 .f32) (x6 : Vec Ideal S1x1 .f32) (p : Fin 4096) (q : Fin 1) :
    k3_pay1 x0 x1 x2 x3 x4 x5 x6 (ix2 p q) = headRow (fun k => x0 (ix2 p k)) x1 x2 x3 x4 x5 x6 q := by
  unfold k3_pay1 headRow
  simp only [blockLayer1_apply, blockLayer64_apply, tanh_at]
  simp only [shapeCast_self]

/-- The reference's head at row `r` is the head of row `r` of the features. -/
theorem head_apply (a : FVec Ideal Cert.ReferenceIdeal.S65536x64 .f32) (W1 : FVec Ideal Cert.ReferenceIdeal.S64x64 .f32)
    (b1 : FVec Ideal Cert.ReferenceIdeal.S1x64 .f32) (W2 : FVec Ideal Cert.ReferenceIdeal.S64x64 .f32)
    (b2 : FVec Ideal Cert.ReferenceIdeal.S1x64 .f32) (W3 : FVec Ideal Cert.ReferenceIdeal.S64x1 .f32)
    (b3 : FVec Ideal Cert.ReferenceIdeal.S1x1 .f32) (r : Fin 65536) (q : Fin 1) :
    Cert.ReferenceIdeal.Spec.head a W1 b1 W2 b2 W3 b3 (ix2 r q) = headRow (fun k => a (ix2 r k)) W1 b1 W2 b2 W3 b3 q := by
  unfold Cert.ReferenceIdeal.Spec.head headRow
  rw [wholeLayer1_apply]
  refine dense_congr (fun k => ?_) _ _ _
  show Ideal.tanh _ = Ideal.tanh _
  rw [wholeLayer64_apply]
  refine congrArg Ideal.tanh (dense_congr (fun j => ?_) _ _ _)
  show Ideal.tanh _ = Ideal.tanh _
  rw [wholeLayer64_apply]

/-! ## From blocks to the array -/

/-- The offsets of a rectangle that is the whole block are zero on both axes. -/
theorem zeroOffsets : (![0, 0] : Fin 2 → Nat) = fun _ => 0 :=
  funext fun a => by match a with | ⟨0, _⟩ => rfl | ⟨1, _⟩ => rfl

/-- The index maps over the grid: at point `t` the feature window and the output window are at block (t, 0), the weight
    and bias windows at block (0, 0). -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- An array read at two indices with the same coordinates. -/
theorem read_eq_of_coords {s : Shape} {α : Type} (A : s.Idx → α) (e z : s.Idx) (h : ∀ a, (e a).val = (z a).val) : A e = A z :=
  congrArg A (funext fun a => Fin.ext (h a))

/-- The body's value on a block whose feature rows are rows of the array, and whose weights and biases are the arrays',
    is the reference's head at the corresponding row. -/
theorem headBlock_eq (a : FVec Ideal Cert.ReferenceIdeal.S65536x64 .f32) (W1 : FVec Ideal Cert.ReferenceIdeal.S64x64 .f32)
    (b1 : FVec Ideal Cert.ReferenceIdeal.S1x64 .f32) (W2 : FVec Ideal Cert.ReferenceIdeal.S64x64 .f32)
    (b2 : FVec Ideal Cert.ReferenceIdeal.S1x64 .f32) (W3 : FVec Ideal Cert.ReferenceIdeal.S64x1 .f32)
    (b3 : FVec Ideal Cert.ReferenceIdeal.S1x1 .f32)
    (x0 : Vec Ideal S4096x64 .f32) (x1 : Vec Ideal S64x64 .f32) (x2 : Vec Ideal S1x64 .f32) (x3 : Vec Ideal S64x64 .f32)
    (x4 : Vec Ideal S1x64 .f32) (x5 : Vec Ideal S64x1 .f32) (x6 : Vec Ideal S1x1 .f32) (y : S4096x1.Idx) (i : S65536x1.Idx)
    (h0 : ∀ k : Fin 64, x0 (ix2 (n0 := 4096) (n1 := 64) (y 0) k) = a (ix2 (n0 := 65536) (n1 := 64) (i 0) k))
    (h1 : x1 = W1) (h2 : x2 = b1) (h3 : x3 = W2) (h4 : x4 = b2) (h5 : x5 = W3) (h6 : x6 = b3) :
    k3_pay1 x0 x1 x2 x3 x4 x5 x6 y = Cert.ReferenceIdeal.Spec.head a W1 b1 W2 b2 W3 b3 i := by
  subst h1 h2 h3 h4 h5 h6
  obtain ⟨p, q, rfl⟩ : ∃ (p : Fin 4096) (q : Fin 1), y = ix2 p q := ⟨y 0, y 1, eq_ix2 y⟩
  obtain ⟨r, q', rfl⟩ : ∃ (r : Fin 65536) (q' : Fin 1), i = ix2 r q' := ⟨i 0, i 1, eq_ix2 i⟩
  obtain rfl : q' = q := Subsingleton.elim _ _
  have h0' : ∀ k : Fin 64, x0 (ix2 p k) = a (ix2 r k) := h0
  rw [body_apply, head_apply, show (fun k => x0 (ix2 p k)) = fun k => a (ix2 r k) from funext h0']

section AtContents

variable (V : (c : Dev nD) → (b : Ref sig .tc) → Buf (Elt Ideal) ((c : Thread nD τ).loc b)) (c : Dev nD)

/-- Row `p` of the feature block at point `t` is the array's row at the same place as row `p` of the output block. -/
theorem block3_0 (t : Fin cfg3.N) (p : Fin 4096) (k : Fin 64) (r : Fin 65536)
    (hr : r.val = win3_7.index t (0 : Fin 2) * 4096 + 1 * p.val) :
    iblk3 V c 0 t (ix2 p k) = V c main_v42 (ix2 r k) := by
  obtain ⟨e00, e01, -, -, -, -, -, -, -, -, -, -, -, -, e70, -⟩ := blockIndex3 t
  show V c main_v42 (((cfg3.win 0).blk t).view.emb (ix2 p k)) = _
  refine read_eq_of_coords _ _ _ fun a => ?_
  match a with
  | ⟨0, _⟩ => show win3_0.index t (0 : Fin 2) * 4096 + 1 * p.val = r.val; omega
  | ⟨1, _⟩ => show win3_0.index t (1 : Fin 2) * 64 + 1 * k.val = k.val; omega

/-- The first layer's weights are staged whole at every point. -/
theorem block3_1 (t : Fin cfg3.N) : iblk3 V c 1 t = V c main_arg14 := by
  obtain ⟨-, -, e10, e11, e20, e21, e30, e31, e40, e41, e50, e51, e60, e61, -, -⟩ := blockIndex3 t
  funext z
  show V c main_arg14 (((cfg3.win 1).blk t).view.emb z) = V c main_arg14 z
  refine read_eq_of_coords _ _ _ fun a => ?_
  match a with
  | ⟨0, _⟩ => show win3_1.index t (0 : Fin 2) * 64 + 1 * (z 0).val = (z 0).val; omega
  | ⟨1, _⟩ => show win3_1.index t (1 : Fin 2) * 64 + 1 * (z 1).val = (z 1).val; omega
/-- The first layer's bias row is staged whole at every point. -/
theorem block3_2 (t : Fin cfg3.N) : iblk3 V c 2 t = V c main_v43 := by
  obtain ⟨-, -, e10, e11, e20, e21, e30, e31, e40, e41, e50, e51, e60, e61, -, -⟩ := blockIndex3 t
  funext z
  show V c main_v43 (((cfg3.win 2).blk t).view.emb z) = V c main_v43 z
  refine read_eq_of_coords _ _ _ fun a => ?_
  match a with
  | ⟨0, _⟩ => show win3_2.index t (0 : Fin 2) * 1 + 1 * (z 0).val = (z 0).val; omega
  | ⟨1, _⟩ => show win3_2.index t (1 : Fin 2) * 64 + 1 * (z 1).val = (z 1).val; omega
/-- The second layer's weights are staged whole at every point. -/
theorem block3_3 (t : Fin cfg3.N) : iblk3 V c 3 t = V c main_arg16 := by
  obtain ⟨-, -, e10, e11, e20, e21, e30, e31, e40, e41, e50, e51, e60, e61, -, -⟩ := blockIndex3 t
  funext z
  show V c main_arg16 (((cfg3.win 3).blk t).view.emb z) = V c main_arg16 z
  refine read_eq_of_coords _ _ _ fun a => ?_
  match a with
  | ⟨0, _⟩ => show win3_3.index t (0 : Fin 2) * 64 + 1 * (z 0).val = (z 0).val; omega
  | ⟨1, _⟩ => show win3_3.index t (1 : Fin 2) * 64 + 1 * (z 1).val = (z 1).val; omega
/-- The second layer's bias row is staged whole at every point. -/
theorem block3_4 (t : Fin cfg3.N) : iblk3 V c 4 t = V c main_v44 := by
  obtain ⟨-, -, e10, e11, e20, e21, e30, e31, e40, e41, e50, e51, e60, e61, -, -⟩ := blockIndex3 t
  funext z
  show V c main_v44 (((cfg3.win 4).blk t).view.emb z) = V c main_v44 z
  refine read_eq_of_coords _ _ _ fun a => ?_
  match a with
  | ⟨0, _⟩ => show win3_4.index t (0 : Fin 2) * 1 + 1 * (z 0).val = (z 0).val; omega
  | ⟨1, _⟩ => show win3_4.index t (1 : Fin 2) * 64 + 1 * (z 1).val = (z 1).val; omega
/-- The last layer's weights are staged whole at every point. -/
theorem block3_5 (t : Fin cfg3.N) : iblk3 V c 5 t = V c main_arg18 := by
  obtain ⟨-, -, e10, e11, e20, e21, e30, e31, e40, e41, e50, e51, e60, e61, -, -⟩ := blockIndex3 t
  funext z
  show V c main_arg18 (((cfg3.win 5).blk t).view.emb z) = V c main_arg18 z
  refine read_eq_of_coords _ _ _ fun a => ?_
  match a with
  | ⟨0, _⟩ => show win3_5.index t (0 : Fin 2) * 64 + 1 * (z 0).val = (z 0).val; omega
  | ⟨1, _⟩ => show win3_5.index t (1 : Fin 2) * 1 + 1 * (z 1).val = (z 1).val; omega
/-- The last layer's bias is staged whole at every point. -/
theorem block3_6 (t : Fin cfg3.N) : iblk3 V c 6 t = V c main_v45 := by
  obtain ⟨-, -, e10, e11, e20, e21, e30, e31, e40, e41, e50, e51, e60, e61, -, -⟩ := blockIndex3 t
  funext z
  show V c main_v45 (((cfg3.win 6).blk t).view.emb z) = V c main_v45 z
  refine read_eq_of_coords _ _ _ fun a => ?_
  match a with
  | ⟨0, _⟩ => show win3_6.index t (0 : Fin 2) * 1 + 1 * (z 0).val = (z 0).val; omega
  | ⟨1, _⟩ => show win3_6.index t (1 : Fin 2) * 1 + 1 * (z 1).val = (z 1).val; omega

/-- What point `t` writes back is its block of the head of the whole arrays. -/
theorem flushed3_eq (t : Fin cfg3.N) :
    (dat3 (F := Ideal) V c).flushed 7 t
      = ((cfg3.win 7).blk t).view.read (Elt Ideal) (Cert.ReferenceIdeal.Spec.head (F := Ideal) (V c main_v42) (V c main_arg14)
          (V c main_v43) (V c main_arg16) (V c main_v44) (V c main_arg18) (V c main_v45)) := by
  show (cfg3.win 7).cut (grid3.coords t) ((dat3 (F := Ideal) V c).after 7 t) = _
  rw [after3_7]
  unfold out3_7
  rw [View.canon_unit_zero zeroOffsets]
  simp only [View.ld_unit_zero (S := S4096x64) zeroOffsets, View.ld_unit_zero (S := S64x64) zeroOffsets,
    View.ld_unit_zero (S := S1x64) zeroOffsets, View.ld_unit_zero (S := S64x1) zeroOffsets, View.ld_unit_zero (S := S1x1) zeroOffsets]
  funext y
  exact headBlock_eq _ _ _ _ _ _ _ (iblk3 V c 0 t) (iblk3 V c 1 t) (iblk3 V c 2 t) (iblk3 V c 3 t) (iblk3 V c 4 t) (iblk3 V c 5 t)
    (iblk3 V c 6 t) y (((cfg3.win 7).blk t).view.emb y) (fun k => block3_0 V c t (y 0) k _ rfl)
    (block3_1 V c t) (block3_2 V c t) (block3_3 V c t) (block3_4 V c t) (block3_5 V c t) (block3_6 V c t)

/-- A row of the output array is in point `t`'s block when each coordinate is in the block's range on its axis. -/
theorem mem_block3 (t : Fin cfg3.N) (i : S65536x1.Idx) :
    i ∈ ((cfg3.win 7).blk t).view.set
      ↔ ∀ a : Fin 2, win3_7.index t a * S4096x1.size a ≤ (i a).val ∧ (i a).val < win3_7.index t a * S4096x1.size a + S4096x1.size a := by
  show i ∈ ((View.whole main_v46).slice (win3_7.rect t)).set ↔ _
  rw [View.set_slice_whole, Rect.mem_set_unit]
  exact Iff.rfl

/-- Every row of the output array is written back by some point: row `r` by point `r / 4096`. -/
theorem covered3 (i : S65536x1.Idx) :
    ∃ t : Fin cfg3.N, (cfg3.win 7).flush t = true ∧ i ∈ ((cfg3.win 7).blk t).view.set := by
  have hi0 : (i 0).val < 65536 := idx2_lt0 i
  have hi1 : (i 1).val < 1 := idx2_lt1 i
  have hN : cfg3.N = 16 := N_3
  obtain ⟨t, ht⟩ : ∃ t : Fin cfg3.N, t.val = (i 0).val / 4096 := ⟨⟨(i 0).val / 4096, by rw [hN]; omega⟩, rfl⟩
  obtain ⟨-, -, -, -, -, -, -, -, -, -, -, -, -, -, e70, e71⟩ := blockIndex3 t
  refine ⟨t, flush3_7 t, ?_⟩
  rw [mem_block3]
  intro a
  match a with
  | ⟨0, _⟩ =>
    show win3_7.index t (0 : Fin 2) * 4096 ≤ (i 0).val ∧ (i 0).val < win3_7.index t (0 : Fin 2) * 4096 + 4096
    omega
  | ⟨1, _⟩ =>
    show win3_7.index t (1 : Fin 2) * 1 ≤ (i 1).val ∧ (i 1).val < win3_7.index t (1 : Fin 2) * 1 + 1
    omega

end AtContents

end Head3

open Head3 in
/-- The head region's output array after its last grid point is the head of its seven input arrays. -/
theorem final3 (V : (c : Dev nD) → (b : Ref sig .tc) → Buf (Elt Ideal) ((c : Thread nD τ).loc b)) (c : Dev nD) :
    (dat3 (F := Ideal) V c).arrAt 7 cfg3.N
      = Cert.ReferenceIdeal.Spec.head (F := Ideal) (V c main_v42) (V c main_arg14) (V c main_v43) (V c main_arg16) (V c main_v44)
          (V c main_arg18) (V c main_v45) :=
  (dat3 (F := Ideal) V c).arrAt_eq_of_cover 7 _ (fun t _ => flushed3_eq V c t) (fun i => covered3 i)

end Cert.KernelIdeal.Val

end
-- ==== Proof.Bridge.Range.lean ====
/-
  "Every entry of an index array, read as an unsigned word, is below N": for N below 2^31 this is 0 ≤ idx < N of the
  signed reading, the range in which an index names a row of an array of N rows.
-/
import Idealize.ShloMosaic.PureOps.Vector

namespace Cert.Bridge

open Idealize.ShloMosaic

/-- Every word of `a` is a row number of an array of `N` rows. -/
def InRange (N : ℕ) {s : Shape} (a : IVec s 32) : Prop := ∀ e, (a e).toNat < N

end Cert.Bridge
-- ==== Proof.ValueKI.Glue.lean ====
/-
  The host operations between the kernel's regions, read as functions of what the regions leave: the bias rows the
  regions are handed are the bias vectors as one-row matrices, the weights and inputs reach the regions as launched, and
  the 64 action features the head is handed are the reference's pooling chain of the three encoded arrays — once the
  two gather index arrays are in range, where the kernel's guarded row read (rows outside the array replaced by a fill)
  is the plain row read.
-/
import proofs.«417565_j46454366273713_1_alg».proof.Proof.Gen.KernelIdeal.Regions
import proofs.«417565_j46454366273713_1_alg».proof.Proof.Bridge.Spec
import proofs.«417565_j46454366273713_1_alg».proof.Proof.Bridge.Range
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Cert.Bridge (InRange)

/-- A vector recast as a one-row matrix is the vector broadcast along the row axis. -/
theorem shapeCast_row_eq_broadcast {α : Type} {d : ℕ} (v : (⟨1, ![d]⟩ : Shape).Idx → α)
    (h : (⟨1, ![d]⟩ : Shape).ShapeCasts ⟨2, ![1, d]⟩) (h' : (⟨1, ![d]⟩ : Shape).BroadcastsInDim ⟨2, ![1, d]⟩ ![1]) :
    shapeCast ⟨2, ![1, d]⟩ v h = broadcastInDim ⟨2, ![1, d]⟩ ![1] h' v := by
  funext j
  rw [shapeCast_addUnit_apply ![d] v h j]
  exact (broadcastInDim_apply (s := ⟨1, ![d]⟩) (t := ⟨2, ![1, d]⟩) ![1] h' v j (fun a => j a.succ) (fun a => by
    have ha : a = 0 := Subsingleton.elim _ _
    subst ha
    by_cases h1 : (⟨1, ![d]⟩ : Shape).size 0 = 1
    · rw [if_pos h1]
      have hlt := (j (Fin.succ (0 : Fin 1))).isLt
      have hd : d = 1 := h1
      subst hd
      simpa using hlt
    · rw [if_neg h1]; rfl)).symm

section Stretch
variable {F : FTy → Type} [FloatOps F] (W : Valuation τ sig (Elt F))

/-- The last stretch recasts the head's three bias vectors as one-row matrices, whatever the buffers held before it. -/
theorem hostOps3_4_v43 : StableHlo.after (Gen.hostOps3_4 (F := F)) W (Proc.devRef .tc main_v43) = Cert.ReferenceIdeal.Spec.row64 (F := F) (W main_arg15) := by
  after_results
  exact shapeCast_row_eq_broadcast _ _ _
theorem hostOps3_4_v44 : StableHlo.after (Gen.hostOps3_4 (F := F)) W (Proc.devRef .tc main_v44) = Cert.ReferenceIdeal.Spec.row64 (F := F) (W main_arg17) := by
  after_results
  exact shapeCast_row_eq_broadcast _ _ _
theorem hostOps3_4_v45 : StableHlo.after (Gen.hostOps3_4 (F := F)) W (Proc.devRef .tc main_v45) = Cert.ReferenceIdeal.Spec.row1 (F := F) (W main_arg19) := by
  after_results
  exact shapeCast_row_eq_broadcast _ _ _
end Stretch

section Casts
variable {Val : EltTy → Type}

/-- Contents carried to a typed reference's buffer and back are the contents. -/
theorem ofBuf_toBuf {T : BufTy} (x : StableHlo.TRef sig T) (v : T.Contents Val) : x.ofBuf (x.toBuf v) = v := by
  obtain ⟨r, rfl, _, _⟩ := x; rfl

/-- At a literal reference the carrying is the identity. -/
theorem ofBuf_arg5 (v : main_arg5.ty.Contents Val) : (StableHlo.TRef.of main_arg5 : StableHlo.TRef sig ⟨S4194304, .i32⟩).ofBuf v = v := rfl
theorem ofBuf_v5 (v : main_v5.ty.Contents Val) : (StableHlo.TRef.of main_v5 : StableHlo.TRef sig ⟨S2097152x16, .f32⟩).ofBuf v = v := rfl
theorem toBuf_v17 (v : (⟨S4194304x16, .f32⟩ : BufTy).Contents Val) : (StableHlo.TRef.of main_v17 : StableHlo.TRef sig ⟨S4194304x16, .f32⟩).toBuf v = v := rfl
theorem ofBuf_arg7 (v : main_arg7.ty.Contents Val) : (StableHlo.TRef.of main_arg7 : StableHlo.TRef sig ⟨S65536, .i32⟩).ofBuf v = v := rfl
theorem ofBuf_v29 (v : main_v29.ty.Contents Val) : (StableHlo.TRef.of main_v29 : StableHlo.TRef sig ⟨S1048576x32, .f32⟩).ofBuf v = v := rfl
theorem toBuf_v30 (v : (⟨S65536x32, .f32⟩ : BufTy).Contents Val) : (StableHlo.TRef.of main_v30 : StableHlo.TRef sig ⟨S65536x32, .f32⟩).toBuf v = v := rfl
end Casts

section Chain
variable {F : FTy → Type} [FloatOps F]

/-- The mean of the 2097152 rows of `x` over the 65536 segments `a` names: the segments' sums over their sizes, an
    empty segment's size counted as one. -/
def segMeanA (a : IVec S2097152 32) (x : FVec F S2097152x16 .f32) : FVec F S65536x16 .f32 :=
  Host.divf (Host.scatterAdd scatter_S65536x16_S2097152x1_S2097152x16_1_0_0_1 (broadcastInDim S65536x16 ![] bcast_S_S65536x16 (constant S_ .f32 0x00000000#32)) (broadcastInDim S2097152x1 ![0] bcast_S2097152_S2097152x1_0 a) x) (broadcastInDim S65536x16 ![0, 1] bcast_S65536x1_S65536x16_0_1 (maximumf (Host.scatterAdd scatter_S65536x1_S2097152x1_S2097152x1_1_0_0_1 (broadcastInDim S65536x1 ![] bcast_S_S65536x1 (constant S_ .f32 0x00000000#32)) (broadcastInDim S2097152x1 ![0] bcast_S2097152_S2097152x1_0 a) (broadcastInDim S2097152x1 ![] bcast_S_S2097152x1 (constant S_ .f32 0x3F800000#32))) (broadcastInDim S65536x1 ![] bcast_S_S65536x1 (constant S_ .f32 0x3F800000#32))))

/-- The same mean of the 1048576 rows of `x` over the 65536 segments `a` names. -/
def segMeanB (a : IVec S1048576 32) (x : FVec F S1048576x16 .f32) : FVec F S65536x16 .f32 :=
  Host.divf (Host.scatterAdd scatter_S65536x16_S1048576x1_S1048576x16_1_0_0_1 (broadcastInDim S65536x16 ![] bcast_S_S65536x16 (constant S_ .f32 0x00000000#32)) (broadcastInDim S1048576x1 ![0] bcast_S1048576_S1048576x1_0 a) x) (broadcastInDim S65536x16 ![0, 1] bcast_S65536x1_S65536x16_0_1 (maximumf (Host.scatterAdd scatter_S65536x1_S1048576x1_S1048576x1_1_0_0_1 (broadcastInDim S65536x1 ![] bcast_S_S65536x1 (constant S_ .f32 0x00000000#32)) (broadcastInDim S1048576x1 ![0] bcast_S1048576_S1048576x1_0 a) (broadcastInDim S1048576x1 ![] bcast_S_S1048576x1 (constant S_ .f32 0x3F800000#32))) (broadcastInDim S65536x1 ![] bcast_S_S65536x1 (constant S_ .f32 0x3F800000#32))))

/-- `x` beside the mean of the 4194304 rows `g` over the 1048576 segments `a` names. -/
def edgeCat (x : FVec F S1048576x16 .f32) (a : IVec S4194304 32) (g : FVec F S4194304x16 .f32) : FVec F S1048576x32 .f32 :=
  concatenate S1048576x32 1 [⟨S1048576x16, x⟩, ⟨S1048576x16, (Host.divf (Host.scatterAdd scatter_S1048576x16_S4194304x1_S4194304x16_1_0_0_1 (broadcastInDim S1048576x16 ![] bcast_S_S1048576x16 (constant S_ .f32 0x00000000#32)) (broadcastInDim S4194304x1 ![0] bcast_S4194304_S4194304x1_0 a) g) (broadcastInDim S1048576x16 ![0, 1] bcast_S1048576x1_S1048576x16_0_1 (maximumf (Host.scatterAdd scatter_S1048576x1_S4194304x1_S4194304x1_1_0_0_1 (broadcastInDim S1048576x1 ![] bcast_S_S1048576x1 (constant S_ .f32 0x00000000#32)) (broadcastInDim S4194304x1 ![0] bcast_S4194304_S4194304x1_0 a) (broadcastInDim S4194304x1 ![] bcast_S_S4194304x1 (constant S_ .f32 0x3F800000#32))) (broadcastInDim S1048576x1 ![] bcast_S_S1048576x1 (constant S_ .f32 0x3F800000#32)))))⟩] concatenates_S1048576x16_S1048576x16_S1048576x32_d1

/-- The three pooled pieces side by side. -/
def pooled (p : FVec F S65536x16 .f32) (q : FVec F S65536x32 .f32) (r : FVec F S65536x16 .f32) : FVec F S65536x64 .f32 :=
  concatenate S65536x64 1 [⟨S65536x16, p⟩, ⟨S65536x32, q⟩, ⟨S65536x16, r⟩] concatenates_S65536x16_S65536x32_S65536x16_S65536x64_d1

/-- The index column of the first row read: a negative word counted from the end of 2097152 rows. -/
def colA (a : IVec S4194304 32) : IVec S4194304x1 32 :=
  broadcastInDim S4194304x1 ![0] bcast_S4194304_S4194304x1_0 (select (cmpi .slt a (broadcastInDim S4194304 ![] bcast_S_S4194304 (constantI S_ 32 0#32))) (addi a (broadcastInDim S4194304 ![] bcast_S_S4194304 (constantI S_ 32 2097152#32))) a)

/-- The index column of the second row read: a negative word counted from the end of 1048576 rows. -/
def colB (a : IVec S65536 32) : IVec S65536x1 32 :=
  broadcastInDim S65536x1 ![0] bcast_S65536_S65536x1_0 (select (cmpi .slt a (broadcastInDim S65536 ![] bcast_S_S65536 (constantI S_ 32 0#32))) (addi a (broadcastInDim S65536 ![] bcast_S_S65536 (constantI S_ 32 1048576#32))) a)

/-- The plain row read of `x` at the index column. -/
def readA (x : FVec F S2097152x16 .f32) (a : IVec S4194304 32) : FVec F S4194304x16 .f32 :=
  Host.gather gather_S2097152x16_S4194304x1_S4194304x16_1_0_n_n_0_1_116 x (colA a)
def readB (x : FVec F S1048576x32 .f32) (a : IVec S65536 32) : FVec F S65536x32 .f32 :=
  Host.gather gather_S1048576x32_S65536x1_S65536x32_1_0_n_n_0_1_132 x (colB a)

/-- Which rows of the first read name a row of the array: the index column within 0 … 2097151. -/
def maskA (a : IVec S4194304 32) : IVec S4194304 1 :=
  Host.reduce IntOp.andi (andi (cmpi .sge (colA a) (broadcastInDim S4194304x1 ![] bcast_S_S4194304x1 (constantI S_ 32 0#32))) (cmpi .sle (colA a) (broadcastInDim S4194304x1 ![0, 1] bcast_S1x1_S4194304x1_0_1 (broadcastInDim S1x1 ![1] bcast_S1_S1x1_1 (constantI S1 32 2097151#32))))) (constantI S_ 1 1#1) reducesTo_S4194304x1_S4194304_d1 h_S_
def maskB (a : IVec S65536 32) : IVec S65536 1 :=
  Host.reduce IntOp.andi (andi (cmpi .sge (colB a) (broadcastInDim S65536x1 ![] bcast_S_S65536x1 (constantI S_ 32 0#32))) (cmpi .sle (colB a) (broadcastInDim S65536x1 ![0, 1] bcast_S1x1_S65536x1_0_1 (broadcastInDim S1x1 ![1] bcast_S1_S1x1_1 (constantI S1 32 1048575#32))))) (constantI S_ 1 1#1) reducesTo_S65536x1_S65536_d1 h_S_

/-- The guarded row read: the plain read where the index names a row, a fill value elsewhere. -/
def takeA (x : FVec F S2097152x16 .f32) (a : IVec S4194304 32) : FVec F S4194304x16 .f32 :=
  select (broadcastInDim S4194304x16 ![0] bcast_S4194304_S4194304x16_0 (maskA a)) (readA x a) (broadcastInDim S4194304x16 ![] bcast_S_S4194304x16 (constant S_ .f32 0x7FC00000#32))
def takeB (x : FVec F S1048576x32 .f32) (a : IVec S65536 32) : FVec F S65536x32 .f32 :=
  select (broadcastInDim S65536x32 ![0] bcast_S65536_S65536x32_0 (maskB a)) (readB x a) (broadcastInDim S65536x32 ![] bcast_S_S65536x32 (constant S_ .f32 0x7FC00000#32))

variable (W : Valuation τ sig (Elt F))

/-- Each stretch of the pooling chain, whatever the buffers held before it. -/
theorem hostOps3_v16 : StableHlo.after (Gen.hostOps3 (F := F)) W (Proc.devRef .tc main_v16) = segMeanA (F := F) (W main_arg1) (W main_v1) := by
  after_results_simp; rfl
theorem hostOps3_1_v17 : StableHlo.after (Gen.hostOps3_1 (F := F)) W (Proc.devRef .tc main_v17) = takeA (F := F) (W main_v5) (W main_arg5) := by
  after_results_simp
  simp only [ofBuf_toBuf, ofBuf_arg5, ofBuf_v5, toBuf_v17]
  unfold takeA maskA readA colA
  rfl
theorem hostOps3_2_v29 : StableHlo.after (Gen.hostOps3_2 (F := F)) W (Proc.devRef .tc main_v29) = edgeCat (F := F) (W main_v3) (W main_arg6) (W main_v17) := by
  after_results_simp; rfl
theorem hostOps3_3_v30 : StableHlo.after (Gen.hostOps3_3 (F := F)) W (Proc.devRef .tc main_v30) = takeB (F := F) (W main_v29) (W main_arg7) := by
  after_results_simp
  simp only [ofBuf_toBuf, ofBuf_arg7, ofBuf_v29, toBuf_v30]
  unfold takeB maskB readB colB
  rfl
theorem hostOps3_4_v42 : StableHlo.after (Gen.hostOps3_4 (F := F)) W (Proc.devRef .tc main_v42) = pooled (F := F) (W main_v16) (W main_v30) (segMeanB (F := F) (W main_arg3) (W main_v3)) := by
  after_results_simp; rfl

/-- With plain row reads the chain is the reference's pooling chain, operation for operation. -/
theorem pooled_eq_glue (req : FVec F S2097152x16 .f32) (veh : FVec F S1048576x16 .f32) (pas : FVec F S2097152x16 .f32)
    (a1 : IVec S2097152 32) (a3 : IVec S1048576 32) (a5 : IVec S4194304 32) (a6 : IVec S4194304 32) (a7 : IVec S65536 32) :
    pooled (segMeanA a1 req) (readB (edgeCat veh a6 (readA pas a5)) a7) (segMeanB a3 veh)
      = Cert.ReferenceIdeal.Spec.glue (F := F) req veh pas a1 a3 a5 a6 a7 := rfl

end Chain

section Guard
open Idealize.ShloMosaic.StableHlo

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..), show IntOp.andi 1#1 1#1 = 1#1 from rfl]
    exact ih (fun n hn => h n (List.mem_cons_of_mem _ hn))

/-- A reduction by `and` from 1 of a mask that is 1 everywhere is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x _ (fun n _ => hx n)

/-- A word that is not negative is its own wrapped index. -/
theorem wrap_eq_self (w N : BitVec 32) (hw : w.toNat < 2 ^ 31) :
    Scalar.select (IntOp.cmpi .slt w 0#32) (IntOp.addi w N) w = w := by
  have h : ¬ (IntOp.cmpi .slt w 0#32 = 1#1) := by
    rw [Predicate.slt_iff_toNat hw (by decide)]; simp
  exact if_neg h

/-- A word within 0 … M passes the guard. -/
theorem guard_eq_one (w M : BitVec 32) (hM : M.toNat < 2 ^ 31) (hw : w.toNat ≤ M.toNat) :
    IntOp.andi (IntOp.cmpi .sge w 0#32) (IntOp.cmpi .sle w M) = 1#1 := by
  have h1 : IntOp.cmpi .sge w 0#32 = 1#1 := (Predicate.sge_iff_toNat (by omega) (by decide)).mpr (by simp)
  have h2 : IntOp.cmpi .sle w M = 1#1 := (Predicate.sle_iff_toNat (by omega) hM).mpr hw
  rw [h1, h2]; rfl

/-- A choice under a mask that is 1 everywhere is its first branch. -/
theorem select_of_all_one {s : Shape} {α : Type} (c : IVec s 1) (p q : s.Idx → α) (hc : ∀ j, c j = 1#1) : select c p q = p := by
  funext j
  show Scalar.select (c j) (p j) (q j) = p j
  rw [hc j]; rfl

/-- A broadcast of an array that holds one value everywhere holds that value everywhere. -/
theorem broadcastInDim_of_const {s t : Shape} {α : Type} (dims : Fin s.rank → Fin t.rank) (h : s.BroadcastsInDim t dims)
    (x : s.Idx → α) (v : α) (hx : ∀ k, x k = v) (j : t.Idx) : broadcastInDim t dims h x j = v := hx _

end Guard

/-- With every index word a row number, the guarded row read is the plain row read. -/
theorem takeA_eq {F : FTy → Type} [FloatOps F] (x : FVec F S2097152x16 .f32) (a : IVec S4194304 32) (ha : InRange 2097152 a) :
    takeA x a = readA x a := by
  have hcol : ∀ j, ∃ k, colA a j = a k := fun j => ⟨_, wrap_eq_self (a _) _ (Nat.lt_of_lt_of_le (ha _) (by decide))⟩
  have hmask : ∀ j, maskA a j = 1#1 := by
    intro j
    unfold maskA
    apply reduce_andi_of_all_one
    · intro i
      show IntOp.andi (IntOp.cmpi .sge (colA a i) 0#32) (IntOp.cmpi .sle (colA a i) 2097151#32) = 1#1
      obtain ⟨k, hk⟩ := hcol i
      rw [hk]
      have e : (2097151#32 : BitVec 32).toNat = 2097151 := by decide
      exact guard_eq_one _ _ (by decide) (by have := ha k; omega)
    · rfl
  unfold takeA
  exact select_of_all_one _ _ _ (fun j => broadcastInDim_of_const _ _ _ _ hmask j)

theorem takeB_eq {F : FTy → Type} [FloatOps F] (x : FVec F S1048576x32 .f32) (a : IVec S65536 32) (ha : InRange 1048576 a) :
    takeB x a = readB x a := by
  have hcol : ∀ j, ∃ k, colB a j = a k := fun j => ⟨_, wrap_eq_self (a _) _ (Nat.lt_of_lt_of_le (ha _) (by decide))⟩
  have hmask : ∀ j, maskB a j = 1#1 := by
    intro j
    unfold maskB
    apply reduce_andi_of_all_one
    · intro i
      show IntOp.andi (IntOp.cmpi .sge (colB a i) 0#32) (IntOp.cmpi .sle (colB a i) 1048575#32) = 1#1
      obtain ⟨k, hk⟩ := hcol i
      rw [hk]
      have e : (1048575#32 : BitVec 32).toNat = 1048575 := by decide
      exact guard_eq_one _ _ (by decide) (by have := ha k; omega)
    · rfl
  unfold takeB
  exact select_of_all_one _ _ _ (fun j => broadcastInDim_of_const _ _ _ _ hmask j)

variable (m : (ℓ : Loc nD τ sig) → Buf (Elt Ideal) ℓ) (outs : Gen.Outs (F := Ideal)) (c : Dev nD)

/-- The bias vectors reach the operations that recast them as launched. -/
theorem V2_arg11 : Gen.V2 m outs c main_arg11 = (m ((c.tc : Thread nD τ).loc main_arg11)) :=
  (Gen.V2_of m outs c main_arg11 (by decide)).trans <| (Gen.V1_of m c main_arg11 (by decide)).trans rfl
theorem V4_arg13 : Gen.V4 m outs c main_arg13 = (m ((c.tc : Thread nD τ).loc main_arg13)) :=
  (Gen.V4_of m outs c main_arg13 (by decide)).trans <| (Gen.V3_of m outs c main_arg13 (by decide)).trans <| (Gen.V2_of m outs c main_arg13 (by decide)).trans <| (Gen.V1_of m c main_arg13 (by decide)).trans rfl
theorem V10_arg15 : Gen.V10 m outs c main_arg15 = (m ((c.tc : Thread nD τ).loc main_arg15)) :=
  (Gen.V10_of m outs c main_arg15 (by decide)).trans <| (Gen.V9_of m outs c main_arg15 (by decide)).trans <| (Gen.V8_of m outs c main_arg15 (by decide)).trans <| (Gen.V7_of m outs c main_arg15 (by decide)).trans <| (Gen.V6_of m outs c main_arg15 (by decide)).trans <| (Gen.V5_of m outs c main_arg15 (by decide)).trans <| (Gen.V4_of m outs c main_arg15 (by decide)).trans <| (Gen.V3_of m outs c main_arg15 (by decide)).trans <| (Gen.V2_of m outs c main_arg15 (by decide)).trans <| (Gen.V1_of m c main_arg15 (by decide)).trans rfl
theorem V10_arg17 : Gen.V10 m outs c main_arg17 = (m ((c.tc : Thread nD τ).loc main_arg17)) :=
  (Gen.V10_of m outs c main_arg17 (by decide)).trans <| (Gen.V9_of m outs c main_arg17 (by decide)).trans <| (Gen.V8_of m outs c main_arg17 (by decide)).trans <| (Gen.V7_of m outs c main_arg17 (by decide)).trans <| (Gen.V6_of m outs c main_arg17 (by decide)).trans <| (Gen.V5_of m outs c main_arg17 (by decide)).trans <| (Gen.V4_of m outs c main_arg17 (by decide)).trans <| (Gen.V3_of m outs c main_arg17 (by decide)).trans <| (Gen.V2_of m outs c main_arg17 (by decide)).trans <| (Gen.V1_of m c main_arg17 (by decide)).trans rfl
theorem V10_arg19 : Gen.V10 m outs c main_arg19 = (m ((c.tc : Thread nD τ).loc main_arg19)) :=
  (Gen.V10_of m outs c main_arg19 (by decide)).trans <| (Gen.V9_of m outs c main_arg19 (by decide)).trans <| (Gen.V8_of m outs c main_arg19 (by decide)).trans <| (Gen.V7_of m outs c main_arg19 (by decide)).trans <| (Gen.V6_of m outs c main_arg19 (by decide)).trans <| (Gen.V5_of m outs c main_arg19 (by decide)).trans <| (Gen.V4_of m outs c main_arg19 (by decide)).trans <| (Gen.V3_of m outs c main_arg19 (by decide)).trans <| (Gen.V2_of m outs c main_arg19 (by decide)).trans <| (Gen.V1_of m c main_arg19 (by decide)).trans rfl

/-- The bias rows handed to the regions are the bias vectors as one-row matrices. -/
theorem row_v0 : Gen.V1 m c main_v0 = Cert.ReferenceIdeal.Spec.row16 (F := Ideal) (m ((c.tc : Thread nD τ).loc main_arg9)) := by
  show StableHlo.after Gen.hostOps0 _ (Proc.devRef .tc main_v0) = _
  after_results
  exact shapeCast_row_eq_broadcast _ _ _
theorem row_v2 : Gen.V3 m outs c main_v2 = Cert.ReferenceIdeal.Spec.row16 (F := Ideal) (m ((c.tc : Thread nD τ).loc main_arg11)) := by
  show StableHlo.after Gen.hostOps1 _ (Proc.devRef .tc main_v2) = _
  after_results
  exact (shapeCast_row_eq_broadcast _ _ _).trans (congrArg (Cert.ReferenceIdeal.Spec.row16 (F := Ideal)) (V2_arg11 m outs c))
theorem row_v4 : Gen.V5 m outs c main_v4 = Cert.ReferenceIdeal.Spec.row16 (F := Ideal) (m ((c.tc : Thread nD τ).loc main_arg13)) := by
  show StableHlo.after Gen.hostOps2 _ (Proc.devRef .tc main_v4) = _
  after_results
  exact (shapeCast_row_eq_broadcast _ _ _).trans (congrArg (Cert.ReferenceIdeal.Spec.row16 (F := Ideal)) (V4_arg13 m outs c))
theorem row_v43 : Gen.V11 m outs c main_v43 = Cert.ReferenceIdeal.Spec.row64 (F := Ideal) (m ((c.tc : Thread nD τ).loc main_arg15)) :=
  (hostOps3_4_v43 (Gen.V10 m outs c)).trans (congrArg (Cert.ReferenceIdeal.Spec.row64 (F := Ideal)) (V10_arg15 m outs c))
theorem row_v44 : Gen.V11 m outs c main_v44 = Cert.ReferenceIdeal.Spec.row64 (F := Ideal) (m ((c.tc : Thread nD τ).loc main_arg17)) :=
  (hostOps3_4_v44 (Gen.V10 m outs c)).trans (congrArg (Cert.ReferenceIdeal.Spec.row64 (F := Ideal)) (V10_arg17 m outs c))
theorem row_v45 : Gen.V11 m outs c main_v45 = Cert.ReferenceIdeal.Spec.row1 (F := Ideal) (m ((c.tc : Thread nD τ).loc main_arg19)) :=
  (hostOps3_4_v45 (Gen.V10 m outs c)).trans (congrArg (Cert.ReferenceIdeal.Spec.row1 (F := Ideal)) (V10_arg19 m outs c))

/-- The inputs and weights reach their regions as launched. -/
theorem V1_arg0 : Gen.V1 m c main_arg0 = (m ((c.tc : Thread nD τ).loc main_arg0)) :=
  (Gen.V1_of m c main_arg0 (by decide)).trans rfl
theorem V1_arg8 : Gen.V1 m c main_arg8 = (m ((c.tc : Thread nD τ).loc main_arg8)) :=
  (Gen.V1_of m c main_arg8 (by decide)).trans rfl
theorem V3_arg2 : Gen.V3 m outs c main_arg2 = (m ((c.tc : Thread nD τ).loc main_arg2)) :=
  (Gen.V3_of m outs c main_arg2 (by decide)).trans <| (Gen.V2_of m outs c main_arg2 (by decide)).trans <| (Gen.V1_of m c main_arg2 (by decide)).trans rfl
theorem V3_arg10 : Gen.V3 m outs c main_arg10 = (m ((c.tc : Thread nD τ).loc main_arg10)) :=
  (Gen.V3_of m outs c main_arg10 (by decide)).trans <| (Gen.V2_of m outs c main_arg10 (by decide)).trans <| (Gen.V1_of m c main_arg10 (by decide)).trans rfl
theorem V5_arg4 : Gen.V5 m outs c main_arg4 = (m ((c.tc : Thread nD τ).loc main_arg4)) :=
  (Gen.V5_of m outs c main_arg4 (by decide)).trans <| (Gen.V4_of m outs c main_arg4 (by decide)).trans <| (Gen.V3_of m outs c main_arg4 (by decide)).trans <| (Gen.V2_of m outs c main_arg4 (by decide)).trans <| (Gen.V1_of m c main_arg4 (by decide)).trans rfl
theorem V5_arg12 : Gen.V5 m outs c main_arg12 = (m ((c.tc : Thread nD τ).loc main_arg12)) :=
  (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide)).trans rfl
theorem V11_arg14 : Gen.V11 m outs c main_arg14 = (m ((c.tc : Thread nD τ).loc main_arg14)) :=
  (Gen.V11_of m outs c main_arg14 (by decide)).trans <| (Gen.V10_of m outs c main_arg14 (by decide)).trans <| (Gen.V9_of m outs c main_arg14 (by decide)).trans <| (Gen.V8_of m outs c main_arg14 (by decide)).trans <| (Gen.V7_of m outs c main_arg14 (by decide)).trans <| (Gen.V6_of m outs c main_arg14 (by decide)).trans <| (Gen.V5_of m outs c main_arg14 (by decide)).trans <| (Gen.V4_of m outs c main_arg14 (by decide)).trans <| (Gen.V3_of m outs c main_arg14 (by decide)).trans <| (Gen.V2_of m outs c main_arg14 (by decide)).trans <| (Gen.V1_of m c main_arg14 (by decide)).trans rfl
theorem V11_arg16 : Gen.V11 m outs c main_arg16 = (m ((c.tc : Thread nD τ).loc main_arg16)) :=
  (Gen.V11_of m outs c main_arg16 (by decide)).trans <| (Gen.V10_of m outs c main_arg16 (by decide)).trans <| (Gen.V9_of m outs c main_arg16 (by decide)).trans <| (Gen.V8_of m outs c main_arg16 (by decide)).trans <| (Gen.V7_of m outs c main_arg16 (by decide)).trans <| (Gen.V6_of m outs c main_arg16 (by decide)).trans <| (Gen.V5_of m outs c main_arg16 (by decide)).trans <| (Gen.V4_of m outs c main_arg16 (by decide)).trans <| (Gen.V3_of m outs c main_arg16 (by decide)).trans <| (Gen.V2_of m outs c main_arg16 (by decide)).trans <| (Gen.V1_of m c main_arg16 (by decide)).trans rfl
theorem V11_arg18 : Gen.V11 m outs c main_arg18 = (m ((c.tc : Thread nD τ).loc main_arg18)) :=
  (Gen.V11_of m outs c main_arg18 (by decide)).trans <| (Gen.V10_of m outs c main_arg18 (by decide)).trans <| (Gen.V9_of m outs c main_arg18 (by decide)).trans <| (Gen.V8_of m outs c main_arg18 (by decide)).trans <| (Gen.V7_of m outs c main_arg18 (by decide)).trans <| (Gen.V6_of m outs c main_arg18 (by decide)).trans <| (Gen.V5_of m outs c main_arg18 (by decide)).trans <| (Gen.V4_of m outs c main_arg18 (by decide)).trans <| (Gen.V3_of m outs c main_arg18 (by decide)).trans <| (Gen.V2_of m outs c main_arg18 (by decide)).trans <| (Gen.V1_of m c main_arg18 (by decide)).trans rfl

/-- What the three encoder regions left is still there when the pooling chain reads it. -/
theorem V6_v1 : Gen.V6 m outs c main_v1 = outs 2 main_v1 c :=
  (Gen.V6_of m outs c main_v1 (by decide)).trans <| (Gen.V5_of m outs c main_v1 (by decide)).trans <| (Gen.V4_of m outs c main_v1 (by decide)).trans <| (Gen.V3_of m outs c main_v1 (by decide)).trans <| Function.update_self _ _ _
theorem V8_v3 : Gen.V8 m outs c main_v3 = outs 4 main_v3 c :=
  (Gen.V8_of m outs c main_v3 (by decide)).trans <| (Gen.V7_of m outs c main_v3 (by decide)).trans <| (Gen.V6_of m outs c main_v3 (by decide)).trans <| (Gen.V5_of m outs c main_v3 (by decide)).trans <| Function.update_self _ _ _
theorem V10_v3 : Gen.V10 m outs c main_v3 = outs 4 main_v3 c :=
  (Gen.V10_of m outs c main_v3 (by decide)).trans <| (Gen.V9_of m outs c main_v3 (by decide)).trans <| (Gen.V8_of m outs c main_v3 (by decide)).trans <| (Gen.V7_of m outs c main_v3 (by decide)).trans <| (Gen.V6_of m outs c main_v3 (by decide)).trans <| (Gen.V5_of m outs c main_v3 (by decide)).trans <| Function.update_self _ _ _
theorem V7_v5 : Gen.V7 m outs c main_v5 = outs 6 main_v5 c :=
  (Gen.V7_of m outs c main_v5 (by decide)).trans <| Function.update_self _ _ _

/-- The index arrays reach the pooling chain as launched. -/
theorem V6_arg1 : Gen.V6 m outs c main_arg1 = (m ((c.tc : Thread nD τ).loc main_arg1)) :=
  (Gen.V6_of m outs c main_arg1 (by decide)).trans <| (Gen.V5_of m outs c main_arg1 (by decide)).trans <| (Gen.V4_of m outs c main_arg1 (by decide)).trans <| (Gen.V3_of m outs c main_arg1 (by decide)).trans <| (Gen.V2_of m outs c main_arg1 (by decide)).trans <| (Gen.V1_of m c main_arg1 (by decide)).trans rfl
theorem V7_arg5 : Gen.V7 m outs c main_arg5 = (m ((c.tc : Thread nD τ).loc main_arg5)) :=
  (Gen.V7_of m outs c main_arg5 (by decide)).trans <| (Gen.V6_of m outs c main_arg5 (by decide)).trans <| (Gen.V5_of m outs c main_arg5 (by decide)).trans <| (Gen.V4_of m outs c main_arg5 (by decide)).trans <| (Gen.V3_of m outs c main_arg5 (by decide)).trans <| (Gen.V2_of m outs c main_arg5 (by decide)).trans <| (Gen.V1_of m c main_arg5 (by decide)).trans rfl
theorem V8_arg6 : Gen.V8 m outs c main_arg6 = (m ((c.tc : Thread nD τ).loc main_arg6)) :=
  (Gen.V8_of m outs c main_arg6 (by decide)).trans <| (Gen.V7_of m outs c main_arg6 (by decide)).trans <| (Gen.V6_of m outs c main_arg6 (by decide)).trans <| (Gen.V5_of m outs c main_arg6 (by decide)).trans <| (Gen.V4_of m outs c main_arg6 (by decide)).trans <| (Gen.V3_of m outs c main_arg6 (by decide)).trans <| (Gen.V2_of m outs c main_arg6 (by decide)).trans <| (Gen.V1_of m c main_arg6 (by decide)).trans rfl
theorem V9_arg7 : Gen.V9 m outs c main_arg7 = (m ((c.tc : Thread nD τ).loc main_arg7)) :=
  (Gen.V9_of m outs c main_arg7 (by decide)).trans <| (Gen.V8_of m outs c main_arg7 (by decide)).trans <| (Gen.V7_of m outs c main_arg7 (by decide)).trans <| (Gen.V6_of m outs c main_arg7 (by decide)).trans <| (Gen.V5_of m outs c main_arg7 (by decide)).trans <| (Gen.V4_of m outs c main_arg7 (by decide)).trans <| (Gen.V3_of m outs c main_arg7 (by decide)).trans <| (Gen.V2_of m outs c main_arg7 (by decide)).trans <| (Gen.V1_of m c main_arg7 (by decide)).trans rfl
theorem V10_arg3 : Gen.V10 m outs c main_arg3 = (m ((c.tc : Thread nD τ).loc main_arg3)) :=
  (Gen.V10_of m outs c main_arg3 (by decide)).trans <| (Gen.V9_of m outs c main_arg3 (by decide)).trans <| (Gen.V8_of m outs c main_arg3 (by decide)).trans <| (Gen.V7_of m outs c main_arg3 (by decide)).trans <| (Gen.V6_of m outs c main_arg3 (by decide)).trans <| (Gen.V5_of m outs c main_arg3 (by decide)).trans <| (Gen.V4_of m outs c main_arg3 (by decide)).trans <| (Gen.V3_of m outs c main_arg3 (by decide)).trans <| (Gen.V2_of m outs c main_arg3 (by decide)).trans <| (Gen.V1_of m c main_arg3 (by decide)).trans rfl

/-- The pooling chain stretch by stretch: each piece as a function of what the regions left and the index arrays. -/
theorem V7_v16 : Gen.V7 m outs c main_v16 = segMeanA (F := Ideal) (m ((c.tc : Thread nD τ).loc main_arg1)) (outs 2 main_v1 c) :=
  (hostOps3_v16 (Gen.V6 m outs c)).trans (by rw [V6_arg1 m outs c, V6_v1 m outs c])
theorem V10_v16 : Gen.V10 m outs c main_v16 = segMeanA (F := Ideal) (m ((c.tc : Thread nD τ).loc main_arg1)) (outs 2 main_v1 c) :=
  (Gen.V10_of m outs c main_v16 (by decide)).trans <| (Gen.V9_of m outs c main_v16 (by decide)).trans <| (Gen.V8_of m outs c main_v16 (by decide)).trans <| V7_v16 m outs c
theorem V8_v17 : Gen.V8 m outs c main_v17 = takeA (F := Ideal) (outs 6 main_v5 c) (m ((c.tc : Thread nD τ).loc main_arg5)) :=
  (hostOps3_1_v17 (Gen.V7 m outs c)).trans (by rw [V7_v5 m outs c, V7_arg5 m outs c])
theorem V9_v29 : Gen.V9 m outs c main_v29 = edgeCat (F := Ideal) (outs 4 main_v3 c) (m ((c.tc : Thread nD τ).loc main_arg6)) (takeA (F := Ideal) (outs 6 main_v5 c) (m ((c.tc : Thread nD τ).loc main_arg5))) :=
  (hostOps3_2_v29 (Gen.V8 m outs c)).trans (by rw [V8_v3 m outs c, V8_arg6 m outs c, V8_v17 m outs c])
theorem V10_v30 : Gen.V10 m outs c main_v30 = takeB (F := Ideal) (edgeCat (F := Ideal) (outs 4 main_v3 c) (m ((c.tc : Thread nD τ).loc main_arg6)) (takeA (F := Ideal) (outs 6 main_v5 c) (m ((c.tc : Thread nD τ).loc main_arg5)))) (m ((c.tc : Thread nD τ).loc main_arg7)) :=
  (hostOps3_3_v30 (Gen.V9 m outs c)).trans (by rw [V9_v29 m outs c, V9_arg7 m outs c])
theorem V11_v42 : Gen.V11 m outs c main_v42 = pooled (F := Ideal) (segMeanA (F := Ideal) (m ((c.tc : Thread nD τ).loc main_arg1)) (outs 2 main_v1 c))
      (takeB (F := Ideal) (edgeCat (F := Ideal) (outs 4 main_v3 c) (m ((c.tc : Thread nD τ).loc main_arg6)) (takeA (F := Ideal) (outs 6 main_v5 c) (m ((c.tc : Thread nD τ).loc main_arg5)))) (m ((c.tc : Thread nD τ).loc main_arg7)))
      (segMeanB (F := Ideal) (m ((c.tc : Thread nD τ).loc main_arg3)) (outs 4 main_v3 c)) :=
  (hostOps3_4_v42 (Gen.V10 m outs c)).trans (by rw [V10_v16 m outs c, V10_v30 m outs c, V10_arg3 m outs c, V10_v3 m outs c])

/-- The action features the head is handed are the pooling chain of what the three encoder regions left, when the two
    gather index arrays are in range. -/
theorem glue_eq (h5 : InRange 2097152 (m ((c.tc : Thread nD τ).loc main_arg5))) (h7 : InRange 1048576 (m ((c.tc : Thread nD τ).loc main_arg7))) :
    Gen.V11 m outs c main_v42
      = Cert.ReferenceIdeal.Spec.glue (F := Ideal) (outs 2 main_v1 c) (outs 4 main_v3 c) (outs 6 main_v5 c)
          (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) := by
  rw [V11_v42 m outs c, takeA_eq _ _ h5, takeB_eq _ _ h7]
  exact pooled_eq_glue _ _ _ _ _ _ _ _

end Cert.KernelIdeal.Val

end
-- ==== Proof.KernelValue.lean ====
/-
  The idealized kernel's result array, as one function of the launch contents of the twenty arguments: the head region
  leaves the head of what it finds; what it finds is the pooling chain of what the three encoder regions left, the
  weights as launched and the bias vectors as one-row matrices; each encoder region leaves the encoder stage of its
  input, weights and bias row. Together: the specification's `whole`, wherever the two gather index arrays are in range.
-/
import proofs.«417565_j46454366273713_1_alg».proof.Proof.FrameKI.Run
import proofs.«417565_j46454366273713_1_alg».proof.Proof.ValueKI.Enc0
import proofs.«417565_j46454366273713_1_alg».proof.Proof.ValueKI.Enc1
import proofs.«417565_j46454366273713_1_alg».proof.Proof.ValueKI.Enc2
import proofs.«417565_j46454366273713_1_alg».proof.Proof.ValueKI.Head3
import proofs.«417565_j46454366273713_1_alg».proof.Proof.ValueKI.Glue

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand
open Cert.Bridge (InRange)

variable (m : (ℓ : Loc nD τ sig) → Buf (Elt Ideal) ℓ) (c : Dev nD)

/-- What region 0 left is the encoder stage of requests_x, W_req and b_req. -/
theorem left0 : outs m 2 main_v1 c = Cert.ReferenceIdeal.Spec.enc10 (F := Ideal) (m ((c.tc : Thread nD τ).loc main_arg0)) (m ((c.tc : Thread nD τ).loc main_arg8)) (Cert.ReferenceIdeal.Spec.row16 (m ((c.tc : Thread nD τ).loc main_arg9))) :=
  (outs_v1 m c).trans ((final0 (En0 m) c).trans
    (congr (congr (congrArg (Cert.ReferenceIdeal.Spec.enc10 (F := Ideal)) (V1_arg0 m c)) (V1_arg8 m c)) (row_v0 m c)))

/-- What region 1 left is the encoder stage of vehicles_x, W_veh and b_veh. -/
theorem left1 : outs m 4 main_v3 c = Cert.ReferenceIdeal.Spec.enc8 (F := Ideal) (m ((c.tc : Thread nD τ).loc main_arg2)) (m ((c.tc : Thread nD τ).loc main_arg10)) (Cert.ReferenceIdeal.Spec.row16 (m ((c.tc : Thread nD τ).loc main_arg11))) :=
  (outs_v3 m c).trans ((final1 (En1 m) c).trans
    (congr (congr (congrArg (Cert.ReferenceIdeal.Spec.enc8 (F := Ideal)) (V3_arg2 m (outsA m) c)) (V3_arg10 m (outsA m) c)) (row_v2 m (outsA m) c)))

/-- What region 2 left is the encoder stage of passengers_x, W_pas and b_pas. -/
theorem left2 : outs m 6 main_v5 c = Cert.ReferenceIdeal.Spec.enc10 (F := Ideal) (m ((c.tc : Thread nD τ).loc main_arg4)) (m ((c.tc : Thread nD τ).loc main_arg12)) (Cert.ReferenceIdeal.Spec.row16 (m ((c.tc : Thread nD τ).loc main_arg13))) :=
  (outs_v5 m c).trans ((final2 (En2 m) c).trans
    (congr (congr (congrArg (Cert.ReferenceIdeal.Spec.enc10 (F := Ideal)) (V5_arg4 m (outsB m) c)) (V5_arg12 m (outsB m) c)) (row_v4 m (outsB m) c)))

set_option maxHeartbeats 2000000 in
/-- What the head region finds in its first window is the pooling chain of the three encoder stages. -/
theorem found3 (h5 : InRange 2097152 (m ((c.tc : Thread nD τ).loc main_arg5))) (h7 : InRange 1048576 (m ((c.tc : Thread nD τ).loc main_arg7))) :
    Gen.V11 m (outs m) c main_v42
      = Cert.ReferenceIdeal.Spec.glue (F := Ideal) (Cert.ReferenceIdeal.Spec.enc10 (m ((c.tc : Thread nD τ).loc main_arg0)) (m ((c.tc : Thread nD τ).loc main_arg8)) (Cert.ReferenceIdeal.Spec.row16 (m ((c.tc : Thread nD τ).loc main_arg9)))) (Cert.ReferenceIdeal.Spec.enc8 (m ((c.tc : Thread nD τ).loc main_arg2)) (m ((c.tc : Thread nD τ).loc main_arg10)) (Cert.ReferenceIdeal.Spec.row16 (m ((c.tc : Thread nD τ).loc main_arg11))))
          (Cert.ReferenceIdeal.Spec.enc10 (m ((c.tc : Thread nD τ).loc main_arg4)) (m ((c.tc : Thread nD τ).loc main_arg12)) (Cert.ReferenceIdeal.Spec.row16 (m ((c.tc : Thread nD τ).loc main_arg13)))) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) :=
  (glue_eq m (outs m) c h5 h7).trans
    (congr (congr (congr (congr (congr (congr (congr (congrArg (Cert.ReferenceIdeal.Spec.glue (F := Ideal)) (left0 m c)) (left1 m c)) (left2 m c)) rfl) rfl) rfl) rfl) rfl)

set_option maxHeartbeats 2000000 in
/-- The head region's output array is the specification's function of the arguments. -/
theorem kernel_result (h5 : InRange 2097152 (m ((c.tc : Thread nD τ).loc main_arg5))) (h7 : InRange 1048576 (m ((c.tc : Thread nD τ).loc main_arg7))) :
    (dat3 (F := Ideal) (En3 m) c).arrAt 7 cfg3.N
      = Cert.ReferenceIdeal.Spec.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (final3 (En3 m) c).trans
    (congr (congr (congr (congr (congr (congr (congrArg (Cert.ReferenceIdeal.Spec.head (F := Ideal)) ((congrFun (V11_outs m c) (Proc.devRef .tc main_v42)).symm.trans (found3 m c h5 h7)))
      (V11_arg14 m (outsC m) c)) (row_v43 m (outsC m) c)) (V11_arg16 m (outsC m) c)) (row_v44 m (outsC m) c)) (V11_arg18 m (outsC m) c)) (row_v45 m (outsC m) c))

end Cert.KernelIdeal.Val

end
-- ==== Proof.Bridge.PreRange.lean ====
/-
  Reading the precondition: where it holds, the two gather index arrays are in range. The precondition is a
  conjunction of "every entry satisfies …" tests; the last four say 0 ≤ idx and idx < extent, signed, of
  veh2pas_receiver_edge_index (extent 2097152) and req2veh_receiver_start_index (extent 1048576).
-/
import proofs.«417565_j46454366273713_1_alg».proof.Proof.Gen.Pre_finite_inputs
import proofs.«417565_j46454366273713_1_alg».proof.Proof.Bridge.Range
import Idealize.ShloMosaic.Lib.ReduceAll
import Idealize.ShloMosaic.Lib.StableHlo.Predicate

set_option maxRecDepth 16384

noncomputable section

namespace Cert.Bridge

open Idealize.ShloMosaic Cert.Pre_finite_inputs Cert.Pre_finite_inputs.Gen

variable {F : FTy → Type} [FloatOps F]

/-- The scalar shape has exactly one index. -/
instance subsingleton_scalar_idx : Subsingleton S_.Idx := ⟨fun a b => funext fun d => d.elim0⟩

/-- A 32-bit word that is at least 0 and below `N` in the signed order, `N` below 2³¹, has unsigned value below `N`:
    a signed-non-negative word has its top bit clear, so its signed and unsigned readings agree. -/
theorem toNat_lt_of_sge_zero_of_slt {N : ℕ} (hN : N < 2 ^ 31) (w : BitVec 32)
    (h0 : IntOp.cmpi .sge w 0#32 = 1#1) (h1 : IntOp.cmpi .slt w (BitVec.ofNat 32 N) = 1#1) : w.toNat < N := by
  rw [IntOp.cmpi_sge] at h0
  rw [IntOp.cmpi_slt, StableHlo.Predicate.toInt_ofNat_small N hN] at h1
  have hz : (0#32 : BitVec 32).toInt = 0 := by decide
  rw [hz] at h0
  rw [BitVec.toInt_eq_toNat_cond] at h0 h1
  split at h0 <;> omega

/-- A reduce-by-and over all axes of the compare of an array with a broadcast scalar constant that came out 1
    says the compare holds of every entry of the array against that constant. -/
theorem cmpi_const_of_reduce_all {s : Shape} {axes : List (Fin s.rank)} (p : CmpIPredicate) (a : IVec s 32) (c : BitVec 32)
    (hb : S_.BroadcastsInDim s (![] : Fin 0 → Fin s.rank)) (hr : s.ReducesTo axes S_) (hu : 0 < S_.numel) (init : IVec S_ 1)
    (j : S_.Idx)
    (e : Host.reduce IntOp.andi (cmpi p a (broadcastInDim s ![] hb (constantI S_ 32 c))) init hr hu j = 1#1)
    (i : s.Idx) : IntOp.cmpi p (a i) c = 1#1 := by
  have hi := Host.reduce_andi_all _ init hr hu j e i
  rw [show cmpi p a (broadcastInDim s ![] hb (constantI S_ 32 c)) i
        = IntOp.cmpi p (a i) (broadcastInDim s ![] hb (constantI S_ 32 c) i) from rfl,
      StableHlo.Predicate.bcast_scalar hb hu] at hi
  exact hi

/-- Where the precondition holds, every entry of the two gather index arrays is a row number of the array it indexes. -/
theorem range_of_fn (a0 : FVec F S2097152x10 .f32) (a1 : IVec S2097152 32) (a2 : FVec F S1048576x8 .f32) (a3 : IVec S1048576 32)
    (a4 : FVec F S2097152x10 .f32) (a5 : IVec S4194304 32) (a6 : IVec S4194304 32) (a7 : IVec S65536 32)
    (a8 : FVec F S10x16 .f32) (a9 : FVec F S16 .f32) (a10 : FVec F S8x16 .f32) (a11 : FVec F S16 .f32) (a12 : FVec F S10x16 .f32) (a13 : FVec F S16 .f32)
    (a14 : FVec F S64x64 .f32) (a15 : FVec F S64 .f32) (a16 : FVec F S64x64 .f32) (a17 : FVec F S64 .f32) (a18 : FVec F S64x1 .f32) (a19 : FVec F S1 .f32)
    (h : fn (F := F) a0 a1 a2 a3 a4 a5 a6 a7 a8 a9 a10 a11 a12 a13 a14 a15 a16 a17 a18 a19 = fun _ => 1#1) :
    InRange 2097152 a5 ∧ InRange 1048576 a7 := by
  have h0 := congrFun h (fun a => a.elim0)
  dsimp only [fn, fn_part1, fn_part2, fn_part3, fn_part4, fn_part5] at h0
  dsimp only [Idealize.ShloMosaic.andi] at h0
  simp only [IntOp.andi_eq_one] at h0
  obtain ⟨⟨⟨⟨-, h5ge⟩, h5lt⟩, h7ge⟩, h7lt⟩ := h0
  refine ⟨fun e => ?_, fun e => ?_⟩
  · exact toNat_lt_of_sge_zero_of_slt (N := 2097152) (by decide) (a5 e)
      (cmpi_const_of_reduce_all _ a5 _ _ _ _ _ _ h5ge e) (cmpi_const_of_reduce_all _ a5 _ _ _ _ _ _ h5lt e)
  · exact toNat_lt_of_sge_zero_of_slt (N := 1048576) (by decide) (a7 e)
      (cmpi_const_of_reduce_all _ a7 _ _ _ _ _ _ h7ge e) (cmpi_const_of_reduce_all _ a7 _ _ _ _ _ _ h7lt e)

end Cert.Bridge

end
-- ==== Proof.Bridge.RefShape.lean ====
/-
  The reference's result, as its run states it, is the specification's `whole` of the twenty arguments: the run's composed
  term is the head of the pooling chain of the three encoder stages, operation for operation.
-/
import proofs.«417565_j46454366273713_1_alg».proof.Proof.Gen.ReferenceIdeal.Run
import proofs.«417565_j46454366273713_1_alg».proof.Proof.Bridge.Spec

set_option maxRecDepth 16384

noncomputable section

namespace Cert.ReferenceIdeal.Spec

open Cert.ReferenceIdeal Cert.ReferenceIdeal.Gen Idealize.ShloMosaic Idealize.ShloMosaic.TcCoe Idealize.SL.Sem

variable {F : FTy → Type} [FloatOps F]

/-- The reference run's result term is `whole` of the arguments' launch contents. -/
theorem res_eq (m : (ℓ : Loc nD τ sig) → Buf (Elt F) ℓ) (c : Dev nD) :
    Cert.ReferenceIdeal.Value.res_main_v77 (F := F) m c
      = whole (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold Cert.ReferenceIdeal.Value.res_main_v77 whole head glue enc10 enc8 row16 row64 row1
  rfl

/-- The same, with the arguments' launch contents named: if each argument holds `aK`, the result term is `whole a0 … a19`. -/
theorem res_eq_of_agree (m : (ℓ : Loc nD τ sig) → Buf (Elt F) ℓ) (c : Dev nD)
    (a0 : FVec F S2097152x10 .f32) (a1 : IVec S2097152 32) (a2 : FVec F S1048576x8 .f32) (a3 : IVec S1048576 32) (a4 : FVec F S2097152x10 .f32) (a5 : IVec S4194304 32) (a6 : IVec S4194304 32) (a7 : IVec S65536 32) (a8 : FVec F S10x16 .f32) (a9 : FVec F S16 .f32) (a10 : FVec F S8x16 .f32) (a11 : FVec F S16 .f32) (a12 : FVec F S10x16 .f32) (a13 : FVec F S16 .f32) (a14 : FVec F S64x64 .f32) (a15 : FVec F S64 .f32) (a16 : FVec F S64x64 .f32) (a17 : FVec F S64 .f32) (a18 : FVec F S64x1 .f32) (a19 : FVec F S1 .f32)
    (h0 : m ((c.tc : Thread nD τ).loc main_arg0) = a0)
    (h1 : m ((c.tc : Thread nD τ).loc main_arg1) = a1)
    (h2 : m ((c.tc : Thread nD τ).loc main_arg2) = a2)
    (h3 : m ((c.tc : Thread nD τ).loc main_arg3) = a3)
    (h4 : m ((c.tc : Thread nD τ).loc main_arg4) = a4)
    (h5 : m ((c.tc : Thread nD τ).loc main_arg5) = a5)
    (h6 : m ((c.tc : Thread nD τ).loc main_arg6) = a6)
    (h7 : m ((c.tc : Thread nD τ).loc main_arg7) = a7)
    (h8 : m ((c.tc : Thread nD τ).loc main_arg8) = a8)
    (h9 : m ((c.tc : Thread nD τ).loc main_arg9) = a9)
    (h10 : m ((c.tc : Thread nD τ).loc main_arg10) = a10)
    (h11 : m ((c.tc : Thread nD τ).loc main_arg11) = a11)
    (h12 : m ((c.tc : Thread nD τ).loc main_arg12) = a12)
    (h13 : m ((c.tc : Thread nD τ).loc main_arg13) = a13)
    (h14 : m ((c.tc : Thread nD τ).loc main_arg14) = a14)
    (h15 : m ((c.tc : Thread nD τ).loc main_arg15) = a15)
    (h16 : m ((c.tc : Thread nD τ).loc main_arg16) = a16)
    (h17 : m ((c.tc : Thread nD τ).loc main_arg17) = a17)
    (h18 : m ((c.tc : Thread nD τ).loc main_arg18) = a18)
    (h19 : m ((c.tc : Thread nD τ).loc main_arg19) = a19) :
    Cert.ReferenceIdeal.Value.res_main_v77 (F := F) m c = whole (F := F) a0 a1 a2 a3 a4 a5 a6 a7 a8 a9 a10 a11 a12 a13 a14 a15 a16 a17 a18 a19 := by
  subst h0 h1 h2 h3 h4 h5 h6 h7 h8 h9 h10 h11 h12 h13 h14 h15 h16 h17 h18 h19
  exact res_eq m c

end Cert.ReferenceIdeal.Spec

end
-- ==== Proof.lean ====
/-
  The certificate of j46454366273713/1: a graph critic — three per-node-type encoders tanh (x · W + b) as tiled kernels,
  segment means and two row gathers as host operations, and a three-layer head as a fourth kernel — against its jnp
  reference, over the extended reals.

  Frames. Every program terminates from any memory and leaves its twenty argument arrays as launched. For the two
  kernel programs @main is run as twelve items (host stretches and the four regions), the contents of every unscoped
  buffer named at each boundary; each region's body reads whole blocks and stores one whole block, so its pipeline's
  proof data are exact and nothing is carried between grid points. The reference is a straight line of host operations.

  Value. At the extended reals a change of float format is the identity and a matrix product into a zero accumulator is
  the host's contraction, so each encoder region leaves tanh (x · W + b) of the arrays it finds and the head region the
  three-layer head of what it finds, as whole-array functions. The host operations between the regions are the
  reference's own, except that the kernel reads rows with a guard that replaces rows outside the array by a fill where
  the reference clamps the row number: with the two gather index arrays in range (the precondition's last four
  conjuncts) the guard never fires and the two chains are one function. The kernel's result and the reference's are then
  the same function of the arguments, `Spec.whole`.
-/
import proofs.«417565_j46454366273713_1_alg».proof.Defs
import proofs.«417565_j46454366273713_1_alg».proof.Proof.Gen.Kernel
import proofs.«417565_j46454366273713_1_alg».proof.Proof.Gen.KernelIdeal
import proofs.«417565_j46454366273713_1_alg».proof.Proof.Gen.ReferenceIdeal
import proofs.«417565_j46454366273713_1_alg».proof.Proof.Gen.ReferenceIdeal.Run
import proofs.«417565_j46454366273713_1_alg».proof.Proof.Gen.Pre_finite_inputs
import proofs.«417565_j46454366273713_1_alg».proof.Proof.FrameK.Run
import proofs.«417565_j46454366273713_1_alg».proof.Proof.FrameKI.Run
import proofs.«417565_j46454366273713_1_alg».proof.Proof.KernelValue
import proofs.«417565_j46454366273713_1_alg».proof.Proof.Bridge.PreRange
import proofs.«417565_j46454366273713_1_alg».proof.Proof.Bridge.RefShape
import Idealize.ShloMosaic.Adequacy
import Idealize.ShloMosaic.Init

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

set_option maxHeartbeats 2000000 in
/-- Both idealized programs end with the result at `Spec.whole` of the (agreeing) arguments. -/
theorem algebraic : Cert.algebraic_KernelIdeal_ReferenceIdeal := by
  intro m ρ m' ρ' hpre hagree
  refine ⟨fun c => Cert.ReferenceIdeal.Spec.whole (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · refine (θ_run Cert.KernelIdeal.defs _ _).mono (fun r h c => ⟨(h c).1.trans ?_, (h c).2⟩)
      (Cert.KernelIdeal.Hand.run_result (F := Ideal) m ρ)
    have hr := Cert.Bridge.range_of_fn (F := Ideal) _ _ _ _ _ _ _ _ _ _ _ _ _ _ _ _ _ _ _ _ (hpre c)
    exact Cert.KernelIdeal.Val.kernel_result m c hr.1 hr.2
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    exact Cert.ReferenceIdeal.Spec.res_eq_of_agree (F := Ideal) m' c _ _ _ _ _ _ _ _ _ _ _ _ _ _ _ _ _ _ _ _
      h0 h1 h2 h3 h4 h5 h6 h7 h8 h9 h10 h11 h12 h13 h14 h15 h16 h17 h18 h19

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
